-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x640000 : Shape := ⟨2, ![2, 640000]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S64x128 .f32) (main_arg6 : FVec F S128 .f32) (main_arg7 : FVec F S64x128 .f32) (main_arg8 : FVec F S128x64 .f32) (main_arg9 : FVec F S64 .f32) (main_arg10 : FVec F S128x64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x32 .f32) (main_arg1 : IVec S2x640000 32) (main_arg2 : FVec F S32x64 .f32) (main_arg3 : FVec F S64 .f32) (main_arg4 : FVec F S32x64 .f32) (main_arg5 : FVec F S64x128 .f32) (main_arg6 : FVec F S128 .f32) (main_arg7 : FVec F S64x128 .f32) (main_arg8 : FVec F S128x64 .f32) (main_arg9 : FVec F S64 .f32) (main_arg10 : FVec F S128x64 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_v13 main_v16
-- ==== Kernel.lean ====
abbrev S50000x32 : Shape := ⟨2, ![50000, 32]⟩
abbrev S2x640000 : Shape := ⟨2, ![2, 640000]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x32 : Shape := ⟨2, ![640000, 32]⟩
abbrev S1x64 : Shape := ⟨2, ![1, 64]⟩
abbrev S50000x64 : Shape := ⟨2, ![50000, 64]⟩
abbrev S1000x32 : Shape := ⟨2, ![1000, 32]⟩
abbrev S1000x64 : Shape := ⟨2, ![1000, 64]⟩
abbrev S640000x64 : Shape := ⟨2, ![640000, 64]⟩
abbrev S1x128 : Shape := ⟨2, ![1, 128]⟩
abbrev S50000x128 : Shape := ⟨2, ![50000, 128]⟩
abbrev S1000x128 : Shape := ⟨2, ![1000, 128]⟩
abbrev S64x64 : Shape := ⟨2, ![64, 64]⟩

abbrev nBuf : Space → Nat
  | .hbm => 85
  | .vmem => 32
  | .smem => 0
  | _ => 0

abbrev bufTy : (tb : Table) → Fin (tcTables nBuf tb) → BufTy
  | .hbm, ⟨0, _⟩ => ⟨S50000x32, .f32⟩
  | .hbm, ⟨1, _⟩ => ⟨S2x640000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x128, .f32⟩
  | .hbm, ⟨6, _⟩ => ⟨S128, .f32⟩
  | .hbm, ⟨7, _⟩ => ⟨S64x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S50000, .f32⟩
  | .hbm, ⟨19, _⟩ => ⟨S640000x1, .i32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x32, .f32⟩
  | .hbm, ⟨31, _⟩ => ⟨S_, .f32⟩
  | .hbm, ⟨32, _⟩ => ⟨S50000x32, .f32⟩
  | .hbm, ⟨33, _⟩ => ⟨S640000x1, .i32⟩
  | .hbm, ⟨34, _⟩ => ⟨S50000x32, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x32, .f32⟩
  | .hbm, ⟨39, _⟩ => ⟨S50000x32, .f32⟩
  | .hbm, ⟨40, _⟩ => ⟨S1x64, .f32⟩
  | .hbm, ⟨41, _⟩ => ⟨S50000x64, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x64, .f32⟩
  | .hbm, ⟨51, _⟩ => ⟨S_, .f32⟩
  | .hbm, ⟨52, _⟩ => ⟨S50000x64, .f32⟩
  | .hbm, ⟨53, _⟩ => ⟨S640000x1, .i32⟩
  | .hbm, ⟨54, _⟩ => ⟨S50000x64, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x64, .f32⟩
  | .hbm, ⟨59, _⟩ => ⟨S50000x64, .f32⟩
  | .hbm, ⟨60, _⟩ => ⟨S1x128, .f32⟩
  | .hbm, ⟨61, _⟩ => ⟨S50000x128, .f32⟩
  | .hbm, ⟨62, _⟩ => ⟨S50000x64, .f32⟩
  | .hbm, ⟨63, _⟩ => ⟨S_, .i32⟩
  | .hbm, ⟨64, _⟩ => ⟨S640000, .i32⟩
  | .hbm, ⟨65, _⟩ => ⟨S640000, .i1⟩
  | .hbm, ⟨66, _⟩ => ⟨S_, .i32⟩
  | .hbm, ⟨67, _⟩ => ⟨S640000, .i32⟩
  | .hbm, ⟨68, _⟩ => ⟨S640000, .i32⟩
  | .hbm, ⟨69, _⟩ => ⟨S640000, .i32⟩
  | .hbm, ⟨70, _⟩ => ⟨S640000x1, .i32⟩
  | .hbm, ⟨71, _⟩ => ⟨S640000x64, .f32⟩
  | .hbm, ⟨72, _⟩ => ⟨S_, .f32⟩
  | .hbm, ⟨73, _⟩ => ⟨S50000x64, .f32⟩
  | .hbm, ⟨74, _⟩ => ⟨S640000x1, .i32⟩
  | .hbm, ⟨75, _⟩ => ⟨S50000x64, .f32⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S64x64, .f32⟩
  | .hbm, ⟨83, _⟩ => ⟨S1x64, .f32⟩
  | .hbm, ⟨84, _⟩ => ⟨S50000x64, .f32⟩
  | .local _ .vmem, ⟨0, _⟩ => ⟨S1000x32, .f32⟩
  | .local _ .vmem, ⟨1, _⟩ => ⟨S1000x32, .f32⟩
  | .local _ .vmem, ⟨2, _⟩ => ⟨S1000x32, .f32⟩
  | .local _ .vmem, ⟨3, _⟩ => ⟨S1000x32, .f32⟩
  | .local _ .vmem, ⟨4, _⟩ => ⟨S32x64, .f32⟩
  | .local _ .vmem, ⟨5, _⟩ => ⟨S32x64, .f32⟩
  | .local _ .vmem, ⟨6, _⟩ => ⟨S1x64, .f32⟩
  | .local _ .vmem, ⟨7, _⟩ => ⟨S1000x64, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S1000x64, .f32⟩
  | .local _ .vmem, ⟨13, _⟩ => ⟨S64x128, .f32⟩
  | .local _ .vmem, ⟨14, _⟩ => ⟨S64x128, .f32⟩
  | .local _ .vmem, ⟨15, _⟩ => ⟨S1x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S128x64, .f32⟩
  | .local _ .vmem, ⟨21, _⟩ => ⟨S1000x64, .f32⟩
  | .local _ .vmem, ⟨22, _⟩ => ⟨S1000x64, .f32⟩
  | .local _ .vmem, ⟨23, _⟩ => ⟨S1000x64, .f32⟩
  | .local _ .vmem, ⟨24, _⟩ => ⟨S1000x64, .f32⟩
  | .local _ .vmem, ⟨25, _⟩ => ⟨S1000x128, .f32⟩
  | .local _ .vmem, ⟨26, _⟩ => ⟨S1000x128, .f32⟩
  | .local _ .vmem, ⟨27, _⟩ => ⟨S64x64, .f32⟩
  | .local _ .vmem, ⟨28, _⟩ => ⟨S128x64, .f32⟩
  | .local _ .vmem, ⟨29, _⟩ => ⟨S1x64, .f32⟩
  | .local _ .vmem, ⟨30, _⟩ => ⟨S1000x64, .f32⟩
  | .local _ .vmem, ⟨31, _⟩ => ⟨S1000x64, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S_S50000x32 : S_.BroadcastsInDim S50000x32 (![] : Fin 0 → Fin S50000x32.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  shapeCasts_S64_S1x64 : S64.ShapeCasts S1x64
  inb_S1000x32_S1000x32_0_0 : ∀ a, (![0, 0] : Fin 2 → Nat) a + S1000x32.size a ≤ S1000x32.size a
  h_S1000x32 : 0 < S1000x32.numel
  inb_S32x64_S32x64_0_0 : ∀ a, (![0, 0] : Fin 2 → Nat) a + S32x64.size a ≤ S32x64.size a
  h_S32x64 : 0 < S32x64.numel
  shapeCasts_S1000x32_S1000x32 : S1000x32.ShapeCasts S1000x32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S128_S1x128 : S128.ShapeCasts S1x128
  shapeCasts_S1000x64_S1000x64 : S1000x64.ShapeCasts S1000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x64_S128x64_0_0 : ∀ a, (![0, 0] : Fin 2 → Nat) a + S128x64.size a ≤ S128x64.size a
  h_S128x64 : 0 < S128x64.numel
  bcast_S_S64x64 : S_.BroadcastsInDim S64x64 (![] : Fin 0 → Fin S64x64.rank)
  scatter_S50000_S640000x1_S640000_n_0_0_1_wf : ScatterDims.WF S50000 S640000x1 S640000 [] [0] [0] 1
  gather_S50000x32_S640000x1_S640000x32_1_0_n_n_0_1_132_wf : GatherDims.WF S50000x32 S640000x1 S640000x32 [1] [0] [] [0] [] 1 ![1, 32]
  scatter_S50000x32_S640000x1_S640000x32_1_0_0_1_wf : ScatterDims.WF S50000x32 S640000x1 S640000x32 [1] [0] [0] 1
  dot_S1000x32_S32x64_S1000x64_1_0_0_1_n_n_wf : DotDims.WF S1000x32 S32x64 S1000x64 [1] [0] [0] [1] [] []
  gather_S50000x64_S640000x1_S640000x64_1_0_n_n_0_1_164_wf : GatherDims.WF S50000x64 S640000x1 S640000x64 [1] [0] [] [0] [] 1 ![1, 64]
  scatter_S50000x64_S640000x1_S640000x64_1_0_0_1_wf : ScatterDims.WF S50000x64 S640000x1 S640000x64 [1] [0] [0] 1
  dot_S1000x64_S64x128_S1000x128_1_0_0_1_n_n_wf : DotDims.WF S1000x64 S64x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32.size a ≤ S50000x32.size a
  hwx0_0 : ∀ i : grid0.Coords, EltTy.bits .f32 = 32 ∨ (Rect.block (s := S50000x32) S1000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x32.size a ≤ S50000x32.size a
  hwx0_1 : ∀ i : grid0.Coords, EltTy.bits .f32 = 32 ∨ (Rect.block (s := S50000x32) S1000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x64.size a ≤ S50000x64.size a
  hwx0_5 : ∀ i : grid0.Coords, EltTy.bits .f32 = 32 ∨ (Rect.block (s := S50000x64) S1000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .f32 = 32 ∨ (Rect.block (s := S50000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S50000x64.size a
  hwx1_1 : ∀ i : grid1.Coords, EltTy.bits .f32 = 32 ∨ (Rect.block (s := S50000x64) S1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S50000x128.size a
  hwx1_5 : ∀ i : grid1.Coords, EltTy.bits .f32 = 32 ∨ (Rect.block (s := S50000x128) S1000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S50000x64.size a
  hwx2_2 : ∀ i : grid2.Coords, EltTy.bits .f32 = 32 ∨ (Rect.block (s := S50000x64) S1000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S50000x64.size a
  hwx3_0 : ∀ i : grid3.Coords, EltTy.bits .f32 = 32 ∨ (Rect.block (s := S50000x64) S1000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S50000x128.size a
  hwx3_1 : ∀ i : grid3.Coords, EltTy.bits .f32 = 32 ∨ (Rect.block (s := S50000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x64.size a ≤ S50000x64.size a
  hwx3_5 : ∀ i : grid3.Coords, EltTy.bits .f32 = 32 ∨ (Rect.block (s := S50000x64) S1000x64.size (cc3_transform_5 i) (hinb3_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x32_S640000x1_S640000x32_1_0_n_n_0_1_132 : GatherDims S50000x32 S640000x1 S640000x32 where
  offsetDims := [1]
  collapsedSliceDims := [0]
  operandBatchingDims := []
  startIndicesBatchingDims := []
  startIndexMap := [0]
  indexVectorDim := 1
  sliceSizes := ![1, 32]
  wf := gather_S50000x32_S640000x1_S640000x32_1_0_n_n_0_1_132_wf
def scatter_S50000x32_S640000x1_S640000x32_1_0_0_1 : ScatterDims S50000x32 S640000x1 S640000x32 where
  updateWindowDims := [1]
  insertedWindowDims := [0]
  scatterDimsToOperandDims := [0]
  indexVectorDim := 1
  wf := scatter_S50000x32_S640000x1_S640000x32_1_0_0_1_wf
def dot_S1000x32_S32x64_S1000x64_1_0_0_1_n_n : DotDims S1000x32 S32x64 S1000x64 where
  lhsContracting := [1]
  rhsContracting := [0]
  lhsNonContracting := [0]
  rhsNonContracting := [1]
  lhsBatch := []
  rhsBatch := []
  wf := dot_S1000x32_S32x64_S1000x64_1_0_0_1_n_n_wf
def gather_S50000x64_S640000x1_S640000x64_1_0_n_n_0_1_164 : GatherDims S50000x64 S640000x1 S640000x64 where
  offsetDims := [1]
  collapsedSliceDims := [0]
  operandBatchingDims := []
  startIndicesBatchingDims := []
  startIndexMap := [0]
  indexVectorDim := 1
  sliceSizes := ![1, 64]
  wf := gather_S50000x64_S640000x1_S640000x64_1_0_n_n_0_1_164_wf
def scatter_S50000x64_S640000x1_S640000x64_1_0_0_1 : ScatterDims S50000x64 S640000x1 S640000x64 where
  updateWindowDims := [1]
  insertedWindowDims := [0]
  scatterDimsToOperandDims := [0]
  indexVectorDim := 1
  wf := scatter_S50000x64_S640000x1_S640000x64_1_0_0_1_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_v22) S1000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S1000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x32 : Shape := ⟨2, ![50000, 32]⟩
abbrev S2x640000 : Shape := ⟨2, ![2, 640000]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x32 : Shape := ⟨2, ![640000, 32]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S640000x64 : Shape := ⟨2, ![640000, 64]⟩
abbrev S50000x128 : Shape := ⟨2, ![50000, 128]⟩
abbrev S1x128 : Shape := ⟨2, ![1, 128]⟩
abbrev S640000x128 : Shape := ⟨2, ![640000, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2x640000, .i32⟩
  | .hbm, ⟨2, _⟩ => ⟨S32x64, .f32⟩
  | .hbm, ⟨3, _⟩ => ⟨S64, .f32⟩
  | .hbm, ⟨4, _⟩ => ⟨S32x64, .f32⟩
  | .hbm, ⟨5, _⟩ => ⟨S64x128, .f32⟩
  | .hbm, ⟨6, _⟩ => ⟨S128, .f32⟩
  | .hbm, ⟨7, _⟩ => ⟨S64x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x32, .f32⟩
  | .hbm, ⟨24, _⟩ => ⟨S_, .f32⟩
  | .hbm, ⟨25, _⟩ => ⟨S50000x32, .f32⟩
  | .hbm, ⟨26, _⟩ => ⟨S640000x1, .i32⟩
  | .hbm, ⟨27, _⟩ => ⟨S50000x32, .f32⟩
  | .hbm, ⟨28, _⟩ => ⟨S_, .f32⟩
  | .hbm, ⟨29, _⟩ => ⟨S640000, .f32⟩
  | .hbm, ⟨30, _⟩ => ⟨S_, .f32⟩
  | .hbm, ⟨31, _⟩ => ⟨S50000, .f32⟩
  | .hbm, ⟨32, _⟩ => ⟨S640000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x32, .f32⟩
  | .hbm, ⟨39, _⟩ => ⟨S50000x32, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x64, .f32⟩
  | .hbm, ⟨58, _⟩ => ⟨S_, .f32⟩
  | .hbm, ⟨59, _⟩ => ⟨S50000x64, .f32⟩
  | .hbm, ⟨60, _⟩ => ⟨S640000x1, .i32⟩
  | .hbm, ⟨61, _⟩ => ⟨S50000x64, .f32⟩
  | .hbm, ⟨62, _⟩ => ⟨S_, .f32⟩
  | .hbm, ⟨63, _⟩ => ⟨S640000, .f32⟩
  | .hbm, ⟨64, _⟩ => ⟨S_, .f32⟩
  | .hbm, ⟨65, _⟩ => ⟨S50000, .f32⟩
  | .hbm, ⟨66, _⟩ => ⟨S640000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x64, .f32⟩
  | .hbm, ⟨73, _⟩ => ⟨S50000x64, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S640000, .i32⟩
  | .hbm, ⟨85, _⟩ => ⟨S640000, .i1⟩
  | .hbm, ⟨86, _⟩ => ⟨S_, .i32⟩
  | .hbm, ⟨87, _⟩ => ⟨S640000, .i32⟩
  | .hbm, ⟨88, _⟩ => ⟨S640000, .i32⟩
  | .hbm, ⟨89, _⟩ => ⟨S640000, .i32⟩
  | .hbm, ⟨90, _⟩ => ⟨S640000x1, .i32⟩
  | .hbm, ⟨91, _⟩ => ⟨S640000x128, .f32⟩
  | .hbm, ⟨92, _⟩ => ⟨S_, .f32⟩
  | .hbm, ⟨93, _⟩ => ⟨S50000x128, .f32⟩
  | .hbm, ⟨94, _⟩ => ⟨S640000x1, .i32⟩
  | .hbm, ⟨95, _⟩ => ⟨S50000x128, .f32⟩
  | .hbm, ⟨96, _⟩ => ⟨S_, .f32⟩
  | .hbm, ⟨97, _⟩ => ⟨S640000, .f32⟩
  | .hbm, ⟨98, _⟩ => ⟨S_, .f32⟩
  | .hbm, ⟨99, _⟩ => ⟨S50000, .f32⟩
  | .hbm, ⟨100, _⟩ => ⟨S640000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x64, .f32⟩
  | .hbm, ⟨109, _⟩ => ⟨S1x64, .f32⟩
  | .hbm, ⟨110, _⟩ => ⟨S50000x64, .f32⟩
  | .hbm, ⟨111, _⟩ => ⟨S50000x64, .f32⟩
  | .hbm, ⟨112, _⟩ => ⟨S50000x64, .f32⟩
  | .hbm, ⟨113, _⟩ => ⟨S50000x64, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x32 : S_.BroadcastsInDim S50000x32 (![] : Fin 0 → Fin S50000x32.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  gather_S50000x32_S640000x1_S640000x32_1_0_n_n_0_1_132_wf : GatherDims.WF S50000x32 S640000x1 S640000x32 [1] [0] [] [0] [] 1 ![1, 32]
  scatter_S50000x32_S640000x1_S640000x32_1_0_0_1_wf : ScatterDims.WF S50000x32 S640000x1 S640000x32 [1] [0] [0] 1
  scatter_S50000_S640000x1_S640000_n_0_0_1_wf : ScatterDims.WF S50000 S640000x1 S640000 [] [0] [0] 1
  dot_S50000x32_S32x64_S50000x64_1_0_0_1_n_n_wf : DotDims.WF S50000x32 S32x64 S50000x64 [1] [0] [0] [1] [] []
  gather_S50000x64_S640000x1_S640000x64_1_0_n_n_0_1_164_wf : GatherDims.WF S50000x64 S640000x1 S640000x64 [1] [0] [] [0] [] 1 ![1, 64]
  scatter_S50000x64_S640000x1_S640000x64_1_0_0_1_wf : ScatterDims.WF S50000x64 S640000x1 S640000x64 [1] [0] [0] 1
  dot_S50000x64_S64x128_S50000x128_1_0_0_1_n_n_wf : DotDims.WF S50000x64 S64x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x64_S50000x64_1_0_0_1_n_n_wf : DotDims.WF S50000x128 S128x64 S50000x64 [1] [0] [0] [1] [] []

variable [Facts₀]

def gather_S50000x32_S640000x1_S640000x32_1_0_n_n_0_1_132 : GatherDims S50000x32 S640000x1 S640000x32 where
  offsetDims := [1]
  collapsedSliceDims := [0]
  operandBatchingDims := []
  startIndicesBatchingDims := []
  startIndexMap := [0]
  indexVectorDim := 1
  sliceSizes := ![1, 32]
  wf := gather_S50000x32_S640000x1_S640000x32_1_0_n_n_0_1_132_wf
def scatter_S50000x32_S640000x1_S640000x32_1_0_0_1 : ScatterDims S50000x32 S640000x1 S640000x32 where
  updateWindowDims := [1]
  insertedWindowDims := [0]
  scatterDimsToOperandDims := [0]
  indexVectorDim := 1
  wf := scatter_S50000x32_S640000x1_S640000x32_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S640000x1_S640000x64_1_0_n_n_0_1_164 : GatherDims S50000x64 S640000x1 S640000x64 where
  offsetDims := [1]
  collapsedSliceDims := [0]
  operandBatchingDims := []
  startIndicesBatchingDims := []
  startIndexMap := [0]
  indexVectorDim := 1
  sliceSizes := ![1, 64]
  wf := gather_S50000x64_S640000x1_S640000x64_1_0_n_n_0_1_164_wf
def scatter_S50000x64_S640000x1_S640000x64_1_0_0_1 : ScatterDims S50000x64 S640000x1 S640000x64 where
  updateWindowDims := [1]
  insertedWindowDims := [0]
  scatterDimsToOperandDims := [0]
  indexVectorDim := 1
  wf := scatter_S50000x64_S640000x1_S640000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The three-layer mean-aggregation network both programs compute, cut into named layers.

  With `D n` the edges whose destination is node `n`, `c n = max (#D n) 1` and, for node features `h`,
  `mean h n = (∑ e ∈ D n, h (src e)) / c n`, a layer is `conv h = (mean h · Wl + b) + h · Wr`.
  The reference computes `relu (conv₁ x)`, `relu (conv₂ h₁)`, `conv₃ h₂`.  The kernel's third layer
  projects before it aggregates: `(mean (h₂ · Wl) + b) + h₂ · Wr`.  Everything here is stated on whole
  arrays with the host's own operations (gather, accumulating scatter, divide, dot_general), at the
  dimension numbers the reference prints, so that each program's result term is literally one of these.
-/
import proofs.«406188_j42279658062119_3_alg».proof.Proof.Gen.ReferenceIdeal

noncomputable section

namespace Cert.Sage

open Idealize.ShloMosaic Cert.ReferenceIdeal Cert.ReferenceIdeal.Facts₀

variable {F : FTy → Type} [FloatOps F]

/-! ## The edge list: source rows (a negative index wrapped once) and destination rows -/

/-- Row 0 of the edge list: every edge's source node. -/
def srcRow (ei : IVec S2x640000 32) : IVec S640000 32 :=
  shapeCast _ (extractStridedSlice S1x640000 ![0, 0] ei slices_S2x640000_S1x640000_0_0) shapeCasts_S1x640000_S640000

/-- Row 1 of the edge list: every edge's destination node. -/
def dstRow (ei : IVec S2x640000 32) : IVec S640000 32 :=
  shapeCast _ (extractStridedSlice S1x640000 ![1, 0] ei slices_S2x640000_S1x640000_1_0) shapeCasts_S1x640000_S640000

/-- The gather's index column: the source node, `+ 50000` where it is negative. -/
def srcIx (ei : IVec S2x640000 32) : IVec S640000x1 32 :=
  broadcastInDim S640000x1 ![0] bcast_S640000_S640000x1_0
    (select (cmpi .slt (srcRow ei) (broadcastInDim S640000 ![] bcast_S_S640000 (constantI S_ 32 0#32)))
      (addi (srcRow ei) (broadcastInDim S640000 ![] bcast_S_S640000 (constantI S_ 32 50000#32))) (srcRow ei))

/-- The scatter's index column: the destination node as it is. -/
def dstIx (ei : IVec S2x640000 32) : IVec S640000x1 32 :=
  broadcastInDim S640000x1 ![0] bcast_S640000_S640000x1_0 (dstRow ei)

/-! ## In-degrees -/

/-- How many edges end at each node: ones accumulated at the destinations. -/
def cnt (ei : IVec S2x640000 32) : FVec F S50000 .f32 :=
  Host.scatterAdd scatter_S50000_S640000x1_S640000_n_0_0_1
    (broadcastInDim S50000 ![] bcast_S_S50000 (constant S_ .f32 0x00000000#32)) (dstIx ei)
    (broadcastInDim S640000 ![] bcast_S_S640000 (constant S_ .f32 0x3F800000#32))

/-- The divisor of the mean: the in-degree, `1` at a node no edge ends at. -/
def cntMax (ei : IVec S2x640000 32) : FVec F S50000 .f32 :=
  maximumf (cnt (F := F) ei) (broadcastInDim S50000 ![] bcast_S_S50000 (constant S_ .f32 0x3F800000#32))

/-- The divisor as a column. -/
def cntCol (ei : IVec S2x640000 32) : FVec F S50000x1 .f32 :=
  broadcastInDim S50000x1 ![0] bcast_S50000_S50000x1_0 (cntMax (F := F) ei)

/-! ## Neighbourhood sums and means, at the three feature widths -/

def agg32 (h : FVec F S50000x32 .f32) (ei : IVec S2x640000 32) : FVec F S50000x32 .f32 :=
  Host.scatterAdd scatter_S50000x32_S640000x1_S640000x32_1_0_0_1
    (broadcastInDim S50000x32 ![] bcast_S_S50000x32 (constant S_ .f32 0x00000000#32)) (dstIx ei)
    (Host.gather gather_S50000x32_S640000x1_S640000x32_1_0_n_n_0_1_132 h (srcIx ei))

def agg64 (h : FVec F S50000x64 .f32) (ei : IVec S2x640000 32) : FVec F S50000x64 .f32 :=
  Host.scatterAdd scatter_S50000x64_S640000x1_S640000x64_1_0_0_1
    (broadcastInDim S50000x64 ![] bcast_S_S50000x64 (constant S_ .f32 0x00000000#32)) (dstIx ei)
    (Host.gather gather_S50000x64_S640000x1_S640000x64_1_0_n_n_0_1_164 h (srcIx ei))

def agg128 (h : FVec F S50000x128 .f32) (ei : IVec S2x640000 32) : FVec F S50000x128 .f32 :=
  Host.scatterAdd scatter_S50000x128_S640000x1_S640000x128_1_0_0_1
    (broadcastInDim S50000x128 ![] bcast_S_S50000x128 (constant S_ .f32 0x00000000#32)) (dstIx ei)
    (Host.gather gather_S50000x128_S640000x1_S640000x128_1_0_n_n_0_1_1128 h (srcIx ei))

def mean32 (h : FVec F S50000x32 .f32) (ei : IVec S2x640000 32) : FVec F S50000x32 .f32 :=
  Host.divf (agg32 h ei) (broadcastInDim S50000x32 ![0, 1] bcast_S50000x1_S50000x32_0_1 (cntCol (F := F) ei))

def mean64 (h : FVec F S50000x64 .f32) (ei : IVec S2x640000 32) : FVec F S50000x64 .f32 :=
  Host.divf (agg64 h ei) (broadcastInDim S50000x64 ![0, 1] bcast_S50000x1_S50000x64_0_1 (cntCol (F := F) ei))

def mean128 (h : FVec F S50000x128 .f32) (ei : IVec S2x640000 32) : FVec F S50000x128 .f32 :=
  Host.divf (agg128 h ei) (broadcastInDim S50000x128 ![0, 1] bcast_S50000x1_S50000x128_0_1 (cntCol (F := F) ei))

/-! ## The dense pieces -/

def mm32_64 (a : FVec F S50000x32 .f32) (w : FVec F S32x64 .f32) : FVec F S50000x64 .f32 :=
  Host.dotGeneral dot_S50000x32_S32x64_S50000x64_1_0_0_1_n_n none a w
def mm64_128 (a : FVec F S50000x64 .f32) (w : FVec F S64x128 .f32) : FVec F S50000x128 .f32 :=
  Host.dotGeneral dot_S50000x64_S64x128_S50000x128_1_0_0_1_n_n none a w
def mm128_64 (a : FVec F S50000x128 .f32) (w : FVec F S128x64 .f32) : FVec F S50000x64 .f32 :=
  Host.dotGeneral dot_S50000x128_S128x64_S50000x64_1_0_0_1_n_n none a w

/-- A bias row repeated down the nodes. -/
def rowBias64 (b : FVec F S1x64 .f32) : FVec F S50000x64 .f32 := broadcastInDim S50000x64 ![0, 1] bcast_S1x64_S50000x64_0_1 b
def rowBias128 (b : FVec F S1x128 .f32) : FVec F S50000x128 .f32 := broadcastInDim S50000x128 ![0, 1] bcast_S1x128_S50000x128_0_1 b
/-- A bias vector as a row (the reference's spelling: a broadcast along a new leading axis). -/
def asRow64 (b : FVec F S64 .f32) : FVec F S1x64 .f32 := broadcastInDim S1x64 ![1] bcast_S64_S1x64_1 b
def asRow128 (b : FVec F S128 .f32) : FVec F S1x128 .f32 := broadcastInDim S1x128 ![1] bcast_S128_S1x128_1 b

def relu64 (v : FVec F S50000x64 .f32) : FVec F S50000x64 .f32 :=
  maximumf v (broadcastInDim S50000x64 ![] bcast_S_S50000x64 (constant S_ .f32 0x00000000#32))
def relu128 (v : FVec F S50000x128 .f32) : FVec F S50000x128 .f32 :=
  maximumf v (broadcastInDim S50000x128 ![] bcast_S_S50000x128 (constant S_ .f32 0x00000000#32))

/-! ## One layer from its aggregated input: `(a · Wl + b) + x · Wr`, as each combine call computes it -/

def comb32_64 (a x : FVec F S50000x32 .f32) (wl wr : FVec F S32x64 .f32) (b : FVec F S1x64 .f32) : FVec F S50000x64 .f32 :=
  addf (addf (mm32_64 a wl) (rowBias64 b)) (mm32_64 x wr)
def comb64_128 (a x : FVec F S50000x64 .f32) (wl wr : FVec F S64x128 .f32) (b : FVec F S1x128 .f32) : FVec F S50000x128 .f32 :=
  addf (addf (mm64_128 a wl) (rowBias128 b)) (mm64_128 x wr)
def comb128_64 (a x : FVec F S50000x128 .f32) (wl wr : FVec F S128x64 .f32) (b : FVec F S1x64 .f32) : FVec F S50000x64 .f32 :=
  addf (addf (mm128_64 a wl) (rowBias64 b)) (mm128_64 x wr)
/-- The third combine call of the kernel: its aggregated input is already projected. -/
def combPre64 (a : FVec F S50000x64 .f32) (x : FVec F S50000x128 .f32) (wr : FVec F S128x64 .f32) (b : FVec F S1x64 .f32) : FVec F S50000x64 .f32 :=
  addf (addf a (rowBias64 b)) (mm128_64 x wr)

/-! ## The network -/

def h1 (x : FVec F S50000x32 .f32) (ei : IVec S2x640000 32) (wl : FVec F S32x64 .f32) (b : FVec F S64 .f32) (wr : FVec F S32x64 .f32) :
    FVec F S50000x64 .f32 :=
  relu64 (comb32_64 (mean32 x ei) x wl wr (asRow64 b))

def h2 (h : FVec F S50000x64 .f32) (ei : IVec S2x640000 32) (wl : FVec F S64x128 .f32) (b : FVec F S128 .f32) (wr : FVec F S64x128 .f32) :
    FVec F S50000x128 .f32 :=
  relu128 (comb64_128 (mean64 h ei) h wl wr (asRow128 b))

/-- The reference's last layer: aggregate, then project. -/
def outR (h : FVec F S50000x128 .f32) (ei : IVec S2x640000 32) (wl : FVec F S128x64 .f32) (b : FVec F S64 .f32) (wr : FVec F S128x64 .f32) :
    FVec F S50000x64 .f32 :=
  comb128_64 (mean128 h ei) h wl wr (asRow64 b)

/-- The kernel's last layer: project, then aggregate. -/
def outK (h : FVec F S50000x128 .f32) (ei : IVec S2x640000 32) (wl : FVec F S128x64 .f32) (b : FVec F S64 .f32) (wr : FVec F S128x64 .f32) :
    FVec F S50000x64 .f32 :=
  combPre64 (mean64 (mm128_64 h wl) ei) h wr (asRow64 b)

/-- The whole reference network. -/
def net (x : FVec F S50000x32 .f32) (ei : IVec S2x640000 32)
    (w1l : FVec F S32x64 .f32) (b1 : FVec F S64 .f32) (w1r : FVec F S32x64 .f32)
    (w2l : FVec F S64x128 .f32) (b2 : FVec F S128 .f32) (w2r : FVec F S64x128 .f32)
    (w3l : FVec F S128x64 .f32) (b3 : FVec F S64 .f32) (w3r : FVec F S128x64 .f32) : FVec F S50000x64 .f32 :=
  outR (h2 (h1 x ei w1l b1 w1r) ei w2l b2 w2r) ei w3l b3 w3r

/-- The kernel's network: the same first two layers, the last one projected first. -/
def netK (x : FVec F S50000x32 .f32) (ei : IVec S2x640000 32)
    (w1l : FVec F S32x64 .f32) (b1 : FVec F S64 .f32) (w1r : FVec F S32x64 .f32)
    (w2l : FVec F S64x128 .f32) (b2 : FVec F S128 .f32) (w2r : FVec F S64x128 .f32)
    (w3l : FVec F S128x64 .f32) (b3 : FVec F S64 .f32) (w3r : FVec F S128x64 .f32) : FVec F S50000x64 .f32 :=
  outK (h2 (h1 x ei w1l b1 w1r) ei w2l b2 w2r) ei w3l b3 w3r

end Cert.Sage

end
-- ==== Proof.Dense.lean ====
import proofs.«406188_j42279658062119_3_alg».proof.Proof.Spec
import Idealize.ShloMosaic.PureOps.Ideal
import Idealize.ShloMosaic.PureOps.Ideal.Laws
import Idealize.ShloMosaic.Lib.ValueIdx

noncomputable section

/-! The three dense products of the network, read at an index: at the ideal instance the host's `dot_general` with one
    contracted axis is the plain sum over that axis of the products. -/

namespace Cert.Sage

open Idealize.ShloMosaic Idealize.ShloMosaic.ValueIdx Cert.ReferenceIdeal Cert.ReferenceIdeal.Facts₀
open scoped BigOperators

/-! ### `mm32_64`: contraction over 32 -/

theorem lhs_mm32_64_0 (i : S50000x64.Idx) (q : dot_S50000x32_S32x64_S50000x64_1_0_0_1_n_n.contr.Idx) : (dot_S50000x32_S32x64_S50000x64_1_0_0_1_n_n.lhsIdx i q 0).val = (i 0).val := by
  unfold DotDims.lhsIdx
  rw [dif_neg (show ¬(0 : Fin S50000x32.rank) ∈ dot_S50000x32_S32x64_S50000x64_1_0_0_1_n_n.lhsBatch by decide), dif_pos (show (0 : Fin S50000x32.rank) ∈ dot_S50000x32_S32x64_S50000x64_1_0_0_1_n_n.lhsNonContracting by decide)]
  rfl
theorem lhs_mm32_64_1 (i : S50000x64.Idx) (q : dot_S50000x32_S32x64_S50000x64_1_0_0_1_n_n.contr.Idx) : (dot_S50000x32_S32x64_S50000x64_1_0_0_1_n_n.lhsIdx i q 1).val = (q ⟨0, by decide⟩).val :=
  dot_S50000x32_S32x64_S50000x64_1_0_0_1_n_n.lhsIdx_val_of_single rfl i q
theorem rhs_mm32_64_0 (i : S50000x64.Idx) (q : dot_S50000x32_S32x64_S50000x64_1_0_0_1_n_n.contr.Idx) : (dot_S50000x32_S32x64_S50000x64_1_0_0_1_n_n.rhsIdx i q 0).val = (q ⟨0, by decide⟩).val :=
  dot_S50000x32_S32x64_S50000x64_1_0_0_1_n_n.rhsIdx_val_of_single rfl i q
theorem rhs_mm32_64_1 (i : S50000x64.Idx) (q : dot_S50000x32_S32x64_S50000x64_1_0_0_1_n_n.contr.Idx) : (dot_S50000x32_S32x64_S50000x64_1_0_0_1_n_n.rhsIdx i q 1).val = (i 1).val := by
  unfold DotDims.rhsIdx
  rw [dif_neg (show ¬(1 : Fin S32x64.rank) ∈ dot_S50000x32_S32x64_S50000x64_1_0_0_1_n_n.rhsBatch by decide), dif_pos (show (1 : Fin S32x64.rank) ∈ dot_S50000x32_S32x64_S50000x64_1_0_0_1_n_n.rhsNonContracting by decide)]
  rfl

/-- Element `(n, o)` of the product is `∑ k, a (n, k) · w (k, o)`. -/
theorem mm32_64_apply (a : FVec Ideal S50000x32 .f32) (w : FVec Ideal S32x64 .f32) (i : S50000x64.Idx) :
    mm32_64 (F := Ideal) a w i = ∑ k : Fin 32, a (ix2 (i 0) k) * w (ix2 k (i 1)) := by
  unfold mm32_64
  simp only [Host.dotGeneral]
  rw [Ideal.dotGeneral_apply, ← Equiv.sum_comp (ValueIdx.contrEquiv1 dot_S50000x32_S32x64_S50000x64_1_0_0_1_n_n 32 rfl rfl).symm]
  refine Finset.sum_congr rfl fun k _ => ?_
  have hk := ValueIdx.contrEquiv1_symm_val dot_S50000x32_S32x64_S50000x64_1_0_0_1_n_n 32 rfl rfl k
  have el : dot_S50000x32_S32x64_S50000x64_1_0_0_1_n_n.lhsIdx i ((ValueIdx.contrEquiv1 dot_S50000x32_S32x64_S50000x64_1_0_0_1_n_n 32 rfl rfl).symm k) = ix2 (i 0) k := funext fun a => Fin.ext (by
    match a with
    | ⟨0, _⟩ => exact lhs_mm32_64_0 _ _
    | ⟨1, _⟩ => exact (lhs_mm32_64_1 _ _).trans hk)
  have er : dot_S50000x32_S32x64_S50000x64_1_0_0_1_n_n.rhsIdx i ((ValueIdx.contrEquiv1 dot_S50000x32_S32x64_S50000x64_1_0_0_1_n_n 32 rfl rfl).symm k) = ix2 k (i 1) := funext fun a => Fin.ext (by
    match a with
    | ⟨0, _⟩ => exact (rhs_mm32_64_0 _ _).trans hk
    | ⟨1, _⟩ => exact rhs_mm32_64_1 _ _)
  rw [el, er]
  rfl

/-! ### `mm64_128`: contraction over 64 -/

theorem lhs_mm64_128_0 (i : S50000x128.Idx) (q : dot_S50000x64_S64x128_S50000x128_1_0_0_1_n_n.contr.Idx) : (dot_S50000x64_S64x128_S50000x128_1_0_0_1_n_n.lhsIdx i q 0).val = (i 0).val := by
  unfold DotDims.lhsIdx
  rw [dif_neg (show ¬(0 : Fin S50000x64.rank) ∈ dot_S50000x64_S64x128_S50000x128_1_0_0_1_n_n.lhsBatch by decide), dif_pos (show (0 : Fin S50000x64.rank) ∈ dot_S50000x64_S64x128_S50000x128_1_0_0_1_n_n.lhsNonContracting by decide)]
  rfl
theorem lhs_mm64_128_1 (i : S50000x128.Idx) (q : dot_S50000x64_S64x128_S50000x128_1_0_0_1_n_n.contr.Idx) : (dot_S50000x64_S64x128_S50000x128_1_0_0_1_n_n.lhsIdx i q 1).val = (q ⟨0, by decide⟩).val :=
  dot_S50000x64_S64x128_S50000x128_1_0_0_1_n_n.lhsIdx_val_of_single rfl i q
theorem rhs_mm64_128_0 (i : S50000x128.Idx) (q : dot_S50000x64_S64x128_S50000x128_1_0_0_1_n_n.contr.Idx) : (dot_S50000x64_S64x128_S50000x128_1_0_0_1_n_n.rhsIdx i q 0).val = (q ⟨0, by decide⟩).val :=
  dot_S50000x64_S64x128_S50000x128_1_0_0_1_n_n.rhsIdx_val_of_single rfl i q
theorem rhs_mm64_128_1 (i : S50000x128.Idx) (q : dot_S50000x64_S64x128_S50000x128_1_0_0_1_n_n.contr.Idx) : (dot_S50000x64_S64x128_S50000x128_1_0_0_1_n_n.rhsIdx i q 1).val = (i 1).val := by
  unfold DotDims.rhsIdx
  rw [dif_neg (show ¬(1 : Fin S64x128.rank) ∈ dot_S50000x64_S64x128_S50000x128_1_0_0_1_n_n.rhsBatch by decide), dif_pos (show (1 : Fin S64x128.rank) ∈ dot_S50000x64_S64x128_S50000x128_1_0_0_1_n_n.rhsNonContracting by decide)]
  rfl

/-- Element `(n, o)` of the product is `∑ k, a (n, k) · w (k, o)`. -/
theorem mm64_128_apply (a : FVec Ideal S50000x64 .f32) (w : FVec Ideal S64x128 .f32) (i : S50000x128.Idx) :
    mm64_128 (F := Ideal) a w i = ∑ k : Fin 64, a (ix2 (i 0) k) * w (ix2 k (i 1)) := by
  unfold mm64_128
  simp only [Host.dotGeneral]
  rw [Ideal.dotGeneral_apply, ← Equiv.sum_comp (ValueIdx.contrEquiv1 dot_S50000x64_S64x128_S50000x128_1_0_0_1_n_n 64 rfl rfl).symm]
  refine Finset.sum_congr rfl fun k _ => ?_
  have hk := ValueIdx.contrEquiv1_symm_val dot_S50000x64_S64x128_S50000x128_1_0_0_1_n_n 64 rfl rfl k
  have el : dot_S50000x64_S64x128_S50000x128_1_0_0_1_n_n.lhsIdx i ((ValueIdx.contrEquiv1 dot_S50000x64_S64x128_S50000x128_1_0_0_1_n_n 64 rfl rfl).symm k) = ix2 (i 0) k := funext fun a => Fin.ext (by
    match a with
    | ⟨0, _⟩ => exact lhs_mm64_128_0 _ _
    | ⟨1, _⟩ => exact (lhs_mm64_128_1 _ _).trans hk)
  have er : dot_S50000x64_S64x128_S50000x128_1_0_0_1_n_n.rhsIdx i ((ValueIdx.contrEquiv1 dot_S50000x64_S64x128_S50000x128_1_0_0_1_n_n 64 rfl rfl).symm k) = ix2 k (i 1) := funext fun a => Fin.ext (by
    match a with
    | ⟨0, _⟩ => exact (rhs_mm64_128_0 _ _).trans hk
    | ⟨1, _⟩ => exact rhs_mm64_128_1 _ _)
  rw [el, er]
  rfl

/-! ### `mm128_64`: contraction over 128 -/

theorem lhs_mm128_64_0 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs_mm128_64_1 (i : S50000x64.Idx) (q : dot_S50000x128_S128x64_S50000x64_1_0_0_1_n_n.contr.Idx) : (dot_S50000x128_S128x64_S50000x64_1_0_0_1_n_n.lhsIdx i q 1).val = (q ⟨0, by decide⟩).val :=
  dot_S50000x128_S128x64_S50000x64_1_0_0_1_n_n.lhsIdx_val_of_single rfl i q
theorem rhs_mm128_64_0 (i : S50000x64.Idx) (q : dot_S50000x128_S128x64_S50000x64_1_0_0_1_n_n.contr.Idx) : (dot_S50000x128_S128x64_S50000x64_1_0_0_1_n_n.rhsIdx i q 0).val = (q ⟨0, by decide⟩).val :=
  dot_S50000x128_S128x64_S50000x64_1_0_0_1_n_n.rhsIdx_val_of_single rfl i q
theorem rhs_mm128_64_1 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- Element `(n, o)` of the product is `∑ k, a (n, k) · w (k, o)`. -/
theorem mm128_64_apply (a : FVec Ideal S50000x128 .f32) (w : FVec Ideal S128x64 .f32) (i : S50000x64.Idx) :
    mm128_64 (F := Ideal) a w i = ∑ k : Fin 128, a (ix2 (i 0) k) * w (ix2 k (i 1)) := by
  unfold mm128_64
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = ix2 (i 0) k := funext fun a => Fin.ext (by
    match a with
    | ⟨0, _⟩ => exact lhs_mm128_64_0 _ _
    | ⟨1, _⟩ => exact (lhs_mm128_64_1 _ _).trans hk)
  have er : dot_S50000x128_S128x64_S50000x64_1_0_0_1_n_n.rhsIdx i ((ValueIdx.contrEquiv1 dot_S50000x128_S128x64_S50000x64_1_0_0_1_n_n 128 rfl rfl).symm k) = ix2 k (i 1) := funext fun a => Fin.ext (by
    match a with
    | ⟨0, _⟩ => exact (rhs_mm128_64_0 _ _).trans hk
    | ⟨1, _⟩ => exact rhs_mm128_64_1 _ _)
  rw [el, er]
  rfl

end Cert.Sage

end
-- ==== Proof.Region0.lean ====
import proofs.«406188_j42279658062119_3_alg».proof.Proof.Spec
import proofs.«406188_j42279658062119_3_alg».proof.Proof.Dense
import proofs.«406188_j42279658062119_3_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Region0

open Idealize.ShloMosaic Idealize.ShloMosaic.TcCoe Idealize.SL.Sem Cert.KernelIdeal Cert.KernelIdeal.Gen
open Idealize.ShloMosaic.Pipeline (Dat Cfg Window)
open Idealize.ShloMosaic.ValueIdx
open scoped BigOperators

variable (V : (c : Dev nD) → (b : Ref sig .tc) → Buf (Elt Ideal) ((c : Thread nD τ).loc b))

/-! ### One block's product: rows of the block against a whole weight matrix, contraction over 32 -/

theorem lhs_blk_0 (i : S1000x64.Idx) (q : dot_S1000x32_S32x64_S1000x64_1_0_0_1_n_n.contr.Idx) : (dot_S1000x32_S32x64_S1000x64_1_0_0_1_n_n.lhsIdx i q 0).val = (i 0).val := by
  unfold DotDims.lhsIdx
  rw [dif_neg (show ¬(0 : Fin S1000x32.rank) ∈ dot_S1000x32_S32x64_S1000x64_1_0_0_1_n_n.lhsBatch by decide), dif_pos (show (0 : Fin S1000x32.rank) ∈ dot_S1000x32_S32x64_S1000x64_1_0_0_1_n_n.lhsNonContracting by decide)]
  rfl
theorem lhs_blk_1 (i : S1000x64.Idx) (q : dot_S1000x32_S32x64_S1000x64_1_0_0_1_n_n.contr.Idx) : (dot_S1000x32_S32x64_S1000x64_1_0_0_1_n_n.lhsIdx i q 1).val = (q ⟨0, by decide⟩).val :=
  dot_S1000x32_S32x64_S1000x64_1_0_0_1_n_n.lhsIdx_val_of_single rfl i q
theorem rhs_blk_0 (i : S1000x64.Idx) (q : dot_S1000x32_S32x64_S1000x64_1_0_0_1_n_n.contr.Idx) : (dot_S1000x32_S32x64_S1000x64_1_0_0_1_n_n.rhsIdx i q 0).val = (q ⟨0, by decide⟩).val :=
  dot_S1000x32_S32x64_S1000x64_1_0_0_1_n_n.rhsIdx_val_of_single rfl i q
theorem rhs_blk_1 (i : S1000x64.Idx) (q : dot_S1000x32_S32x64_S1000x64_1_0_0_1_n_n.contr.Idx) : (dot_S1000x32_S32x64_S1000x64_1_0_0_1_n_n.rhsIdx i q 1).val = (i 1).val := by
  unfold DotDims.rhsIdx
  rw [dif_neg (show ¬(1 : Fin S32x64.rank) ∈ dot_S1000x32_S32x64_S1000x64_1_0_0_1_n_n.rhsBatch by decide), dif_pos (show (1 : Fin S32x64.rank) ∈ dot_S1000x32_S32x64_S1000x64_1_0_0_1_n_n.rhsNonContracting by decide)]
  rfl

/-- Element `(p, o)` of a block's product into the zero accumulator is `∑ k, a (p, k) · w (k, o)`. -/
theorem blkmm_apply (a : FVec Ideal S1000x32 .f32) (w : FVec Ideal S32x64 .f32) (i : S1000x64.Idx) :
    matmul (F := Ideal) dot_S1000x32_S32x64_S1000x64_1_0_0_1_n_n none a w (constant S1000x64 .f32 0x00000000#32) i = ∑ k : Fin 32, a (ix2 (i 0) k) * w (ix2 k (i 1)) := by
  simp only [matmul]
  rw [Ideal.matmul_constant_zero_apply, ← Equiv.sum_comp (ValueIdx.contrEquiv1 dot_S1000x32_S32x64_S1000x64_1_0_0_1_n_n 32 rfl rfl).symm]
  refine Finset.sum_congr rfl fun k _ => ?_
  have hk := ValueIdx.contrEquiv1_symm_val dot_S1000x32_S32x64_S1000x64_1_0_0_1_n_n 32 rfl rfl k
  have el : dot_S1000x32_S32x64_S1000x64_1_0_0_1_n_n.lhsIdx i ((ValueIdx.contrEquiv1 dot_S1000x32_S32x64_S1000x64_1_0_0_1_n_n 32 rfl rfl).symm k) = ix2 (i 0) k := funext fun a => Fin.ext (by
    match a with
    | ⟨0, _⟩ => exact lhs_blk_0 _ _
    | ⟨1, _⟩ => exact (lhs_blk_1 _ _).trans hk)
  have er : dot_S1000x32_S32x64_S1000x64_1_0_0_1_n_n.rhsIdx i ((ValueIdx.contrEquiv1 dot_S1000x32_S32x64_S1000x64_1_0_0_1_n_n 32 rfl rfl).symm k) = ix2 k (i 1) := funext fun a => Fin.ext (by
    match a with
    | ⟨0, _⟩ => exact (rhs_blk_0 _ _).trans hk
    | ⟨1, _⟩ => exact rhs_blk_1 _ _)
  rw [el, er]
  rfl

/-! ### What one grid point stores, element by element -/

/-- Element `(p, o)` of the block a grid point stores, from the blocks it loaded: `max ((a · Wl + b) + x · Wr, 0)`
    with `x` the point's rows of the node features, `a` its rows of the aggregated mean, `b` the bias row. -/
theorem stored_apply (x : Vec Ideal S1000x32 .f32) (wr : Vec Ideal S32x64 .f32) (a : Vec Ideal S1000x32 .f32) (wl : Vec Ideal S32x64 .f32)
    (b : Vec Ideal S1x64 .f32) (p : Fin 1000) (o : Fin 64) :
    k0_pay1 (F := Ideal) x wr a wl b (ix2 p o)
      = max (((∑ k : Fin 32, a (ix2 p k) * wl (ix2 k o)) + b (ix2 (0 : Fin 1) o)) + ∑ k : Fin 32, x (ix2 p k) * wr (ix2 k o)) 0 := by
  unfold k0_pay1
  simp only [shapeCast_self]
  rw [maximumf_apply, addf_apply, addf_apply, blkmm_apply, blkmm_apply, broadcast_apply,
    broadcastTo_apply b broadcasts_S1x64_S1000x64 (ix2 p o) (ix2 (0 : Fin 1) o) (fun d => by
      match d with
      | ⟨0, _⟩ => rfl
      | ⟨1, _⟩ => rfl)]
  exact congrArg _ Ideal.ofBits_zero_f32

/-! ### The layer's function, element by element -/

/-- Element `(n, o)` of `relu ((a · Wl + b) + x · Wr)` on whole arrays. -/
theorem layer_apply (A X : FVec Ideal Cert.ReferenceIdeal.S50000x32 .f32) (Wl Wr : FVec Ideal Cert.ReferenceIdeal.S32x64 .f32)
    (B : FVec Ideal Cert.ReferenceIdeal.S1x64 .f32) (n : Fin 50000) (o : Fin 64) :
    Cert.Sage.relu64 (Cert.Sage.comb32_64 (F := Ideal) A X Wl Wr B) (ix2 n o)
      = max (((∑ k : Fin 32, A (ix2 n k) * Wl (ix2 k o)) + B (ix2 (0 : Fin 1) o)) + ∑ k : Fin 32, X (ix2 n k) * Wr (ix2 k o)) 0 := by
  unfold Cert.Sage.relu64 Cert.Sage.comb32_64 Cert.Sage.rowBias64
  rw [maximumf_apply, addf_apply, addf_apply, Cert.Sage.mm32_64_apply, Cert.Sage.mm32_64_apply,
    broadcastInDim_apply _ _ B (ix2 n o) (ix2 (0 : Fin 1) o) (fun d => by
      match d with
      | ⟨0, _⟩ => rfl
      | ⟨1, _⟩ => rfl),
    broadcastInDim_apply _ _ (constant (F := Ideal) Cert.ReferenceIdeal.S_ .f32 0x00000000#32) (ix2 n o) ix0 (fun d => d.elim0),
    constant_apply]
  exact congrArg _ Ideal.ofBits_zero_f32

/-! ### The grid: fifty row blocks of 1000 rows -/

theorem zeros2 : (![0, 0] : Fin 2 → Nat) = fun _ => 0 := funext fun a => by
  match a with
  | ⟨0, _⟩ => rfl
  | ⟨1, _⟩ => rfl

/-- The printed index maps over the fifty points: the two row-blocked inputs and the output sit at row block `t`, column
    block 0; the two weight matrices and the bias row are whole, the same block at every point. -/
theorem blocks_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the aggregated mean's block at point `t` is row `1000 t + p` of the array. -/
theorem mean_blk_apply (c : Dev nD) (t : Fin cfg0.N) (p : Fin 1000) (k : Fin 32) (n : Fin 50000) (hn : n.val = t.val * 1000 + p.val) :
    (iblk0 V c 0 t : Vec Ideal S1000x32 .f32) (ix2 p k) = (V c main_v22 : S50000x32.Idx → EReal) (ix2 n k) := by
  obtain ⟨e0, e1, -⟩ := blocks_at t
  unfold iblk0
  rw [View.read_apply]
  show V c main_v22 _ = V c main_v22 _
  congr 1
  funext a
  apply Fin.ext
  match a with
  | ⟨0, _⟩ => show win0_0.index t (0 : Fin 2) * 1000 + 1 * p.val = n.val; rw [e0, hn]; omega
  | ⟨1, _⟩ => show win0_0.index t (1 : Fin 2) * 32 + 1 * k.val = k.val; rw [e1]; omega

/-- Row `p` of the node features' block at point `t` is row `1000 t + p` of the array. -/
theorem feat_blk_apply (c : Dev nD) (t : Fin cfg0.N) (p : Fin 1000) (k : Fin 32) (n : Fin 50000) (hn : n.val = t.val * 1000 + p.val) :
    (iblk0 V c 1 t : Vec Ideal S1000x32 .f32) (ix2 p k) = (V c main_arg0 : S50000x32.Idx → EReal) (ix2 n k) := by
  obtain ⟨-, -, e0, e1, -⟩ := blocks_at t
  unfold iblk0
  rw [View.read_apply]
  show V c main_arg0 _ = V c main_arg0 _
  congr 1
  funext a
  apply Fin.ext
  match a with
  | ⟨0, _⟩ => show win0_1.index t (0 : Fin 2) * 1000 + 1 * p.val = n.val; rw [e0, hn]; omega
  | ⟨1, _⟩ => show win0_1.index t (1 : Fin 2) * 32 + 1 * k.val = k.val; rw [e1]; omega

/-- The left weight matrix's block at every point is the whole matrix. -/
theorem wl_blk_apply (c : Dev nD) (t : Fin cfg0.N) (k : Fin 32) (o : Fin 64) :
    (iblk0 V c 2 t : Vec Ideal S32x64 .f32) (ix2 k o) = (V c main_arg2 : S32x64.Idx → EReal) (ix2 k o) := by
  obtain ⟨-, -, -, -, e0, e1, -⟩ := blocks_at t
  unfold iblk0
  rw [View.read_apply]
  show V c main_arg2 _ = V c main_arg2 _
  congr 1
  funext a
  apply Fin.ext
  match a with
  | ⟨0, _⟩ => show win0_2.index t (0 : Fin 2) * 32 + 1 * k.val = k.val; rw [e0]; omega
  | ⟨1, _⟩ => show win0_2.index t (1 : Fin 2) * 64 + 1 * o.val = o.val; rw [e1]; omega

/-- The right weight matrix's block at every point is the whole matrix. -/
theorem wr_blk_apply (c : Dev nD) (t : Fin cfg0.N) (k : Fin 32) (o : Fin 64) :
    (iblk0 V c 3 t : Vec Ideal S32x64 .f32) (ix2 k o) = (V c main_arg4 : S32x64.Idx → EReal) (ix2 k o) := by
  obtain ⟨-, -, -, -, -, -, e0, e1, -⟩ := blocks_at t
  unfold iblk0
  rw [View.read_apply]
  show V c main_arg4 _ = V c main_arg4 _
  congr 1
  funext a
  apply Fin.ext
  match a with
  | ⟨0, _⟩ => show win0_3.index t (0 : Fin 2) * 32 + 1 * k.val = k.val; rw [e0]; omega
  | ⟨1, _⟩ => show win0_3.index t (1 : Fin 2) * 64 + 1 * o.val = o.val; rw [e1]; omega

/-- The bias row's block at every point is the whole row. -/
theorem bias_blk_apply (c : Dev nD) (t : Fin cfg0.N) (o : Fin 64) :
    (iblk0 V c 4 t : Vec Ideal S1x64 .f32) (ix2 (0 : Fin 1) o) = (V c main_v23 : S1x64.Idx → EReal) (ix2 (0 : Fin 1) o) := by
  obtain ⟨-, -, -, -, -, -, -, -, e0, e1, -⟩ := blocks_at t
  unfold iblk0
  rw [View.read_apply]
  show V c main_v23 _ = V c main_v23 _
  congr 1
  funext a
  apply Fin.ext
  match a with
  | ⟨0, _⟩ => show win0_4.index t (0 : Fin 2) * 1 + 1 * (0 : Fin 1).val = (0 : Fin 1).val; rw [e0]; rfl
  | ⟨1, _⟩ => show win0_4.index t (1 : Fin 2) * 64 + 1 * o.val = o.val; rw [e1]; omega

/-- Row `p` of the output's block at point `t` is row `1000 t + p` of the array. -/
theorem out_blk_emb (t : Fin cfg0.N) (p : Fin 1000) (o : Fin 64) (n : Fin 50000) (hn : n.val = t.val * 1000 + p.val) :
    ((cfg0.win 5).blk t).view.emb (ix2 p o) = (ix2 n o : S50000x64.Idx) := by
  obtain ⟨-, -, -, -, -, -, -, -, -, -, e0, e1⟩ := blocks_at t
  funext a
  apply Fin.ext
  match a with
  | ⟨0, _⟩ => show win0_5.index t (0 : Fin 2) * 1000 + 1 * p.val = n.val; rw [e0, hn]; omega
  | ⟨1, _⟩ => show win0_5.index t (1 : Fin 2) * 64 + 1 * o.val = o.val; rw [e1]; omega

/-! ### Every point writes back its block of the layer's function -/

/-- What point `t` writes back is rows `1000 t … 1000 t + 999` of `relu ((a · Wl + b) + x · Wr)` of the arrays the call was
    entered with. -/
theorem flushed_eq (c : Dev nD) (t : Fin cfg0.N) :
    (dat0 (F := Ideal) V c).flushed 5 t = ((cfg0.win 5).blk t).view.read (Elt Ideal)
      (Cert.Sage.relu64 (Cert.Sage.comb32_64 (F := Ideal) (V c main_v22) (V c main_arg0) (V c main_arg2) (V c main_arg4) (V c main_v23))) := by
  show (cfg0.win 5).cut (grid0.coords t) ((dat0 V c).after 5 t) = _
  rw [after0_5]
  unfold Gen.out0_5
  rw [View.canon_unit_zero zeros2]
  simp only [View.ld_unit_zero (S := S1000x32) zeros2, View.ld_unit_zero (S := S32x64) zeros2, View.ld_unit_zero (S := S1x64) zeros2]
  funext j
  obtain ⟨p, o, rfl⟩ : ∃ (p : Fin 1000) (o : Fin 64), j = ix2 p o := ⟨j 0, j 1, eq_ix2 j⟩
  have hN : cfg0.N = 50 := N_0
  have ht : t.val < 50 := hN ▸ t.isLt
  refine (stored_apply (iblk0 V c 1 t) (iblk0 V c 3 t) (iblk0 V c 0 t) (iblk0 V c 2 t) (iblk0 V c 4 t) p o).trans ?_
  rw [View.read_apply, out_blk_emb t p o ⟨t.val * 1000 + p.val, by omega⟩ rfl, layer_apply]
  refine congrArg (fun z => max z (0 : EReal)) ?_
  refine congrArg₂ (· + ·) (congrArg₂ (· + ·) (Finset.sum_congr rfl fun k _ => ?_) (bias_blk_apply V c t o)) (Finset.sum_congr rfl fun k _ => ?_)
  · exact congrArg₂ (· * ·) (mean_blk_apply V c t p k _ rfl) (wl_blk_apply V c t k o)
  · exact congrArg₂ (· * ·) (feat_blk_apply V c t p k _ rfl) (wr_blk_apply V c t k o)

/-! ### The blocks tile the array -/

/-- An index of the output array is in point `t`'s block iff each coordinate is in the block's range on its axis. -/
theorem mem_blk (t : Fin cfg0.N) (i : S50000x64.Idx) :
    i ∈ ((cfg0.win 5).blk t).view.set ↔ ∀ a : Fin 2, win0_5.index t a * S1000x64.size a ≤ (i a).val ∧ (i a).val < win0_5.index t a * S1000x64.size a + S1000x64.size a := by
  show i ∈ ((View.whole main_v24).slice (win0_5.rect t)).set ↔ _
  rw [View.set_slice_whole, Rect.mem_set_unit]
  exact Iff.rfl

/-- Row `r` of the output is written back by point `r / 1000`. -/
theorem covered (i : S50000x64.Idx) : ∃ t : Fin cfg0.N, (cfg0.win 5).flush t = true ∧ i ∈ ((cfg0.win 5).blk t).view.set := by
  have hN : cfg0.N = 50 := N_0
  have hi0 : (i 0).val < 50000 := (i 0).isLt
  have hi1 : (i 1).val < 64 := (i 1).isLt
  refine ⟨⟨(i 0).val / 1000, by rw [hN]; omega⟩, flush0_5 _, ?_⟩
  rw [mem_blk]
  obtain ⟨-, -, -, -, -, -, -, -, -, -, e0, e1⟩ := blocks_at ⟨(i 0).val / 1000, by rw [hN]; omega⟩
  intro a
  match a with
  | ⟨0, _⟩ =>
    show win0_5.index _ (0 : Fin 2) * 1000 ≤ (i 0).val ∧ (i 0).val < win0_5.index _ (0 : Fin 2) * 1000 + 1000
    rw [e0]; show (i 0).val / 1000 * 1000 ≤ (i 0).val ∧ (i 0).val < (i 0).val / 1000 * 1000 + 1000; omega
  | ⟨1, _⟩ =>
    show win0_5.index _ (1 : Fin 2) * 64 ≤ (i 1).val ∧ (i 1).val < win0_5.index _ (1 : Fin 2) * 64 + 64
    rw [e1]; omega

/-- The first combine call, whole: after its fifty grid points the output array is `relu ((a · Wl + b) + x · Wr)` of the arrays the call was entered with (`a` the aggregated mean, `x` the node features, `b` the bias as a row). -/
theorem final (c : Dev nD) :
    (dat0 (F := Ideal) V c).arrAt 5 cfg0.N =
      Cert.Sage.relu64 (Cert.Sage.comb32_64 (F := Ideal) (V c main_v22) (V c main_arg0) (V c main_arg2) (V c main_arg4) (V c main_v23)) :=
  (dat0 (F := Ideal) V c).arrAt_eq_of_cover 5 _ (fun t _ => flushed_eq V c t) covered

end Cert.KernelIdeal.Region0

end
-- ==== Proof.Region1.lean ====
import proofs.«406188_j42279658062119_3_alg».proof.Proof.Spec
import proofs.«406188_j42279658062119_3_alg».proof.Proof.Dense
import proofs.«406188_j42279658062119_3_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Region1

open Idealize.ShloMosaic Idealize.ShloMosaic.TcCoe Idealize.SL.Sem Cert.KernelIdeal Cert.KernelIdeal.Gen
open Idealize.ShloMosaic.Pipeline (Dat Cfg Window)
open Idealize.ShloMosaic.ValueIdx
open scoped BigOperators

variable (V : (c : Dev nD) → (b : Ref sig .tc) → Buf (Elt Ideal) ((c : Thread nD τ).loc b))

/-! ### One block's product: rows of the block against a whole weight matrix, contraction over 64 -/

theorem lhs_blk_0 (i : S1000x128.Idx) (q : dot_S1000x64_S64x128_S1000x128_1_0_0_1_n_n.contr.Idx) : (dot_S1000x64_S64x128_S1000x128_1_0_0_1_n_n.lhsIdx i q 0).val = (i 0).val := by
  unfold DotDims.lhsIdx
  rw [dif_neg (show ¬(0 : Fin S1000x64.rank) ∈ dot_S1000x64_S64x128_S1000x128_1_0_0_1_n_n.lhsBatch by decide), dif_pos (show (0 : Fin S1000x64.rank) ∈ dot_S1000x64_S64x128_S1000x128_1_0_0_1_n_n.lhsNonContracting by decide)]
  rfl
theorem lhs_blk_1 (i : S1000x128.Idx) (q : dot_S1000x64_S64x128_S1000x128_1_0_0_1_n_n.contr.Idx) : (dot_S1000x64_S64x128_S1000x128_1_0_0_1_n_n.lhsIdx i q 1).val = (q ⟨0, by decide⟩).val :=
  dot_S1000x64_S64x128_S1000x128_1_0_0_1_n_n.lhsIdx_val_of_single rfl i q
theorem rhs_blk_0 (i : S1000x128.Idx) (q : dot_S1000x64_S64x128_S1000x128_1_0_0_1_n_n.contr.Idx) : (dot_S1000x64_S64x128_S1000x128_1_0_0_1_n_n.rhsIdx i q 0).val = (q ⟨0, by decide⟩).val :=
  dot_S1000x64_S64x128_S1000x128_1_0_0_1_n_n.rhsIdx_val_of_single rfl i q
theorem rhs_blk_1 (i : S1000x128.Idx) (q : dot_S1000x64_S64x128_S1000x128_1_0_0_1_n_n.contr.Idx) : (dot_S1000x64_S64x128_S1000x128_1_0_0_1_n_n.rhsIdx i q 1).val = (i 1).val := by
  unfold DotDims.rhsIdx
  rw [dif_neg (show ¬(1 : Fin S64x128.rank) ∈ dot_S1000x64_S64x128_S1000x128_1_0_0_1_n_n.rhsBatch by decide), dif_pos (show (1 : Fin S64x128.rank) ∈ dot_S1000x64_S64x128_S1000x128_1_0_0_1_n_n.rhsNonContracting by decide)]
  rfl

/-- Element `(p, o)` of a block's product into the zero accumulator is `∑ k, a (p, k) · w (k, o)`. -/
theorem blkmm_apply (a : FVec Ideal S1000x64 .f32) (w : FVec Ideal S64x128 .f32) (i : S1000x128.Idx) :
    matmul (F := Ideal) dot_S1000x64_S64x128_S1000x128_1_0_0_1_n_n none a w (constant S1000x128 .f32 0x00000000#32) i = ∑ k : Fin 64, a (ix2 (i 0) k) * w (ix2 k (i 1)) := by
  simp only [matmul]
  rw [Ideal.matmul_constant_zero_apply, ← Equiv.sum_comp (ValueIdx.contrEquiv1 dot_S1000x64_S64x128_S1000x128_1_0_0_1_n_n 64 rfl rfl).symm]
  refine Finset.sum_congr rfl fun k _ => ?_
  have hk := ValueIdx.contrEquiv1_symm_val dot_S1000x64_S64x128_S1000x128_1_0_0_1_n_n 64 rfl rfl k
  have el : dot_S1000x64_S64x128_S1000x128_1_0_0_1_n_n.lhsIdx i ((ValueIdx.contrEquiv1 dot_S1000x64_S64x128_S1000x128_1_0_0_1_n_n 64 rfl rfl).symm k) = ix2 (i 0) k := funext fun a => Fin.ext (by
    match a with
    | ⟨0, _⟩ => exact lhs_blk_0 _ _
    | ⟨1, _⟩ => exact (lhs_blk_1 _ _).trans hk)
  have er : dot_S1000x64_S64x128_S1000x128_1_0_0_1_n_n.rhsIdx i ((ValueIdx.contrEquiv1 dot_S1000x64_S64x128_S1000x128_1_0_0_1_n_n 64 rfl rfl).symm k) = ix2 k (i 1) := funext fun a => Fin.ext (by
    match a with
    | ⟨0, _⟩ => exact (rhs_blk_0 _ _).trans hk
    | ⟨1, _⟩ => exact rhs_blk_1 _ _)
  rw [el, er]
  rfl

/-! ### What one grid point stores, element by element -/

/-- Element `(p, o)` of the block a grid point stores, from the blocks it loaded: `max ((a · Wl + b) + x · Wr, 0)`
    with `x` the point's rows of the node features, `a` its rows of the aggregated mean, `b` the bias row. -/
theorem stored_apply (x : Vec Ideal S1000x64 .f32) (wr : Vec Ideal S64x128 .f32) (a : Vec Ideal S1000x64 .f32) (wl : Vec Ideal S64x128 .f32)
    (b : Vec Ideal S1x128 .f32) (p : Fin 1000) (o : Fin 128) :
    k1_pay1 (F := Ideal) x wr a wl b (ix2 p o)
      = max (((∑ k : Fin 64, a (ix2 p k) * wl (ix2 k o)) + b (ix2 (0 : Fin 1) o)) + ∑ k : Fin 64, x (ix2 p k) * wr (ix2 k o)) 0 := by
  unfold k1_pay1
  simp only [shapeCast_self]
  rw [maximumf_apply, addf_apply, addf_apply, blkmm_apply, blkmm_apply, broadcast_apply,
    broadcastTo_apply b broadcasts_S1x128_S1000x128 (ix2 p o) (ix2 (0 : Fin 1) o) (fun d => by
      match d with
      | ⟨0, _⟩ => rfl
      | ⟨1, _⟩ => rfl)]
  exact congrArg _ Ideal.ofBits_zero_f32

/-! ### The layer's function, element by element -/

/-- Element `(n, o)` of `relu ((a · Wl + b) + x · Wr)` on whole arrays. -/
theorem layer_apply (A X : FVec Ideal Cert.ReferenceIdeal.S50000x64 .f32) (Wl Wr : FVec Ideal Cert.ReferenceIdeal.S64x128 .f32)
    (B : FVec Ideal Cert.ReferenceIdeal.S1x128 .f32) (n : Fin 50000) (o : Fin 128) :
    Cert.Sage.relu128 (Cert.Sage.comb64_128 (F := Ideal) A X Wl Wr B) (ix2 n o)
      = max (((∑ k : Fin 64, A (ix2 n k) * Wl (ix2 k o)) + B (ix2 (0 : Fin 1) o)) + ∑ k : Fin 64, X (ix2 n k) * Wr (ix2 k o)) 0 := by
  unfold Cert.Sage.relu128 Cert.Sage.comb64_128 Cert.Sage.rowBias128
  rw [maximumf_apply, addf_apply, addf_apply, Cert.Sage.mm64_128_apply, Cert.Sage.mm64_128_apply,
    broadcastInDim_apply _ _ B (ix2 n o) (ix2 (0 : Fin 1) o) (fun d => by
      match d with
      | ⟨0, _⟩ => rfl
      | ⟨1, _⟩ => rfl),
    broadcastInDim_apply _ _ (constant (F := Ideal) Cert.ReferenceIdeal.S_ .f32 0x00000000#32) (ix2 n o) ix0 (fun d => d.elim0),
    constant_apply]
  exact congrArg _ Ideal.ofBits_zero_f32

/-! ### The grid: fifty row blocks of 1000 rows -/

theorem zeros2 : (![0, 0] : Fin 2 → Nat) = fun _ => 0 := funext fun a => by
  match a with
  | ⟨0, _⟩ => rfl
  | ⟨1, _⟩ => rfl

/-- The printed index maps over the fifty points: the two row-blocked inputs and the output sit at row block `t`, column
    block 0; the two weight matrices and the bias row are whole, the same block at every point. -/
theorem blocks_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregated mean's block at point `t` is row `1000 t + p` of the array. -/
theorem mean_blk_apply (c : Dev nD) (t : Fin cfg1.N) (p : Fin 1000) (k : Fin 64) (n : Fin 50000) (hn : n.val = t.val * 1000 + p.val) :
    (iblk1 V c 0 t : Vec Ideal S1000x64 .f32) (ix2 p k) = (V c main_v38 : S50000x64.Idx → EReal) (ix2 n k) := by
  obtain ⟨e0, e1, -⟩ := blocks_at t
  unfold iblk1
  rw [View.read_apply]
  show V c main_v38 _ = V c main_v38 _
  congr 1
  funext a
  apply Fin.ext
  match a with
  | ⟨0, _⟩ => show win1_0.index t (0 : Fin 2) * 1000 + 1 * p.val = n.val; rw [e0, hn]; omega
  | ⟨1, _⟩ => show win1_0.index t (1 : Fin 2) * 64 + 1 * k.val = k.val; rw [e1]; omega

/-- Row `p` of the node features' block at point `t` is row `1000 t + p` of the array. -/
theorem feat_blk_apply (c : Dev nD) (t : Fin cfg1.N) (p : Fin 1000) (k : Fin 64) (n : Fin 50000) (hn : n.val = t.val * 1000 + p.val) :
    (iblk1 V c 1 t : Vec Ideal S1000x64 .f32) (ix2 p k) = (V c main_v24 : S50000x64.Idx → EReal) (ix2 n k) := by
  obtain ⟨-, -, e0, e1, -⟩ := blocks_at t
  unfold iblk1
  rw [View.read_apply]
  show V c main_v24 _ = V c main_v24 _
  congr 1
  funext a
  apply Fin.ext
  match a with
  | ⟨0, _⟩ => show win1_1.index t (0 : Fin 2) * 1000 + 1 * p.val = n.val; rw [e0, hn]; omega
  | ⟨1, _⟩ => show win1_1.index t (1 : Fin 2) * 64 + 1 * k.val = k.val; rw [e1]; omega

/-- The left weight matrix's block at every point is the whole matrix. -/
theorem wl_blk_apply (c : Dev nD) (t : Fin cfg1.N) (k : Fin 64) (o : Fin 128) :
    (iblk1 V c 2 t : Vec Ideal S64x128 .f32) (ix2 k o) = (V c main_arg5 : S64x128.Idx → EReal) (ix2 k o) := by
  obtain ⟨-, -, -, -, e0, e1, -⟩ := blocks_at t
  unfold iblk1
  rw [View.read_apply]
  show V c main_arg5 _ = V c main_arg5 _
  congr 1
  funext a
  apply Fin.ext
  match a with
  | ⟨0, _⟩ => show win1_2.index t (0 : Fin 2) * 64 + 1 * k.val = k.val; rw [e0]; omega
  | ⟨1, _⟩ => show win1_2.index t (1 : Fin 2) * 128 + 1 * o.val = o.val; rw [e1]; omega

/-- The right weight matrix's block at every point is the whole matrix. -/
theorem wr_blk_apply (c : Dev nD) (t : Fin cfg1.N) (k : Fin 64) (o : Fin 128) :
    (iblk1 V c 3 t : Vec Ideal S64x128 .f32) (ix2 k o) = (V c main_arg7 : S64x128.Idx → EReal) (ix2 k o) := by
  obtain ⟨-, -, -, -, -, -, e0, e1, -⟩ := blocks_at t
  unfold iblk1
  rw [View.read_apply]
  show V c main_arg7 _ = V c main_arg7 _
  congr 1
  funext a
  apply Fin.ext
  match a with
  | ⟨0, _⟩ => show win1_3.index t (0 : Fin 2) * 64 + 1 * k.val = k.val; rw [e0]; omega
  | ⟨1, _⟩ => show win1_3.index t (1 : Fin 2) * 128 + 1 * o.val = o.val; rw [e1]; omega

/-- The bias row's block at every point is the whole row. -/
theorem bias_blk_apply (c : Dev nD) (t : Fin cfg1.N) (o : Fin 128) :
    (iblk1 V c 4 t : Vec Ideal S1x128 .f32) (ix2 (0 : Fin 1) o) = (V c main_v39 : S1x128.Idx → EReal) (ix2 (0 : Fin 1) o) := by
  obtain ⟨-, -, -, -, -, -, -, -, e0, e1, -⟩ := blocks_at t
  unfold iblk1
  rw [View.read_apply]
  show V c main_v39 _ = V c main_v39 _
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 128 + 1 * o.val = o.val; rw [e1]; omega

/-- Row `p` of the output's block at point `t` is row `1000 t + p` of the array. -/
theorem out_blk_emb (t : Fin cfg1.N) (p : Fin 1000) (o : Fin 128) (n : Fin 50000) (hn : n.val = t.val * 1000 + p.val) :
    ((cfg1.win 5).blk t).view.emb (ix2 p o) = (ix2 n o : S50000x128.Idx) := by
  obtain ⟨-, -, -, -, -, -, -, -, -, -, e0, e1⟩ := blocks_at t
  funext a
  apply Fin.ext
  match a with
  | ⟨0, _⟩ => show win1_5.index t (0 : Fin 2) * 1000 + 1 * p.val = n.val; rw [e0, hn]; omega
  | ⟨1, _⟩ => show win1_5.index t (1 : Fin 2) * 128 + 1 * o.val = o.val; rw [e1]; omega

/-! ### Every point writes back its block of the layer's function -/

/-- What point `t` writes back is rows `1000 t … 1000 t + 999` of `relu ((a · Wl + b) + x · Wr)` of the arrays the call was
    entered with. -/
theorem flushed_eq (c : Dev nD) (t : Fin cfg1.N) :
    (dat1 (F := Ideal) V c).flushed 5 t = ((cfg1.win 5).blk t).view.read (Elt Ideal)
      (Cert.Sage.relu128 (Cert.Sage.comb64_128 (F := Ideal) (V c main_v38) (V c main_v24) (V c main_arg5) (V c main_arg7) (V c main_v39))) := by
  show (cfg1.win 5).cut (grid1.coords t) ((dat1 V c).after 5 t) = _
  rw [after1_5]
  unfold Gen.out1_5
  rw [View.canon_unit_zero zeros2]
  simp only [View.ld_unit_zero (S := S1000x64) zeros2, View.ld_unit_zero (S := S64x128) zeros2, View.ld_unit_zero (S := S1x128) zeros2]
  funext j
  obtain ⟨p, o, rfl⟩ : ∃ (p : Fin 1000) (o : Fin 128), j = ix2 p o := ⟨j 0, j 1, eq_ix2 j⟩
  have hN : cfg1.N = 50 := N_1
  have ht : t.val < 50 := hN ▸ t.isLt
  refine (stored_apply (iblk1 V c 1 t) (iblk1 V c 3 t) (iblk1 V c 0 t) (iblk1 V c 2 t) (iblk1 V c 4 t) p o).trans ?_
  rw [View.read_apply, out_blk_emb t p o ⟨t.val * 1000 + p.val, by omega⟩ rfl, layer_apply]
  refine congrArg (fun z => max z (0 : EReal)) ?_
  refine congrArg₂ (· + ·) (congrArg₂ (· + ·) (Finset.sum_congr rfl fun k _ => ?_) (bias_blk_apply V c t o)) (Finset.sum_congr rfl fun k _ => ?_)
  · exact congrArg₂ (· * ·) (mean_blk_apply V c t p k _ rfl) (wl_blk_apply V c t k o)
  · exact congrArg₂ (· * ·) (feat_blk_apply V c t p k _ rfl) (wr_blk_apply V c t k o)

/-! ### The blocks tile the array -/

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v40).slice (win1_5.rect t)).set ↔ _
  rw [View.set_slice_whole, Rect.mem_set_unit]
  exact Iff.rfl

/-- Row `r` of the output is written back by point `r / 1000`. -/
theorem covered (i : S50000x128.Idx) : ∃ t : Fin cfg1.N, (cfg1.win 5).flush t = true ∧ i ∈ ((cfg1.win 5).blk t).view.set := by
  have hN : cfg1.N = 50 := N_1
  have hi0 : (i 0).val < 50000 := (i 0).isLt
  have hi1 : (i 1).val < 128 := (i 1).isLt
  refine ⟨⟨(i 0).val / 1000, by rw [hN]; omega⟩, flush1_5 _, ?_⟩
  rw [mem_blk]
  obtain ⟨-, -, -, -, -, -, -, -, -, -, e0, e1⟩ := blocks_at ⟨(i 0).val / 1000, by rw [hN]; omega⟩
  intro a
  match a with
  | ⟨0, _⟩ =>
    show win1_5.index _ (0 : Fin 2) * 1000 ≤ (i 0).val ∧ (i 0).val < win1_5.index _ (0 : Fin 2) * 1000 + 1000
    rw [e0]; show (i 0).val / 1000 * 1000 ≤ (i 0).val ∧ (i 0).val < (i 0).val / 1000 * 1000 + 1000; omega
  | ⟨1, _⟩ =>
    show win1_5.index _ (1 : Fin 2) * 128 ≤ (i 1).val ∧ (i 1).val < win1_5.index _ (1 : Fin 2) * 128 + 128
    rw [e1]; omega

/-- The second combine call, whole: the output array is `relu ((a · Wl + b) + x · Wr)` at widths 64 → 128. -/
theorem final (c : Dev nD) :
    (dat1 (F := Ideal) V c).arrAt 5 cfg1.N =
      Cert.Sage.relu128 (Cert.Sage.comb64_128 (F := Ideal) (V c main_v38) (V c main_v24) (V c main_arg5) (V c main_arg7) (V c main_v39)) :=
  (dat1 (F := Ideal) V c).arrAt_eq_of_cover 5 _ (fun t _ => flushed_eq V c t) covered

end Cert.KernelIdeal.Region1

end
-- ==== Proof.Region2.lean ====
import proofs.«406188_j42279658062119_3_alg».proof.Proof.Spec
import proofs.«406188_j42279658062119_3_alg».proof.Proof.Dense
import proofs.«406188_j42279658062119_3_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Region2

open Idealize.ShloMosaic Idealize.ShloMosaic.TcCoe Idealize.SL.Sem Cert.KernelIdeal Cert.KernelIdeal.Gen
open Idealize.ShloMosaic.Pipeline (Dat Cfg Window)
open Idealize.ShloMosaic.ValueIdx
open scoped BigOperators

variable (V : (c : Dev nD) → (b : Ref sig .tc) → Buf (Elt Ideal) ((c : Thread nD τ).loc b))

/-! ## One block's product, read at an index

The body multiplies a block of 1000 rows of `h` by the whole of `W` into a zero accumulator: entry `(p, o)` of the
result is `∑ k, x (p, k) · w (k, o)`, the contraction running over the 128 columns of the block. -/

theorem lhs_block_0 (i : S1000x64.Idx) (q : dot_S1000x128_S128x64_S1000x64_1_0_0_1_n_n.contr.Idx) : (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs_block_1 (i : S1000x64.Idx) (q : dot_S1000x128_S128x64_S1000x64_1_0_0_1_n_n.contr.Idx) : (dot_S1000x128_S128x64_S1000x64_1_0_0_1_n_n.lhsIdx i q 1).val = (q ⟨0, by decide⟩).val :=
  dot_S1000x128_S128x64_S1000x64_1_0_0_1_n_n.lhsIdx_val_of_single rfl i q
theorem rhs_block_0 (i : S1000x64.Idx) (q : dot_S1000x128_S128x64_S1000x64_1_0_0_1_n_n.contr.Idx) : (dot_S1000x128_S128x64_S1000x64_1_0_0_1_n_n.rhsIdx i q 0).val = (q ⟨0, by decide⟩).val :=
  dot_S1000x128_S128x64_S1000x64_1_0_0_1_n_n.rhsIdx_val_of_single rfl i q
theorem rhs_block_1 (i : S1000x64.Idx) (q : dot_S1000x128_S128x64_S1000x64_1_0_0_1_n_n.contr.Idx) : (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- Entry `(p, o)` of a block's product into the zero accumulator is `∑ k, x (p, k) · w (k, o)`. -/
theorem blockProduct_apply (x : FVec Ideal S1000x128 .f32) (w : FVec Ideal S128x64 .f32) (i : S1000x64.Idx) :
    matmul dot_S1000x128_S128x64_S1000x64_1_0_0_1_n_n none x w (constant (F := Ideal) S1000x64 .f32 0x00000000#32) i
      = ∑ k : Fin 128, x (ix2 (i 0) k) * w (ix2 k (i 1)) := by
  refine (Ideal.matmul_constant_zero_apply dot_S1000x128_S128x64_S1000x64_1_0_0_1_n_n none x w i).trans ?_
  rw [← Equiv.sum_comp (ValueIdx.contrEquiv1 dot_S1000x128_S128x64_S1000x64_1_0_0_1_n_n 128 rfl rfl).symm]
  refine Finset.sum_congr rfl fun k _ => ?_
  have hk := ValueIdx.contrEquiv1_symm_val dot_S1000x128_S128x64_S1000x64_1_0_0_1_n_n 128 rfl rfl k
  have el : dot_S1000x128_S128x64_S1000x64_1_0_0_1_n_n.lhsIdx i ((ValueIdx.contrEquiv1 dot_S1000x128_S128x64_S1000x64_1_0_0_1_n_n 128 rfl rfl).symm k) = ix2 (i 0) k := funext fun a => Fin.ext (by
    match a with
    | ⟨0, _⟩ => exact lhs_block_0 _ _
    | ⟨1, _⟩ => exact (lhs_block_1 _ _).trans hk)
  have er : dot_S1000x128_S128x64_S1000x64_1_0_0_1_n_n.rhsIdx i ((ValueIdx.contrEquiv1 dot_S1000x128_S128x64_S1000x64_1_0_0_1_n_n 128 rfl rfl).symm k) = ix2 k (i 1) := funext fun a => Fin.ext (by
    match a with
    | ⟨0, _⟩ => exact (rhs_block_0 _ _).trans hk
    | ⟨1, _⟩ => exact rhs_block_1 _ _)
  rw [el, er]
  rfl

/-- The body's payload at an index: the product of the loaded block and the loaded weights. -/
theorem payload_apply (x : Vec Ideal S1000x128 .f32) (w : Vec Ideal S128x64 .f32) (i : S1000x64.Idx) :
    k2_pay1 (F := Ideal) x w i = ∑ k : Fin 128, x (ix2 (i 0) k) * w (ix2 k (i 1)) := by
  unfold k2_pay1
  refine Eq.trans ?_ (blockProduct_apply x w i)
  rw [shapeCast_self]

/-! ## From blocks to the array

Point `t` of the 50 works on rows `1000 t … 1000 t + 999`: its block of `h` is those rows (all 128 columns), its block of
`W` is the whole of `W`, and it writes those rows of the output (all 64 columns). -/

theorem origin : (![0, 0] : Fin 2 → Nat) = fun _ => 0 := funext fun a => by fin_cases a <;> rfl

/-- The printed index maps, decided over the grid: the row blocks of `h` and of the output move with the point, the
    weights stay. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block's payload at `j` is the whole product at `i` as soon as row `j 0` of the block is row `i 0` of `a` and column
    `j 1` of the loaded weights is column `i 1` of `w`. -/
theorem payload_eq_product (a : FVec Ideal S50000x128 .f32) (w : FVec Ideal S128x64 .f32)
    (x0 : Vec Ideal S1000x128 .f32) (x1 : Vec Ideal S128x64 .f32) (j : S1000x64.Idx) (i : S50000x64.Idx)
    (hx0 : ∀ k : Fin 128, x0 (ix2 (j 0) k) = a (ix2 (i 0) k))
    (hx1 : ∀ k : Fin 128, x1 (ix2 k (j 1)) = w (ix2 k (i 1))) :
    k2_pay1 (F := Ideal) x0 x1 j = Cert.Sage.mm128_64 (F := Ideal) a w i := by
  rw [payload_apply, Cert.Sage.mm128_64_apply]
  exact Finset.sum_congr rfl fun k _ => by rw [hx0, hx1]

/-- What point `t` writes back is its block of rows of `h · W`. -/
theorem flushed_eq (c : Dev nD) (t : Fin cfg2.N) :
    (dat2 (F := Ideal) V c).flushed 2 t
      = ((cfg2.win 2).blk t).view.read (Elt Ideal) (Cert.Sage.mm128_64 (F := Ideal) (V c main_v40) (V c main_arg8)) := by
  show (cfg2.win 2).cut (grid2.coords t) ((dat2 (F := Ideal) V c).after 2 t) = _
  rw [after2_2]
  unfold Gen.out2_2
  rw [View.canon_unit_zero origin]
  simp only [View.ld_unit_zero (S := S1000x128) origin, View.ld_unit_zero (S := S128x64) origin]
  obtain ⟨e00, e01, e10, e11, e20, e21⟩ := index_facts t
  funext j
  refine payload_eq_product (V c main_v40) (V c main_arg8) (iblk2 V c 0 t) (iblk2 V c 1 t) j (((cfg2.win 2).blk t).view.emb j) (fun k => ?_) (fun k => ?_)
  · show V c main_v40 (((cfg2.win 0).blk t).view.emb (ix2 (j 0) k)) = V c main_v40 (ix2 ((((cfg2.win 2).blk t).view.emb j) 0) k)
    refine congrArg (V c main_v40) (funext fun a => Fin.ext ?_)
    match a with
    | ⟨0, _⟩ => show win2_0.index t (0 : Fin 2) * 1000 + 1 * (j 0).val = win2_2.index t (0 : Fin 2) * 1000 + 1 * (j 0).val; omega
    | ⟨1, _⟩ => show win2_0.index t (1 : Fin 2) * 128 + 1 * k.val = k.val; omega
  · show V c main_arg8 (((cfg2.win 1).blk t).view.emb (ix2 k (j 1))) = V c main_arg8 (ix2 k ((((cfg2.win 2).blk t).view.emb j) 1))
    refine congrArg (V c main_arg8) (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An index of the output array is in point `t`'s block iff each coordinate is in the block's range on its axis. -/
theorem mem_block (t : Fin cfg2.N) (i : S50000x64.Idx) :
    i ∈ ((cfg2.win 2).blk t).view.set ↔ ∀ a : Fin 2, win2_2.index t a * S1000x64.size a ≤ (i a).val ∧ (i a).val < win2_2.index t a * S1000x64.size a + S1000x64.size a := by
  show i ∈ ((View.whole main_v41).slice (win2_2.rect t)).set ↔ _
  rw [View.set_slice_whole, Rect.mem_set_unit]
  exact Iff.rfl

/-- Every row of the output is written: row `r` by point `r / 1000`. -/
theorem covered (i : S50000x64.Idx) :
    ∃ t : Fin cfg2.N, (cfg2.win 2).flush t = true ∧ i ∈ ((cfg2.win 2).blk t).view.set := by
  have hN : cfg2.N = 50 := N_2
  have hi0 : (i 0).val < 50000 := (i 0).isLt
  have hi1 : (i 1).val < 64 := (i 1).isLt
  obtain ⟨t, ht⟩ : ∃ t : Fin cfg2.N, t.val = (i 0).val / 1000 := ⟨⟨(i 0).val / 1000, by rw [hN]; omega⟩, rfl⟩
  obtain ⟨-, -, -, -, e20, e21⟩ := index_facts t
  refine ⟨t, flush2_2 t, ?_⟩
  rw [mem_block]
  intro a
  match a with
  | ⟨0, _⟩ => show win2_2.index t (0 : Fin 2) * 1000 ≤ (i 0).val ∧ (i 0).val < win2_2.index t (0 : Fin 2) * 1000 + 1000; omega
  | ⟨1, _⟩ => show win2_2.index t (1 : Fin 2) * 64 ≤ (i 1).val ∧ (i 1).val < win2_2.index t (1 : Fin 2) * 64 + 64; omega

/-- The projection call, whole: the output array is the matrix product `h · W` of the arrays the call was entered with. -/
theorem final (c : Dev nD) :
    (dat2 (F := Ideal) V c).arrAt 2 cfg2.N = Cert.Sage.mm128_64 (F := Ideal) (V c main_v40) (V c main_arg8) :=
  (dat2 (F := Ideal) V c).arrAt_eq_of_cover 2 (Cert.Sage.mm128_64 (F := Ideal) (V c main_v40) (V c main_arg8))
    (fun t _ => flushed_eq V c t) covered

end Cert.KernelIdeal.Region2

end
-- ==== Proof.Region3.lean ====
import proofs.«406188_j42279658062119_3_alg».proof.Proof.Spec
import proofs.«406188_j42279658062119_3_alg».proof.Proof.Dense
import proofs.«406188_j42279658062119_3_alg».proof.Proof.Gen.KernelIdeal.Frame
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Region3

open Idealize.ShloMosaic Idealize.ShloMosaic.TcCoe Idealize.SL.Sem Cert.KernelIdeal Cert.KernelIdeal.Gen
open Idealize.ShloMosaic.Pipeline (Dat Cfg Window)
open Idealize.ShloMosaic.ValueIdx
open scoped BigOperators

variable (V : (c : Dev nD) → (b : Ref sig .tc) → Buf (Elt Ideal) ((c : Thread nD τ).loc b))

/-! ## One block's result, read at an index

The body takes a block of 1000 rows of the aggregated mean `a`, adds the bias row to each of them, and adds the product
of the same rows of the features `x` with the whole of `Wr`: entry `(p, o)` of the result is
`(a (p, o) + b (0, o)) + ∑ k, x (p, k) · Wr (k, o)`. -/

theorem lhs_block_0 (i : S1000x64.Idx) (q : dot_S1000x128_S128x64_S1000x64_1_0_0_1_n_n.contr.Idx) : (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs_block_1 (i : S1000x64.Idx) (q : dot_S1000x128_S128x64_S1000x64_1_0_0_1_n_n.contr.Idx) : (dot_S1000x128_S128x64_S1000x64_1_0_0_1_n_n.lhsIdx i q 1).val = (q ⟨0, by decide⟩).val :=
  dot_S1000x128_S128x64_S1000x64_1_0_0_1_n_n.lhsIdx_val_of_single rfl i q
theorem rhs_block_0 (i : S1000x64.Idx) (q : dot_S1000x128_S128x64_S1000x64_1_0_0_1_n_n.contr.Idx) : (dot_S1000x128_S128x64_S1000x64_1_0_0_1_n_n.rhsIdx i q 0).val = (q ⟨0, by decide⟩).val :=
  dot_S1000x128_S128x64_S1000x64_1_0_0_1_n_n.rhsIdx_val_of_single rfl i q
theorem rhs_block_1 (i : S1000x64.Idx) (q : dot_S1000x128_S128x64_S1000x64_1_0_0_1_n_n.contr.Idx) : (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- Entry `(p, o)` of a block's product into the zero accumulator is `∑ k, x (p, k) · w (k, o)`. -/
theorem blockProduct_apply (x : FVec Ideal S1000x128 .f32) (w : FVec Ideal S128x64 .f32) (i : S1000x64.Idx) :
    matmul dot_S1000x128_S128x64_S1000x64_1_0_0_1_n_n none x w (constant (F := Ideal) S1000x64 .f32 0x00000000#32) i
      = ∑ k : Fin 128, x (ix2 (i 0) k) * w (ix2 k (i 1)) := by
  refine (Ideal.matmul_constant_zero_apply dot_S1000x128_S128x64_S1000x64_1_0_0_1_n_n none x w i).trans ?_
  rw [← Equiv.sum_comp (ValueIdx.contrEquiv1 dot_S1000x128_S128x64_S1000x64_1_0_0_1_n_n 128 rfl rfl).symm]
  refine Finset.sum_congr rfl fun k _ => ?_
  have hk := ValueIdx.contrEquiv1_symm_val dot_S1000x128_S128x64_S1000x64_1_0_0_1_n_n 128 rfl rfl k
  have el : dot_S1000x128_S128x64_S1000x64_1_0_0_1_n_n.lhsIdx i ((ValueIdx.contrEquiv1 dot_S1000x128_S128x64_S1000x64_1_0_0_1_n_n 128 rfl rfl).symm k) = ix2 (i 0) k := funext fun a => Fin.ext (by
    match a with
    | ⟨0, _⟩ => exact lhs_block_0 _ _
    | ⟨1, _⟩ => exact (lhs_block_1 _ _).trans hk)
  have er : dot_S1000x128_S128x64_S1000x64_1_0_0_1_n_n.rhsIdx i ((ValueIdx.contrEquiv1 dot_S1000x128_S128x64_S1000x64_1_0_0_1_n_n 128 rfl rfl).symm k) = ix2 k (i 1) := funext fun a => Fin.ext (by
    match a with
    | ⟨0, _⟩ => exact (rhs_block_0 _ _).trans hk
    | ⟨1, _⟩ => exact rhs_block_1 _ _)
  rw [el, er]
  rfl

/-- The one-row bias spread over the 1000 rows of a block reads, in every row, the row's entry of that column. -/
theorem blockBias_apply (b : FVec Ideal S1x64 .f32) (i : S1000x64.Idx) :
    broadcastTo S1000x64 b broadcasts_S1x64_S1000x64 i = b (ix2 (0 : Fin 1) (i 1)) := by
  refine broadcastTo_apply b broadcasts_S1x64_S1000x64 i (ix2 (0 : Fin 1) (i 1)) fun a => ?_
  match a with
  | ⟨0, _⟩ => rfl
  | ⟨1, _⟩ => rfl

/-- The same for the whole array's 50000 rows. -/
theorem rowBias_apply (b : FVec Ideal S1x64 .f32) (i : S50000x64.Idx) :
    Cert.Sage.rowBias64 (F := Ideal) b i = b (ix2 (0 : Fin 1) (i 1)) := by
  unfold Cert.Sage.rowBias64
  refine broadcastInDim_apply _ _ b i (ix2 (0 : Fin 1) (i 1)) fun a => ?_
  match a with
  | ⟨0, _⟩ => rfl
  | ⟨1, _⟩ => rfl

/-- The body's payload at an index. -/
theorem payload_apply (x : Vec Ideal S1000x128 .f32) (w : Vec Ideal S128x64 .f32) (a : Vec Ideal S1000x64 .f32) (b : Vec Ideal S1x64 .f32) (i : S1000x64.Idx) :
    k3_pay1 (F := Ideal) x w a b i = (a i + b (ix2 (0 : Fin 1) (i 1))) + ∑ k : Fin 128, x (ix2 (i 0) k) * w (ix2 k (i 1)) := by
  unfold k3_pay1
  refine congrArg₂ (· + ·) (congrArg₂ (· + ·) ?_ ?_) ?_
  · rw [shapeCast_self]
  · rw [shapeCast_self]; exact blockBias_apply b i
  · rw [shapeCast_self]; exact blockProduct_apply x w i

/-- The whole-array result at an index. -/
theorem combPre_apply (a : FVec Ideal S50000x64 .f32) (x : FVec Ideal S50000x128 .f32) (wr : FVec Ideal S128x64 .f32) (b : FVec Ideal S1x64 .f32) (i : S50000x64.Idx) :
    Cert.Sage.combPre64 (F := Ideal) a x wr b i = (a i + b (ix2 (0 : Fin 1) (i 1))) + ∑ k : Fin 128, x (ix2 (i 0) k) * wr (ix2 k (i 1)) := by
  unfold Cert.Sage.combPre64
  rw [addf_apply, addf_apply, rowBias_apply, Cert.Sage.mm128_64_apply]

/-! ## From blocks to the array

Point `t` of the 50 works on rows `1000 t … 1000 t + 999`: its blocks of `a` and of `x` are those rows (all columns), its
blocks of `Wr` and of the bias row are the whole arrays, and it writes those rows of the output (all 64 columns). -/

theorem origin : (![0, 0] : Fin 2 → Nat) = fun _ => 0 := funext fun a => by fin_cases a <;> rfl

/-- The printed index maps, decided over the grid: the row blocks of `a`, of `x` and of the output move with the point,
    the weights and the bias stay. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A block's payload at `j` is the whole result at `i` as soon as entry `j` of the block of `a` is entry `i` of `a`, row
    `j 0` of the block of `x` is row `i 0` of `x`, and column `j 1` of the loaded weights and bias is column `i 1` of the
    whole ones. -/
theorem payload_eq_result (a : FVec Ideal S50000x64 .f32) (x : FVec Ideal S50000x128 .f32) (wr : FVec Ideal S128x64 .f32) (b : FVec Ideal S1x64 .f32)
    (xa : Vec Ideal S1000x64 .f32) (xx : Vec Ideal S1000x128 .f32) (xw : Vec Ideal S128x64 .f32) (xb : Vec Ideal S1x64 .f32)
    (j : S1000x64.Idx) (i : S50000x64.Idx)
    (ha : xa j = a i)
    (hb : xb (ix2 (0 : Fin 1) (j 1)) = b (ix2 (0 : Fin 1) (i 1)))
    (hx : ∀ k : Fin 128, xx (ix2 (j 0) k) = x (ix2 (i 0) k))
    (hw : ∀ k : Fin 128, xw (ix2 k (j 1)) = wr (ix2 k (i 1))) :
    k3_pay1 (F := Ideal) xx xw xa xb j = Cert.Sage.combPre64 (F := Ideal) a x wr b i := by
  rw [payload_apply, combPre_apply, ha, hb]
  exact congrArg _ (Finset.sum_congr rfl fun k _ => by rw [hx, hw])

/-- What point `t` writes back is its block of rows of `(a + b) + x · Wr`. -/
theorem flushed_eq (c : Dev nD) (t : Fin cfg3.N) :
    (dat3 (F := Ideal) V c).flushed 5 t
      = ((cfg3.win 5).blk t).view.read (Elt Ideal)
          (Cert.Sage.combPre64 (F := Ideal) (V c main_v55) (V c main_v40) (V c main_arg10) (V c main_v57)) := by
  show (cfg3.win 5).cut (grid3.coords t) ((dat3 (F := Ideal) V c).after 5 t) = _
  rw [after3_5]
  unfold Gen.out3_5
  rw [View.canon_unit_zero origin]
  simp only [View.ld_unit_zero (S := S1000x128) origin, View.ld_unit_zero (S := S128x64) origin,
    View.ld_unit_zero (S := S1000x64) origin, View.ld_unit_zero (S := S1x64) origin]
  obtain ⟨e00, e01, e10, e11, e30, e31, e40, e41, e50, e51⟩ := index_facts t
  funext j
  refine payload_eq_result (V c main_v55) (V c main_v40) (V c main_arg10) (V c main_v57)
    (iblk3 V c 0 t) (iblk3 V c 1 t) (iblk3 V c 3 t) (iblk3 V c 4 t) j (((cfg3.win 5).blk t).view.emb j) ?_ ?_ (fun k => ?_) (fun k => ?_)
  · show V c main_v55 (((cfg3.win 0).blk t).view.emb j) = V c main_v55 (((cfg3.win 5).blk t).view.emb j)
    refine congrArg (V c main_v55) (funext fun a => Fin.ext ?_)
    match a with
    | ⟨0, _⟩ => show win3_0.index t (0 : Fin 2) * 1000 + 1 * (j 0).val = win3_5.index t (0 : Fin 2) * 1000 + 1 * (j 0).val; omega
    | ⟨1, _⟩ => show win3_0.index t (1 : Fin 2) * 64 + 1 * (j 1).val = win3_5.index t (1 : Fin 2) * 64 + 1 * (j 1).val; omega
  · show V c main_v57 (((cfg3.win 4).blk t).view.emb (ix2 (0 : Fin 1) (j 1))) = V c main_v57 (ix2 (0 : Fin 1) ((((cfg3.win 5).blk t).view.emb j) 1))
    refine congrArg (V c main_v57) (funext fun a => Fin.ext ?_)
    match a with
    | ⟨0, _⟩ => show win3_4.index t (0 : Fin 2) * 1 + 1 * 0 = 0; omega
    | ⟨1, _⟩ => show win3_4.index t (1 : Fin 2) * 64 + 1 * (j 1).val = win3_5.index t (1 : Fin 2) * 64 + 1 * (j 1).val; omega
  · show V c main_v40 (((cfg3.win 1).blk t).view.emb (ix2 (j 0) k)) = V c main_v40 (ix2 ((((cfg3.win 5).blk t).view.emb j) 0) k)
    refine congrArg (V c main_v40) (funext fun a => Fin.ext ?_)
    match a with
    | ⟨0, _⟩ => show win3_1.index t (0 : Fin 2) * 1000 + 1 * (j 0).val = win3_5.index t (0 : Fin 2) * 1000 + 1 * (j 0).val; omega
    | ⟨1, _⟩ => show win3_1.index t (1 : Fin 2) * 128 + 1 * k.val = k.val; omega
  · show V c main_arg10 (((cfg3.win 3).blk t).view.emb (ix2 k (j 1))) = V c main_arg10 (ix2 k ((((cfg3.win 5).blk t).view.emb j) 1))
    refine congrArg (V c main_arg10) (funext fun a => Fin.ext ?_)
    match a with
    | ⟨0, _⟩ => show win3_3.index t (0 : Fin 2) * 128 + 1 * k.val = k.val; omega
    | ⟨1, _⟩ => show win3_3.index t (1 : Fin 2) * 64 + 1 * (j 1).val = win3_5.index t (1 : Fin 2) * 64 + 1 * (j 1).val; omega

/-- An index of the output array is in point `t`'s block iff each coordinate is in the block's range on its axis. -/
theorem mem_block (t : Fin cfg3.N) (i : S50000x64.Idx) :
    i ∈ ((cfg3.win 5).blk t).view.set ↔ ∀ a : Fin 2, win3_5.index t a * S1000x64.size a ≤ (i a).val ∧ (i a).val < win3_5.index t a * S1000x64.size a + S1000x64.size a := by
  show i ∈ ((View.whole main_v58).slice (win3_5.rect t)).set ↔ _
  rw [View.set_slice_whole, Rect.mem_set_unit]
  exact Iff.rfl

/-- Every row of the output is written: row `r` by point `r / 1000`. -/
theorem covered (i : S50000x64.Idx) :
    ∃ t : Fin cfg3.N, (cfg3.win 5).flush t = true ∧ i ∈ ((cfg3.win 5).blk t).view.set := by
  have hN : cfg3.N = 50 := N_3
  have hi0 : (i 0).val < 50000 := (i 0).isLt
  have hi1 : (i 1).val < 64 := (i 1).isLt
  obtain ⟨t, ht⟩ : ∃ t : Fin cfg3.N, t.val = (i 0).val / 1000 := ⟨⟨(i 0).val / 1000, by rw [hN]; omega⟩, rfl⟩
  obtain ⟨-, -, -, -, -, -, -, -, e50, e51⟩ := index_facts t
  refine ⟨t, flush3_5 t, ?_⟩
  rw [mem_block]
  intro a
  match a with
  | ⟨0, _⟩ => show win3_5.index t (0 : Fin 2) * 1000 ≤ (i 0).val ∧ (i 0).val < win3_5.index t (0 : Fin 2) * 1000 + 1000; omega
  | ⟨1, _⟩ => show win3_5.index t (1 : Fin 2) * 64 ≤ (i 1).val ∧ (i 1).val < win3_5.index t (1 : Fin 2) * 64 + 64; omega

/-- The third combine call, whole: its aggregated input is already projected, so the output array is `(a + b) + x · Wr`. -/
theorem final (c : Dev nD) :
    (dat3 (F := Ideal) V c).arrAt 5 cfg3.N =
      Cert.Sage.combPre64 (F := Ideal) (V c main_v55) (V c main_v40) (V c main_arg10) (V c main_v57) :=
  (dat3 (F := Ideal) V c).arrAt_eq_of_cover 5
    (Cert.Sage.combPre64 (F := Ideal) (V c main_v55) (V c main_v40) (V c main_arg10) (V c main_v57))
    (fun t _ => flushed_eq V c t) covered

end Cert.KernelIdeal.Region3

end
-- ==== Proof.KernelValue.lean ====
import proofs.«406188_j42279658062119_3_alg».proof.Proof.Spec
import proofs.«406188_j42279658062119_3_alg».proof.Proof.Region0
import proofs.«406188_j42279658062119_3_alg».proof.Proof.Region1
import proofs.«406188_j42279658062119_3_alg».proof.Proof.Region2
import proofs.«406188_j42279658062119_3_alg».proof.Proof.Region3
import proofs.«406188_j42279658062119_3_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

noncomputable section

/-!
  The kernel program's result, read back through @main: four calls among three stretches of host operations.
  Each boundary's contents are named as they are reached: a host stretch applies its operations to the contents
  before it, a call leaves its output array at its layer of the arrays it was entered with and every other buffer
  as it was. The stretches repeat one chain — gather the source rows, add them at the destinations, divide by the
  in-degree column — which is carried here under one name per width and compared with the reference's spelling
  of the same chain only at the end.
-/

namespace Cert.KernelIdeal.ValueRun

open Idealize.ShloMosaic Idealize.ShloMosaic.TcCoe Idealize.SL.Sem Idealize.ShloMosaic.StableHlo Idealize.ShloMosaic.ValueIdx Cert.KernelIdeal Cert.KernelIdeal.Gen

/-! ## The shared chain, as this program spells it -/

/-- Every edge's source node (row 0 of the edge list). -/
def srcR (ei : IVec S2x640000 32) : IVec S640000 32 :=
  shapeCast _ (extractStridedSlice S1x640000 ![0, 0] ei slices_S2x640000_S1x640000_0_0) shapeCasts_S1x640000_S640000
/-- Every edge's destination node (row 1). -/
def dstR (ei : IVec S2x640000 32) : IVec S640000 32 :=
  shapeCast _ (extractStridedSlice S1x640000 ![1, 0] ei slices_S2x640000_S1x640000_1_0) shapeCasts_S1x640000_S640000
/-- The gather's index column: the source node, `+ 50000` where negative. -/
def srcC (ei : IVec S2x640000 32) : IVec S640000x1 32 :=
  broadcastInDim S640000x1 ![0] bcast_S640000_S640000x1_0
    (select (cmpi .slt (srcR ei) (broadcastInDim S640000 ![] bcast_S_S640000 (constantI S_ 32 0#32)))
      (addi (srcR ei) (broadcastInDim S640000 ![] bcast_S_S640000 (constantI S_ 32 50000#32))) (srcR ei))
/-- The scatter's index column. -/
def dstC (ei : IVec S2x640000 32) : IVec S640000x1 32 :=
  broadcastInDim S640000x1 ![0] bcast_S640000_S640000x1_0 (dstR ei)
/-- The in-degrees as a column: computed once, before the first call. -/
def cntC (ei : IVec S2x640000 32) : FVec Ideal S50000x1 .f32 :=
  broadcastInDim S50000x1 ![0] bcast_S50000_S50000x1_0
    (Host.scatterAdd scatter_S50000_S640000x1_S640000_n_0_0_1
      (broadcastInDim S50000 ![] bcast_S_S50000 (constant S_ .f32 0x00000000#32)) (dstC ei)
      (broadcastInDim S640000 ![] bcast_S_S640000 (constant S_ .f32 0x3F800000#32)))
/-- The mean's divisor column: the in-degree, at least one. -/
def divC (ei : IVec S2x640000 32) : FVec Ideal S50000x1 .f32 :=
  maximumf (cntC ei) (broadcastInDim S50000x1 ![] bcast_S_S50000x1 (constant S_ .f32 0x3F800000#32))

def meanK32 (h : FVec Ideal S50000x32 .f32) (ei : IVec S2x640000 32) : FVec Ideal S50000x32 .f32 :=
  Host.divf
    (Host.scatterAdd scatter_S50000x32_S640000x1_S640000x32_1_0_0_1
      (broadcastInDim S50000x32 ![] bcast_S_S50000x32 (constant S_ .f32 0x00000000#32)) (dstC ei)
      (Host.gather gather_S50000x32_S640000x1_S640000x32_1_0_n_n_0_1_132 h (srcC ei)))
    (broadcastInDim S50000x32 ![0, 1] bcast_S50000x1_S50000x32_0_1 (divC ei))
def meanK64 (h : FVec Ideal S50000x64 .f32) (ei : IVec S2x640000 32) : FVec Ideal S50000x64 .f32 :=
  Host.divf
    (Host.scatterAdd scatter_S50000x64_S640000x1_S640000x64_1_0_0_1
      (broadcastInDim S50000x64 ![] bcast_S_S50000x64 (constant S_ .f32 0x00000000#32)) (dstC ei)
      (Host.gather gather_S50000x64_S640000x1_S640000x64_1_0_n_n_0_1_164 h (srcC ei)))
    (broadcastInDim S50000x64 ![0, 1] bcast_S50000x1_S50000x64_0_1 (divC ei))

/-- A bias vector as a one-row matrix (this program reshapes it). -/
def rowOf64 (b : FVec Ideal S64 .f32) : FVec Ideal S1x64 .f32 := shapeCast _ b shapeCasts_S64_S1x64
def rowOf128 (b : FVec Ideal S128 .f32) : FVec Ideal S1x128 .f32 := shapeCast _ b shapeCasts_S128_S1x128

variable (m : (ℓ : Loc nD τ sig) → Buf (Elt Ideal) ℓ) (ρ : Dev nD → PrngReg)

/-! ## The contents at each boundary, buffer by buffer -/

theorem W1_v1 (c : Dev nD) :
    W1 (F := Ideal) m ρ c (Proc.devRef .tc main_v1) = srcR (m ((c.tc : Thread nD τ).loc main_arg1)) := by
  show StableHlo.after hostOps0 (fun b => m (c, b)) (Proc.devRef .tc main_v1) = _
  after_results
  try rfl

theorem W1_v3 (c : Dev nD) :
    W1 (F := Ideal) m ρ c (Proc.devRef .tc main_v3) = dstR (m ((c.tc : Thread nD τ).loc main_arg1)) := by
  show StableHlo.after hostOps0 (fun b => m (c, b)) (Proc.devRef .tc main_v3) = _
  after_results
  try rfl

theorem W1_v8 (c : Dev nD) :
    W1 (F := Ideal) m ρ c (Proc.devRef .tc main_v8) = cntC (m ((c.tc : Thread nD τ).loc main_arg1)) := by
  show StableHlo.after hostOps0 (fun b => m (c, b)) (Proc.devRef .tc main_v8) = _
  after_results
  try rfl

set_option maxHeartbeats 4000000 in
theorem W1_v22 (c : Dev nD) :
    W1 (F := Ideal) m ρ c (Proc.devRef .tc main_v22) = meanK32 (m ((c.tc : Thread nD τ).loc main_arg0)) (m ((c.tc : Thread nD τ).loc main_arg1)) := by
  show StableHlo.after hostOps0 (fun b => m (c, b)) (Proc.devRef .tc main_v22) = _
  after_results_simp
  try rfl

theorem W1_v23 (c : Dev nD) :
    W1 (F := Ideal) m ρ c (Proc.devRef .tc main_v23) = rowOf64 (m ((c.tc : Thread nD τ).loc main_arg3)) := by
  show StableHlo.after hostOps0 (fun b => m (c, b)) (Proc.devRef .tc main_v23) = _
  after_results
  try rfl

theorem W1_arg0 (c : Dev nD) :
    W1 (F := Ideal) m ρ c (Proc.devRef .tc main_arg0) = (m ((c.tc : Thread nD τ).loc main_arg0)) := by
  show StableHlo.after hostOps0 (fun b => m (c, b)) (Proc.devRef .tc main_arg0) = _
  after_results
  try rfl

theorem W1_arg2 (c : Dev nD) :
    W1 (F := Ideal) m ρ c (Proc.devRef .tc main_arg2) = (m ((c.tc : Thread nD τ).loc main_arg2)) := by
  show StableHlo.after hostOps0 (fun b => m (c, b)) (Proc.devRef .tc main_arg2) = _
  after_results
  try rfl

theorem W1_arg4 (c : Dev nD) :
    W1 (F := Ideal) m ρ c (Proc.devRef .tc main_arg4) = (m ((c.tc : Thread nD τ).loc main_arg4)) := by
  show StableHlo.after hostOps0 (fun b => m (c, b)) (Proc.devRef .tc main_arg4) = _
  after_results
  try rfl

theorem W1_arg5 (c : Dev nD) :
    W1 (F := Ideal) m ρ c (Proc.devRef .tc main_arg5) = (m ((c.tc : Thread nD τ).loc main_arg5)) := by
  show StableHlo.after hostOps0 (fun b => m (c, b)) (Proc.devRef .tc main_arg5) = _
  after_results
  try rfl

theorem W1_arg6 (c : Dev nD) :
    W1 (F := Ideal) m ρ c (Proc.devRef .tc main_arg6) = (m ((c.tc : Thread nD τ).loc main_arg6)) := by
  show StableHlo.after hostOps0 (fun b => m (c, b)) (Proc.devRef .tc main_arg6) = _
  after_results
  try rfl

theorem W1_arg7 (c : Dev nD) :
    W1 (F := Ideal) m ρ c (Proc.devRef .tc main_arg7) = (m ((c.tc : Thread nD τ).loc main_arg7)) := by
  show StableHlo.after hostOps0 (fun b => m (c, b)) (Proc.devRef .tc main_arg7) = _
  after_results
  try rfl

theorem W1_arg8 (c : Dev nD) :
    W1 (F := Ideal) m ρ c (Proc.devRef .tc main_arg8) = (m ((c.tc : Thread nD τ).loc main_arg8)) := by
  show StableHlo.after hostOps0 (fun b => m (c, b)) (Proc.devRef .tc main_arg8) = _
  after_results
  try rfl

theorem W1_arg9 (c : Dev nD) :
    W1 (F := Ideal) m ρ c (Proc.devRef .tc main_arg9) = (m ((c.tc : Thread nD τ).loc main_arg9)) := by
  show StableHlo.after hostOps0 (fun b => m (c, b)) (Proc.devRef .tc main_arg9) = _
  after_results
  try rfl

theorem W1_arg10 (c : Dev nD) :
    W1 (F := Ideal) m ρ c (Proc.devRef .tc main_arg10) = (m ((c.tc : Thread nD τ).loc main_arg10)) := by
  show StableHlo.after hostOps0 (fun b => m (c, b)) (Proc.devRef .tc main_arg10) = _
  after_results
  try rfl

theorem W2_v24 (c : Dev nD) :
    W2 (F := Ideal) m ρ c (Proc.devRef .tc main_v24) = (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) := by
  refine ((W2_arr m ρ c 5).trans (Cert.KernelIdeal.Region0.final (V1 (F := Ideal) m ρ) c)).trans ?_
  dsimp only [V1]
  rw [W1_v22 m ρ c, W1_arg0 m ρ c, W1_arg2 m ρ c, W1_arg4 m ρ c, W1_v23 m ρ c]

theorem W2_v1 (c : Dev nD) :
    W2 (F := Ideal) m ρ c (Proc.devRef .tc main_v1) = srcR (m ((c.tc : Thread nD τ).loc main_arg1)) := by
  exact (W2_of_ne m ρ c main_v1 (by decide)).trans (W1_v1 m ρ c)

theorem W2_v3 (c : Dev nD) :
    W2 (F := Ideal) m ρ c (Proc.devRef .tc main_v3) = dstR (m ((c.tc : Thread nD τ).loc main_arg1)) := by
  exact (W2_of_ne m ρ c main_v3 (by decide)).trans (W1_v3 m ρ c)

theorem W2_v8 (c : Dev nD) :
    W2 (F := Ideal) m ρ c (Proc.devRef .tc main_v8) = cntC (m ((c.tc : Thread nD τ).loc main_arg1)) := by
  exact (W2_of_ne m ρ c main_v8 (by decide)).trans (W1_v8 m ρ c)

theorem W2_arg5 (c : Dev nD) :
    W2 (F := Ideal) m ρ c (Proc.devRef .tc main_arg5) = (m ((c.tc : Thread nD τ).loc main_arg5)) := by
  exact (W2_of_ne m ρ c main_arg5 (by decide)).trans (W1_arg5 m ρ c)

theorem W2_arg6 (c : Dev nD) :
    W2 (F := Ideal) m ρ c (Proc.devRef .tc main_arg6) = (m ((c.tc : Thread nD τ).loc main_arg6)) := by
  exact (W2_of_ne m ρ c main_arg6 (by decide)).trans (W1_arg6 m ρ c)

theorem W2_arg7 (c : Dev nD) :
    W2 (F := Ideal) m ρ c (Proc.devRef .tc main_arg7) = (m ((c.tc : Thread nD τ).loc main_arg7)) := by
  exact (W2_of_ne m ρ c main_arg7 (by decide)).trans (W1_arg7 m ρ c)

theorem W2_arg8 (c : Dev nD) :
    W2 (F := Ideal) m ρ c (Proc.devRef .tc main_arg8) = (m ((c.tc : Thread nD τ).loc main_arg8)) := by
  exact (W2_of_ne m ρ c main_arg8 (by decide)).trans (W1_arg8 m ρ c)

theorem W2_arg9 (c : Dev nD) :
    W2 (F := Ideal) m ρ c (Proc.devRef .tc main_arg9) = (m ((c.tc : Thread nD τ).loc main_arg9)) := by
  exact (W2_of_ne m ρ c main_arg9 (by decide)).trans (W1_arg9 m ρ c)

theorem W2_arg10 (c : Dev nD) :
    W2 (F := Ideal) m ρ c (Proc.devRef .tc main_arg10) = (m ((c.tc : Thread nD τ).loc main_arg10)) := by
  exact (W2_of_ne m ρ c main_arg10 (by decide)).trans (W1_arg10 m ρ c)

set_option maxHeartbeats 4000000 in
theorem W3_v38 (c : Dev nD) :
    W3 (F := Ideal) m ρ c (Proc.devRef .tc main_v38) = meanK64 (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg1)) := by
  show StableHlo.after hostOps1 (W2 (F := Ideal) m ρ c) (Proc.devRef .tc main_v38) = _
  after_results_simp
  rw [W2_v24 m ρ c, W2_v1 m ρ c, W2_v3 m ρ c, W2_v8 m ρ c]
  try rfl

theorem W3_v39 (c : Dev nD) :
    W3 (F := Ideal) m ρ c (Proc.devRef .tc main_v39) = rowOf128 (m ((c.tc : Thread nD τ).loc main_arg6)) := by
  show StableHlo.after hostOps1 (W2 (F := Ideal) m ρ c) (Proc.devRef .tc main_v39) = _
  after_results
  rw [W2_arg6 m ρ c]
  try rfl

theorem W3_v24 (c : Dev nD) :
    W3 (F := Ideal) m ρ c (Proc.devRef .tc main_v24) = (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) := by
  show StableHlo.after hostOps1 (W2 (F := Ideal) m ρ c) (Proc.devRef .tc main_v24) = _
  after_results
  rw [W2_v24 m ρ c]
  try rfl

theorem W3_v1 (c : Dev nD) :
    W3 (F := Ideal) m ρ c (Proc.devRef .tc main_v1) = srcR (m ((c.tc : Thread nD τ).loc main_arg1)) := by
  show StableHlo.after hostOps1 (W2 (F := Ideal) m ρ c) (Proc.devRef .tc main_v1) = _
  after_results
  rw [W2_v1 m ρ c]
  try rfl

theorem W3_v3 (c : Dev nD) :
    W3 (F := Ideal) m ρ c (Proc.devRef .tc main_v3) = dstR (m ((c.tc : Thread nD τ).loc main_arg1)) := by
  show StableHlo.after hostOps1 (W2 (F := Ideal) m ρ c) (Proc.devRef .tc main_v3) = _
  after_results
  rw [W2_v3 m ρ c]
  try rfl

theorem W3_v8 (c : Dev nD) :
    W3 (F := Ideal) m ρ c (Proc.devRef .tc main_v8) = cntC (m ((c.tc : Thread nD τ).loc main_arg1)) := by
  show StableHlo.after hostOps1 (W2 (F := Ideal) m ρ c) (Proc.devRef .tc main_v8) = _
  after_results
  rw [W2_v8 m ρ c]
  try rfl

theorem W3_arg5 (c : Dev nD) :
    W3 (F := Ideal) m ρ c (Proc.devRef .tc main_arg5) = (m ((c.tc : Thread nD τ).loc main_arg5)) := by
  show StableHlo.after hostOps1 (W2 (F := Ideal) m ρ c) (Proc.devRef .tc main_arg5) = _
  after_results
  rw [W2_arg5 m ρ c]
  try rfl

theorem W3_arg7 (c : Dev nD) :
    W3 (F := Ideal) m ρ c (Proc.devRef .tc main_arg7) = (m ((c.tc : Thread nD τ).loc main_arg7)) := by
  show StableHlo.after hostOps1 (W2 (F := Ideal) m ρ c) (Proc.devRef .tc main_arg7) = _
  after_results
  rw [W2_arg7 m ρ c]
  try rfl

theorem W3_arg8 (c : Dev nD) :
    W3 (F := Ideal) m ρ c (Proc.devRef .tc main_arg8) = (m ((c.tc : Thread nD τ).loc main_arg8)) := by
  show StableHlo.after hostOps1 (W2 (F := Ideal) m ρ c) (Proc.devRef .tc main_arg8) = _
  after_results
  rw [W2_arg8 m ρ c]
  try rfl

theorem W3_arg9 (c : Dev nD) :
    W3 (F := Ideal) m ρ c (Proc.devRef .tc main_arg9) = (m ((c.tc : Thread nD τ).loc main_arg9)) := by
  show StableHlo.after hostOps1 (W2 (F := Ideal) m ρ c) (Proc.devRef .tc main_arg9) = _
  after_results
  rw [W2_arg9 m ρ c]
  try rfl

theorem W3_arg10 (c : Dev nD) :
    W3 (F := Ideal) m ρ c (Proc.devRef .tc main_arg10) = (m ((c.tc : Thread nD τ).loc main_arg10)) := by
  show StableHlo.after hostOps1 (W2 (F := Ideal) m ρ c) (Proc.devRef .tc main_arg10) = _
  after_results
  rw [W2_arg10 m ρ c]
  try rfl

theorem W4_v40 (c : Dev nD) :
    W4 (F := Ideal) m ρ c (Proc.devRef .tc main_v40) = (Cert.Sage.relu128 (Cert.Sage.comb64_128 (meanK64 (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg1))) (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg5)) (m ((c.tc : Thread nD τ).loc main_arg7)) (rowOf128 (m ((c.tc : Thread nD τ).loc main_arg6))))) := by
  refine ((W4_arr m ρ c 5).trans (Cert.KernelIdeal.Region1.final (V3 (F := Ideal) m ρ) c)).trans ?_
  dsimp only [V3]
  rw [W3_v38 m ρ c, W3_v24 m ρ c, W3_arg5 m ρ c, W3_arg7 m ρ c, W3_v39 m ρ c]

theorem W4_v1 (c : Dev nD) :
    W4 (F := Ideal) m ρ c (Proc.devRef .tc main_v1) = srcR (m ((c.tc : Thread nD τ).loc main_arg1)) := by
  exact (W4_of_ne m ρ c main_v1 (by decide)).trans (W3_v1 m ρ c)

theorem W4_v3 (c : Dev nD) :
    W4 (F := Ideal) m ρ c (Proc.devRef .tc main_v3) = dstR (m ((c.tc : Thread nD τ).loc main_arg1)) := by
  exact (W4_of_ne m ρ c main_v3 (by decide)).trans (W3_v3 m ρ c)

theorem W4_v8 (c : Dev nD) :
    W4 (F := Ideal) m ρ c (Proc.devRef .tc main_v8) = cntC (m ((c.tc : Thread nD τ).loc main_arg1)) := by
  exact (W4_of_ne m ρ c main_v8 (by decide)).trans (W3_v8 m ρ c)

theorem W4_arg8 (c : Dev nD) :
    W4 (F := Ideal) m ρ c (Proc.devRef .tc main_arg8) = (m ((c.tc : Thread nD τ).loc main_arg8)) := by
  exact (W4_of_ne m ρ c main_arg8 (by decide)).trans (W3_arg8 m ρ c)

theorem W4_arg9 (c : Dev nD) :
    W4 (F := Ideal) m ρ c (Proc.devRef .tc main_arg9) = (m ((c.tc : Thread nD τ).loc main_arg9)) := by
  exact (W4_of_ne m ρ c main_arg9 (by decide)).trans (W3_arg9 m ρ c)

theorem W4_arg10 (c : Dev nD) :
    W4 (F := Ideal) m ρ c (Proc.devRef .tc main_arg10) = (m ((c.tc : Thread nD τ).loc main_arg10)) := by
  exact (W4_of_ne m ρ c main_arg10 (by decide)).trans (W3_arg10 m ρ c)

theorem W5_v41 (c : Dev nD) :
    W5 (F := Ideal) m ρ c (Proc.devRef .tc main_v41) = (Cert.Sage.mm128_64 (Cert.Sage.relu128 (Cert.Sage.comb64_128 (meanK64 (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg1))) (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg5)) (m ((c.tc : Thread nD τ).loc main_arg7)) (rowOf128 (m ((c.tc : Thread nD τ).loc main_arg6))))) (m ((c.tc : Thread nD τ).loc main_arg8))) := by
  refine ((W5_arr m ρ c 2).trans (Cert.KernelIdeal.Region2.final (V4 (F := Ideal) m ρ) c)).trans ?_
  dsimp only [V4]
  rw [W4_v40 m ρ c, W4_arg8 m ρ c]

theorem W5_v40 (c : Dev nD) :
    W5 (F := Ideal) m ρ c (Proc.devRef .tc main_v40) = (Cert.Sage.relu128 (Cert.Sage.comb64_128 (meanK64 (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg1))) (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg5)) (m ((c.tc : Thread nD τ).loc main_arg7)) (rowOf128 (m ((c.tc : Thread nD τ).loc main_arg6))))) := by
  exact ((W5_arr m ρ c 0).trans (((dat2 (V4 (F := Ideal) m ρ) c).arrAt_in 0 rfl _).trans (A_eq2 (V4 m ρ) c 0))).trans (W4_v40 m ρ c)

theorem W5_v1 (c : Dev nD) :
    W5 (F := Ideal) m ρ c (Proc.devRef .tc main_v1) = srcR (m ((c.tc : Thread nD τ).loc main_arg1)) := by
  exact (W5_of_ne m ρ c main_v1 (by decide)).trans (W4_v1 m ρ c)

theorem W5_v3 (c : Dev nD) :
    W5 (F := Ideal) m ρ c (Proc.devRef .tc main_v3) = dstR (m ((c.tc : Thread nD τ).loc main_arg1)) := by
  exact (W5_of_ne m ρ c main_v3 (by decide)).trans (W4_v3 m ρ c)

theorem W5_v8 (c : Dev nD) :
    W5 (F := Ideal) m ρ c (Proc.devRef .tc main_v8) = cntC (m ((c.tc : Thread nD τ).loc main_arg1)) := by
  exact (W5_of_ne m ρ c main_v8 (by decide)).trans (W4_v8 m ρ c)

theorem W5_arg9 (c : Dev nD) :
    W5 (F := Ideal) m ρ c (Proc.devRef .tc main_arg9) = (m ((c.tc : Thread nD τ).loc main_arg9)) := by
  exact (W5_of_ne m ρ c main_arg9 (by decide)).trans (W4_arg9 m ρ c)

theorem W5_arg10 (c : Dev nD) :
    W5 (F := Ideal) m ρ c (Proc.devRef .tc main_arg10) = (m ((c.tc : Thread nD τ).loc main_arg10)) := by
  exact (W5_of_ne m ρ c main_arg10 (by decide)).trans (W4_arg10 m ρ c)

set_option maxHeartbeats 4000000 in
theorem W6_v55 (c : Dev nD) :
    W6 (F := Ideal) m ρ c (Proc.devRef .tc main_v55) = meanK64 (Cert.Sage.mm128_64 (Cert.Sage.relu128 (Cert.Sage.comb64_128 (meanK64 (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg1))) (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg5)) (m ((c.tc : Thread nD τ).loc main_arg7)) (rowOf128 (m ((c.tc : Thread nD τ).loc main_arg6))))) (m ((c.tc : Thread nD τ).loc main_arg8))) (m ((c.tc : Thread nD τ).loc main_arg1)) := by
  show StableHlo.after hostOps3 (W5 (F := Ideal) m ρ c) (Proc.devRef .tc main_v55) = _
  after_results_simp
  rw [W5_v41 m ρ c, W5_v1 m ρ c, W5_v3 m ρ c, W5_v8 m ρ c]
  try rfl

theorem W6_v40 (c : Dev nD) :
    W6 (F := Ideal) m ρ c (Proc.devRef .tc main_v40) = (Cert.Sage.relu128 (Cert.Sage.comb64_128 (meanK64 (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg1))) (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg5)) (m ((c.tc : Thread nD τ).loc main_arg7)) (rowOf128 (m ((c.tc : Thread nD τ).loc main_arg6))))) := by
  show StableHlo.after hostOps3 (W5 (F := Ideal) m ρ c) (Proc.devRef .tc main_v40) = _
  after_results
  rw [W5_v40 m ρ c]
  try rfl

theorem W6_arg10 (c : Dev nD) :
    W6 (F := Ideal) m ρ c (Proc.devRef .tc main_arg10) = (m ((c.tc : Thread nD τ).loc main_arg10)) := by
  show StableHlo.after hostOps3 (W5 (F := Ideal) m ρ c) (Proc.devRef .tc main_arg10) = _
  after_results
  rw [W5_arg10 m ρ c]
  try rfl

theorem W6_v57 (c : Dev nD) :
    W6 (F := Ideal) m ρ c (Proc.devRef .tc main_v57) = rowOf64 (m ((c.tc : Thread nD τ).loc main_arg9)) := by
  show StableHlo.after hostOps3 (W5 (F := Ideal) m ρ c) (Proc.devRef .tc main_v57) = _
  after_results
  rw [W5_arg9 m ρ c]
  try rfl

theorem W7_v58 (c : Dev nD) :
    W7 (F := Ideal) m ρ c (Proc.devRef .tc main_v58) = (Cert.Sage.combPre64 (meanK64 (Cert.Sage.mm128_64 (Cert.Sage.relu128 (Cert.Sage.comb64_128 (meanK64 (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg1))) (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg5)) (m ((c.tc : Thread nD τ).loc main_arg7)) (rowOf128 (m ((c.tc : Thread nD τ).loc main_arg6))))) (m ((c.tc : Thread nD τ).loc main_arg8))) (m ((c.tc : Thread nD τ).loc main_arg1))) (Cert.Sage.relu128 (Cert.Sage.comb64_128 (meanK64 (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg1))) (Cert.Sage.relu64 (Cert.Sage.comb32_64 (meanK32 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg4)) (rowOf64 (m ((c.tc : Thread nD τ).loc main_arg3))))) (m ((c.tc : Thread nD τ).loc main_arg5)) (m ((c.tc : Thread nD τ).loc main_arg7)) (rowOf128 (m ((c.tc : Thread nD τ).loc main_arg6))))) (m ((c.tc : Thread nD τ).loc main_arg10)) (rowOf64 (m ((c.tc : Thread nD τ).loc main_arg9)))) := by
  refine ((W7_arr m ρ c 5).trans (Cert.KernelIdeal.Region3.final (V6 (F := Ideal) m ρ) c)).trans ?_
  dsimp only [V6]
  rw [W6_v55 m ρ c, W6_v40 m ρ c, W6_arg10 m ρ c, W6_v57 m ρ c]

/-! ## The same chain in the reference's spelling -/

theorem dstC_eq (ei : IVec S2x640000 32) : dstC ei = Cert.Sage.dstIx ei := rfl
theorem srcC_eq (ei : IVec S2x640000 32) : srcC ei = Cert.Sage.srcIx ei := rfl

/-- A vector reshaped to one row is the vector broadcast along a new leading axis: entry `(0, q)` of either is entry `q`. -/
theorem rowOf64_eq (b : FVec Ideal S64 .f32) : rowOf64 b = Cert.Sage.asRow64 (F := Ideal) b := by
  funext i
  obtain ⟨u, q, rfl⟩ : ∃ (u : Fin 1) (q : Fin 64), i = ix2 u q := ⟨i 0, i 1, eq_ix2 i⟩
  unfold rowOf64 Cert.Sage.asRow64
  rw [shapeCast_a_1a_apply]
  exact (broadcastInDim_apply (s := Cert.ReferenceIdeal.S64) (t := Cert.ReferenceIdeal.S1x64) ![1] _ b (ix2 u q) (ix1 q)
    (fun a => by match a with | ⟨0, _⟩ => rfl)).symm
theorem rowOf128_eq (b : FVec Ideal S128 .f32) : rowOf128 b = Cert.Sage.asRow128 (F := Ideal) b := by
  funext i
  obtain ⟨u, q, rfl⟩ : ∃ (u : Fin 1) (q : Fin 128), i = ix2 u q := ⟨i 0, i 1, eq_ix2 i⟩
  unfold rowOf128 Cert.Sage.asRow128
  rw [shapeCast_a_1a_apply]
  exact (broadcastInDim_apply (s := Cert.ReferenceIdeal.S128) (t := Cert.ReferenceIdeal.S1x128) ![1] _ b (ix2 u q) (ix1 q)
    (fun a => by match a with | ⟨0, _⟩ => rfl)).symm

/-- The in-degree column at node `n` is the in-degree vector at `n`. -/
theorem cntC_apply (ei : IVec S2x640000 32) (n : Fin 50000) (u : Fin 1) :
    cntC ei (ix2 n u) = Cert.Sage.cnt (F := Ideal) ei (ix1 n) := by
  unfold cntC
  rw [broadcastInDim_apply (s := S50000) (t := S50000x1) ![0] _ _ (ix2 n u) (ix1 n) (fun a => by match a with | ⟨0, _⟩ => rfl), dstC_eq]
  rfl

/-- The maximum with a splat constant, on a column, at `(n, u)`. -/
theorem max_splat_col (cc : FVec Ideal S50000x1 .f32) (w : BitVec 32) (n : Fin 50000) (u : Fin 1) :
    maximumf cc (broadcastInDim S50000x1 ![] bcast_S_S50000x1 (constant (F := Ideal) S_ .f32 w)) (ix2 n u)
      = max (cc (ix2 n u)) (Ideal.ofBits .f32 w) := by
  rw [maximumf_apply, broadcastInDim_apply (s := S_) (t := S50000x1) ![] _ _ (ix2 n u) ix0 (fun a => a.elim0)]
  rfl

/-- The maximum with a splat constant, on a vector then made a column, at `(n, u)`. -/
theorem col_max_splat (v : FVec Ideal Cert.ReferenceIdeal.S50000 .f32) (w : BitVec 32) (n : Fin 50000) (u : Fin 1) :
    broadcastInDim Cert.ReferenceIdeal.S50000x1 ![0] Cert.ReferenceIdeal.Facts₀.bcast_S50000_S50000x1_0
        (maximumf v (broadcastInDim Cert.ReferenceIdeal.S50000 ![] Cert.ReferenceIdeal.Facts₀.bcast_S_S50000
          (constant (F := Ideal) Cert.ReferenceIdeal.S_ .f32 w))) (ix2 n u)
      = max (v (ix1 n)) (Ideal.ofBits .f32 w) := by
  rw [broadcastInDim_apply (s := Cert.ReferenceIdeal.S50000) (t := Cert.ReferenceIdeal.S50000x1) ![0] _ _ (ix2 n u) (ix1 n)
      (fun a => by match a with | ⟨0, _⟩ => rfl),
    maximumf_apply, broadcastInDim_apply (s := Cert.ReferenceIdeal.S_) (t := Cert.ReferenceIdeal.S50000) ![] _ _ (ix1 n) ix0 (fun a => a.elim0)]
  rfl

/-- The divisor: the maximum with one taken on the column (here), or on the vector before it is made a column (the
    reference) — the same number at every node. -/
theorem divC_eq (ei : IVec S2x640000 32) : divC ei = Cert.Sage.cntCol (F := Ideal) ei := by
  funext i
  obtain ⟨n, u, rfl⟩ : ∃ (n : Fin 50000) (u : Fin 1), i = ix2 n u := ⟨i 0, i 1, eq_ix2 i⟩
  unfold divC Cert.Sage.cntCol Cert.Sage.cntMax
  rw [max_splat_col, col_max_splat, cntC_apply]

theorem meanK32_eq (h : FVec Ideal S50000x32 .f32) (ei : IVec S2x640000 32) : meanK32 h ei = Cert.Sage.mean32 (F := Ideal) h ei := by
  unfold meanK32 Cert.Sage.mean32 Cert.Sage.agg32
  rw [divC_eq, dstC_eq, srcC_eq]
  rfl
theorem meanK64_eq (h : FVec Ideal S50000x64 .f32) (ei : IVec S2x640000 32) : meanK64 h ei = Cert.Sage.mean64 (F := Ideal) h ei := by
  unfold meanK64 Cert.Sage.mean64 Cert.Sage.agg64
  rw [divC_eq, dstC_eq, srcC_eq]
  rfl

/-- The result buffer at the last boundary is the kernel's network of the launch contents of the eleven arguments:
    each call's output array is its layer of the arrays it was entered with, and each host stretch applies the shared
    gather / scatter / divide chain to them. -/
theorem result_eq (c : Dev nD) :
    W7 (F := Ideal) m ρ c (Proc.devRef .tc main_v58) =
      Cert.Sage.netK (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [W7_v58 m ρ c]
  simp only [meanK32_eq, meanK64_eq, rowOf64_eq, rowOf128_eq]
  unfold Cert.Sage.netK Cert.Sage.outK Cert.Sage.h2 Cert.Sage.h1
  rfl

end Cert.KernelIdeal.ValueRun

end
-- ==== Proof.RefValue.lean ====
/-
  The reference's result is the network of `Spec.lean`: its run ends with the result buffer at the composed
  term of the host operations, and that term is `net` of the argument arrays, layer for layer.
-/
import proofs.«406188_j42279658062119_3_alg».proof.Proof.Spec
import Idealize.ShloMosaic.PureOps.Ideal
import proofs.«406188_j42279658062119_3_alg».proof.Proof.Gen.ReferenceIdeal.Run

noncomputable section

namespace Cert.Sage

open Idealize.ShloMosaic Idealize.ShloMosaic.TcCoe Idealize.SL.Sem Cert.ReferenceIdeal Cert.ReferenceIdeal.Facts₀

/-- The reference run's result term is `net` of the launch contents of the eleven arguments: every layer of
    `net` unfolds to the very operations the program lists. -/
theorem ref_result (m : (ℓ : Loc nD τ sig) → Buf (Elt Ideal) ℓ) (c : Dev nD) :
    Cert.ReferenceIdeal.Value.res_main_v80 (F := Ideal) m c =
      net (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) := by
  unfold Cert.ReferenceIdeal.Value.res_main_v80 net outR h2 h1 comb128_64 comb64_128 comb32_64 relu128 relu64 mean128 mean64 mean32
    agg128 agg64 agg32 cntCol cntMax cnt mm128_64 mm64_128 mm32_64 rowBias64 rowBias128 asRow64 asRow128 srcIx dstIx srcRow dstRow
  rfl

end Cert.Sage

end
-- ==== Proof.LibRows.lean ====
import Idealize.ShloMosaic.PureOps.Ideal
import Idealize.ShloMosaic.Lib.ValueIdx
import Mathlib.Algebra.BigOperators.Group.Finset.Basic

noncomputable section

namespace Cert.LibRows

open Idealize.ShloMosaic Idealize.ShloMosaic.ValueIdx
open scoped BigOperators

/-- The dimension numbers of a ROW gather `x[idx]` of a matrix `x : [N, C]` at a column of start indices `idx : [E, 1]`:
    result row `e` is the whole operand row the `e`-th start index names. -/
abbrev rowGatherDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a ROW scatter into a matrix `[N, C]` of update rows `[E, C]` at a column of indices `[E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row a start index names: read signed, clamped into `[0, N − 1]`. -/
def clampRow (N : Nat) (hN : 0 < N) {w : Nat} (b : BitVec w) : Fin N := ⟨min b.toInt.toNat (N - 1), by omega⟩

/-- The update rows that land on operand row `n`: those whose index, read signed and NOT clamped, is `n`. -/
def landing {E w : Nat} (idx : IVec ⟨2, ![E, 1]⟩ w) (n : Nat) : Finset (Fin E) :=
  Finset.univ.filter fun e => (idx (ix2 e 0)).toInt = (n : Int)

/-- THE ROW GATHER READ AT `(e, k)`: the operand at the clamped row of the `e`-th start index, same column. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (clampRow N hN (idx (ix2 e 0))) k) := by
  unfold Host.gather
  congr 1
  funext a
  refine Fin.ext ?_
  match a with
  | ⟨0, _⟩ =>
    -- axis 0: the clamped start index, no batching coordinate, no offset coordinate (the axis is collapsed)
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- axis 1: start 0 (the start index map does not name it), no batching coordinate, the offset coordinate is the column
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hst : (rowGatherDims N E C wf).start (ix2 e k) idx 1 = 0 := by
      unfold GatherDims.start
      rw [dif_neg (show (1 : Fin 2) ∉ ([0] : List (Fin 2)) by decide)]
    have hoff : (rowGatherDims N E C wf).offCoord (ix2 e k) 1 = k.val := by
      unfold GatherDims.offCoord
      rw [dif_pos ((GatherDims.mem_sKept _ _).mpr ⟨show (1 : Fin 2) ∉ ([0] : List (Fin 2)) by decide, List.not_mem_nil⟩)]
      rfl
    rw [hst, hoff]; omega

/-- On axis 0 the window of update row `e` starts at the `e`-th index, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 the window starts at column 0: the index map does not name that axis. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ ([0] : List (Fin 2)) by decide)]

/-- Axis 0 is an inserted window axis: its window coordinate is 0. -/
theorem rowScatter_window0 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 0 = 0 := by
  have hkept : (rowScatterDims N E C wf).sKept = [1] := rfl
  have hmem : (0 : Fin 2) ∉ (rowScatterDims N E C wf).sKept := by
    rw [hkept]; exact (show (0 : Fin 2) ∉ ([1] : List (Fin 2)) by decide)
  unfold ScatterDims.window
  rw [dif_neg hmem]

/-- On axis 1 the window coordinate is the update's column. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 1 = c.val := by
  have hkept : (rowScatterDims N E C wf).sKept = [1] := rfl
  have hmem : (1 : Fin 2) ∈ (rowScatterDims N E C wf).sKept := by
    rw [hkept]; exact List.mem_singleton.mpr rfl
  unfold ScatterDims.window
  rw [dif_pos hmem]
  rfl

/-- WHERE AN UPDATE ELEMENT LANDS: update element `(e, c)` lands on operand element `(n, k)` exactly when the `e`-th
    index, read signed and not clamped, is `n` and the columns agree. -/
theorem rowScatter_resultIdx?_eq_some {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (k : Fin C) :
    (rowScatterDims N E C wf).resultIdx? (ix2 e c) idx = some (ix2 n k)
      ↔ (idx (ix2 e 0)).toInt = (n.val : Int) ∧ c = k := by
  have hs0 := rowScatter_start0 wf idx e c
  have hs1 := rowScatter_start1 wf idx e c
  have hw0 := rowScatter_window0 wf e c
  have hw1 := rowScatter_window1 wf e c
  have hn := n.isLt
  have hc := c.isLt
  have hk := k.isLt
  unfold ScatterDims.resultIdx?
  split
  · rename_i h
    have h0 := h 0
    have h1 := h 1
    constructor
    · intro heq
      have heq' := Option.some.inj heq
      have e0 : ((rowScatterDims N E C wf).start (ix2 e c) idx 0 + ((rowScatterDims N E C wf).window (ix2 e c) 0 : Int)).toNat = n.val :=
        congrArg (fun f => (f 0).val) heq'
      have e1 : ((rowScatterDims N E C wf).start (ix2 e c) idx 1 + ((rowScatterDims N E C wf).window (ix2 e c) 1 : Int)).toNat = k.val :=
        congrArg (fun f => (f 1).val) heq'
      rw [hs0, hw0] at e0 h0
      rw [hs1, hw1] at e1 h1
      exact ⟨by omega, Fin.ext (by omega)⟩
    · rintro ⟨hi, rfl⟩
      congr 1
      funext a
      refine Fin.ext ?_
      match a with
      | ⟨0, _⟩ =>
        show ((rowScatterDims N E C wf).start (ix2 e c) idx 0 + ((rowScatterDims N E C wf).window (ix2 e c) 0 : Int)).toNat = n.val
        rw [hs0, hw0]; omega
      | ⟨1, _⟩ =>
        show ((rowScatterDims N E C wf).start (ix2 e c) idx 1 + ((rowScatterDims N E C wf).window (ix2 e c) 1 : Int)).toNat = c.val
        rw [hs1, hw1]; omega
  · rename_i h
    constructor
    · intro heq; exact absurd heq (by simp)
    · rintro ⟨hi, rfl⟩
      exfalso; apply h
      intro a
      match a with
      | ⟨0, _⟩ =>
        show 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int) < (N : Int)
        rw [hs0, hw0]; omega
      | ⟨1, _⟩ =>
        show 0 ≤ (rowScatterDims N E C wf).start (ix2 e c) idx 1 + ((rowScatterDims N E C wf).window (ix2 e c) 1 : Int)
          ∧ (rowScatterDims N E C wf).start (ix2 e c) idx 1 + ((rowScatterDims N E C wf).window (ix2 e c) 1 : Int) < (C : Int)
        rw [hs1, hw1]; omega

/-- THE ACCUMULATING ROW SCATTER READ AT `(n, k)`, at the ideal instance: the operand's element plus the sum, over the
    update rows landing on row `n`, of their column-`k` elements. Which rows land does not depend on the width `C`. -/
theorem scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (n : Fin N) (k : Fin C) :
    Host.scatterAdd (F := Ideal) (rowScatterDims N E C wf) x idx upd (ix2 n k)
      = x (ix2 n k) + ∑ e ∈ landing idx n.val, upd (ix2 e k) := by
  show x (ix2 n k) + ∑ j ∈ Finset.univ.filter
      (fun j => (rowScatterDims N E C wf).resultIdx? j idx = some (ix2 n k)), upd j = _
  congr 1
  rw [Finset.sum_filter, sum_idx2, landing, Finset.sum_filter]
  refine Finset.sum_congr rfl fun e _ => ?_
  simp only [rowScatter_resultIdx?_eq_some]
  by_cases hq : (idx (ix2 e 0)).toInt = (n.val : Int)
  · simp only [hq, true_and, if_true]
    rw [Finset.sum_ite_eq' Finset.univ k fun c => upd (ix2 e c)]
    simp
  · simp only [hq, false_and, if_false]
    exact Finset.sum_const_zero

end Cert.LibRows

end
-- ==== Proof.LibFinite.lean ====
/-
  Real-valuedness calculus at the exact-arithmetic instance.

  An array of extended reals is *real-valued* when no element is an infinity; it is *positive* /
  *non-negative* when moreover every element is a positive / non-negative real. This module shows
  that the host program's operations keep arrays inside these classes: sums, differences and products
  of reals are real, a quotient by a positive real is real, an exponential is positive, a square root
  of a non-negative real is non-negative, a real power of a positive base is positive, a maximum of
  reals is real, and every re-indexing operation (broadcast, reshape, slice, concatenate, gather)
  only moves elements around. A finite sum of reals is real, which covers the additive reduction,
  the additive scatter and the matrix product.
-/
import Idealize.ShloMosaic.Lib.IdealHost
import Mathlib.Data.EReal.Basic
import Mathlib.Data.EReal.Operations
import Mathlib.Data.EReal.Inv
import Mathlib.Analysis.SpecialFunctions.Pow.Real
import Mathlib.Analysis.SpecialFunctions.Exp
import Mathlib.Analysis.SpecialFunctions.Sqrt
import Mathlib.Algebra.BigOperators.Group.Finset.Basic

namespace Cert.LibFinite

open Idealize.ShloMosaic
open scoped BigOperators

/-! ## The three classes -/

/-- Every element is a real number. -/
def AllReal {s : Shape} (v : FVec Ideal s .f32) : Prop := ∀ i, ∃ r : ℝ, v i = (r : EReal)
/-- Every element is a positive real number. -/
def AllPos {s : Shape} (v : FVec Ideal s .f32) : Prop := ∀ i, ∃ r : ℝ, 0 < r ∧ v i = (r : EReal)
/-- Every element is a non-negative real number. -/
def AllNonneg {s : Shape} (v : FVec Ideal s .f32) : Prop := ∀ i, ∃ r : ℝ, 0 ≤ r ∧ v i = (r : EReal)

theorem AllPos.allReal {s : Shape} {v : FVec Ideal s .f32} (h : AllPos v) : AllReal v :=
  fun i => let ⟨r, _, e⟩ := h i; ⟨r, e⟩
theorem AllPos.allNonneg {s : Shape} {v : FVec Ideal s .f32} (h : AllPos v) : AllNonneg v :=
  fun i => let ⟨r, hr, e⟩ := h i; ⟨r, hr.le, e⟩
theorem AllNonneg.allReal {s : Shape} {v : FVec Ideal s .f32} (h : AllNonneg v) : AllReal v :=
  fun i => let ⟨r, _, e⟩ := h i; ⟨r, e⟩

/-- A real-valued array is the coercion of an array of reals. -/
theorem AllReal.exists_eq_coe {s : Shape} {v : FVec Ideal s .f32} (h : AllReal v) :
    ∃ r : s.Idx → ℝ, v = fun i => (r i : EReal) := by
  choose r hr using h
  exact ⟨r, funext hr⟩

theorem allReal_coe {s : Shape} (r : s.Idx → ℝ) : AllReal (s := s) (fun i => (r i : EReal)) := fun i => ⟨r i, rfl⟩

/-- A class depends on the array only through its elements. -/
theorem AllReal.of_forall_mem {s t : Shape} {v : FVec Ideal s .f32} {w : FVec Ideal t .f32} (h : AllReal v)
    (hw : ∀ j, ∃ i, w j = v i) : AllReal w := fun j => by
  obtain ⟨i, e⟩ := hw j; rw [e]; exact h i
theorem AllPos.of_forall_mem {s t : Shape} {v : FVec Ideal s .f32} {w : FVec Ideal t .f32} (h : AllPos v)
    (hw : ∀ j, ∃ i, w j = v i) : AllPos w := fun j => by
  obtain ⟨i, e⟩ := hw j; rw [e]; exact h i
theorem AllNonneg.of_forall_mem {s t : Shape} {v : FVec Ideal s .f32} {w : FVec Ideal t .f32} (h : AllNonneg v)
    (hw : ∀ j, ∃ i, w j = v i) : AllNonneg w := fun j => by
  obtain ⟨i, e⟩ := hw j; rw [e]; exact h i

/-! ## Elementwise arithmetic -/

section Pointwise
variable {s : Shape}

theorem allReal_addf {a b : FVec Ideal s .f32} (ha : AllReal a) (hb : AllReal b) :
    AllReal (Idealize.ShloMosaic.addf a b) := fun i => by
  obtain ⟨x, hx⟩ := ha i; obtain ⟨y, hy⟩ := hb i
  exact ⟨x + y, by show a i + b i = _; rw [hx, hy, EReal.coe_add]⟩

theorem allNonneg_addf {a b : FVec Ideal s .f32} (ha : AllNonneg a) (hb : AllNonneg b) :
    AllNonneg (Idealize.ShloMosaic.addf a b) := fun i => by
  obtain ⟨x, hx0, hx⟩ := ha i; obtain ⟨y, hy0, hy⟩ := hb i
  exact ⟨x + y, add_nonneg hx0 hy0, by show a i + b i = _; rw [hx, hy, EReal.coe_add]⟩

theorem allPos_addf_nonneg_pos {a b : FVec Ideal s .f32} (ha : AllNonneg a) (hb : AllPos b) :
    AllPos (Idealize.ShloMosaic.addf a b) := fun i => by
  obtain ⟨x, hx0, hx⟩ := ha i; obtain ⟨y, hy0, hy⟩ := hb i
  exact ⟨x + y, add_pos_of_nonneg_of_pos hx0 hy0, by show a i + b i = _; rw [hx, hy, EReal.coe_add]⟩

theorem allPos_addf_pos_nonneg {a b : FVec Ideal s .f32} (ha : AllPos a) (hb : AllNonneg b) :
    AllPos (Idealize.ShloMosaic.addf a b) := fun i => by
  obtain ⟨x, hx0, hx⟩ := ha i; obtain ⟨y, hy0, hy⟩ := hb i
  exact ⟨x + y, add_pos_of_pos_of_nonneg hx0 hy0, by show a i + b i = _; rw [hx, hy, EReal.coe_add]⟩

theorem allPos_addf {a b : FVec Ideal s .f32} (ha : AllPos a) (hb : AllPos b) :
    AllPos (Idealize.ShloMosaic.addf a b) := allPos_addf_pos_nonneg ha hb.allNonneg

theorem allReal_subf {a b : FVec Ideal s .f32} (ha : AllReal a) (hb : AllReal b) :
    AllReal (Idealize.ShloMosaic.subf a b) := fun i => by
  obtain ⟨x, hx⟩ := ha i; obtain ⟨y, hy⟩ := hb i
  exact ⟨x - y, by show a i - b i = _; rw [hx, hy, EReal.coe_sub]⟩

theorem allReal_mulf {a b : FVec Ideal s .f32} (ha : AllReal a) (hb : AllReal b) :
    AllReal (Idealize.ShloMosaic.mulf a b) := fun i => by
  obtain ⟨x, hx⟩ := ha i; obtain ⟨y, hy⟩ := hb i
  exact ⟨x * y, by show a i * b i = _; rw [hx, hy, EReal.coe_mul]⟩

theorem allNonneg_mulf {a b : FVec Ideal s .f32} (ha : AllNonneg a) (hb : AllNonneg b) :
    AllNonneg (Idealize.ShloMosaic.mulf a b) := fun i => by
  obtain ⟨x, hx0, hx⟩ := ha i; obtain ⟨y, hy0, hy⟩ := hb i
  exact ⟨x * y, mul_nonneg hx0 hy0, by show a i * b i = _; rw [hx, hy, EReal.coe_mul]⟩

theorem allPos_mulf {a b : FVec Ideal s .f32} (ha : AllPos a) (hb : AllPos b) :
    AllPos (Idealize.ShloMosaic.mulf a b) := fun i => by
  obtain ⟨x, hx0, hx⟩ := ha i; obtain ⟨y, hy0, hy⟩ := hb i
  exact ⟨x * y, mul_pos hx0 hy0, by show a i * b i = _; rw [hx, hy, EReal.coe_mul]⟩

/-- A square of a real-valued array is non-negative. -/
theorem allNonneg_mulf_self {a : FVec Ideal s .f32} (ha : AllReal a) :
    AllNonneg (Idealize.ShloMosaic.mulf a a) := fun i => by
  obtain ⟨x, hx⟩ := ha i
  exact ⟨x * x, mul_self_nonneg x, by show a i * a i = _; rw [hx, EReal.coe_mul]⟩

theorem allReal_negf {a : FVec Ideal s .f32} (ha : AllReal a) : AllReal (Host.negf a) := fun i => by
  obtain ⟨x, hx⟩ := ha i
  exact ⟨-x, by show -(a i) = _; rw [hx, EReal.coe_neg]⟩

/-! ### Quotient by a positive divisor -/

theorem div_coe_pos (x : EReal) {y : ℝ} (hy : 0 < y) : Ideal.div x (y : EReal) = x * ((1 / y : ℝ) : EReal) :=
  Ideal.div_coe hy.ne' x

theorem allReal_divf {a b : FVec Ideal s .f32} (ha : AllReal a) (hb : AllPos b) : AllReal (Host.divf a b) := fun i => by
  obtain ⟨x, hx⟩ := ha i; obtain ⟨y, hy0, hy⟩ := hb i
  exact ⟨x * (1 / y), by show Ideal.div (a i) (b i) = _; rw [hx, hy, div_coe_pos _ hy0, EReal.coe_mul]⟩

theorem allNonneg_divf {a b : FVec Ideal s .f32} (ha : AllNonneg a) (hb : AllPos b) : AllNonneg (Host.divf a b) := fun i => by
  obtain ⟨x, hx0, hx⟩ := ha i; obtain ⟨y, hy0, hy⟩ := hb i
  exact ⟨x * (1 / y), mul_nonneg hx0 (one_div_pos.2 hy0).le,
    by show Ideal.div (a i) (b i) = _; rw [hx, hy, div_coe_pos _ hy0, EReal.coe_mul]⟩

theorem allPos_divf {a b : FVec Ideal s .f32} (ha : AllPos a) (hb : AllPos b) : AllPos (Host.divf a b) := fun i => by
  obtain ⟨x, hx0, hx⟩ := ha i; obtain ⟨y, hy0, hy⟩ := hb i
  exact ⟨x * (1 / y), mul_pos hx0 (one_div_pos.2 hy0),
    by show Ideal.div (a i) (b i) = _; rw [hx, hy, div_coe_pos _ hy0, EReal.coe_mul]⟩

/-! ### Exponential, square root, power -/

theorem allPos_exp {a : FVec Ideal s .f32} (ha : AllReal a) : AllPos (Host.exp a) := fun i => by
  obtain ⟨x, hx⟩ := ha i
  exact ⟨Real.exp x, Real.exp_pos x, by show Ideal.exp (a i) = _; rw [hx, Ideal.exp_coe]⟩

theorem sqrt_coe_nonneg {x : ℝ} (hx : 0 ≤ x) : Ideal.sqrt (x : EReal) = (Real.sqrt x : EReal) := by
  rw [Ideal.sqrt_coe, if_neg (not_lt.2 hx)]

theorem allNonneg_sqrt {a : FVec Ideal s .f32} (ha : AllNonneg a) : AllNonneg (Host.sqrt a) := fun i => by
  obtain ⟨x, hx0, hx⟩ := ha i
  exact ⟨Real.sqrt x, Real.sqrt_nonneg x, by show Ideal.sqrt (a i) = _; rw [hx, sqrt_coe_nonneg hx0]⟩

theorem allPos_sqrt {a : FVec Ideal s .f32} (ha : AllPos a) : AllPos (Host.sqrt a) := fun i => by
  obtain ⟨x, hx0, hx⟩ := ha i
  exact ⟨Real.sqrt x, Real.sqrt_pos.2 hx0, by show Ideal.sqrt (a i) = _; rw [hx, sqrt_coe_nonneg hx0.le]⟩

/-- A real power of a positive base is positive. -/
theorem allPos_powf {a b : FVec Ideal s .f32} (ha : AllPos a) (hb : AllReal b) : AllPos (Host.powf a b) := fun i => by
  obtain ⟨x, hx0, hx⟩ := ha i; obtain ⟨y, hy⟩ := hb i
  exact ⟨Real.rpow x y, Real.rpow_pos_of_pos hx0 y, by show Ideal.pow (a i) (b i) = _; rw [hx, hy, Ideal.pow_coe_coe]⟩

/-- A real power of a real base is real (the real power function is total). -/
theorem allReal_powf {a b : FVec Ideal s .f32} (ha : AllReal a) (hb : AllReal b) : AllReal (Host.powf a b) := fun i => by
  obtain ⟨x, hx⟩ := ha i; obtain ⟨y, hy⟩ := hb i
  exact ⟨Real.rpow x y, by show Ideal.pow (a i) (b i) = _; rw [hx, hy, Ideal.pow_coe_coe]⟩

theorem allNonneg_powf {a b : FVec Ideal s .f32} (ha : AllNonneg a) (hb : AllReal b) : AllNonneg (Host.powf a b) := fun i => by
  obtain ⟨x, hx0, hx⟩ := ha i; obtain ⟨y, hy⟩ := hb i
  exact ⟨Real.rpow x y, Real.rpow_nonneg hx0 y, by show Ideal.pow (a i) (b i) = _; rw [hx, hy, Ideal.pow_coe_coe]⟩

/-! ### Maximum -/

theorem coe_max_real (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem allReal_maximumf {a b : FVec Ideal s .f32} (ha : AllReal a) (hb : AllReal b) :
    AllReal (Idealize.ShloMosaic.maximumf a b) := fun i => by
  obtain ⟨x, hx⟩ := ha i; obtain ⟨y, hy⟩ := hb i
  exact ⟨max x y, by show max (a i) (b i) = _; rw [hx, hy, coe_max_real]⟩

theorem allPos_maximumf_left {a b : FVec Ideal s .f32} (ha : AllPos a) (hb : AllReal b) :
    AllPos (Idealize.ShloMosaic.maximumf a b) := fun i => by
  obtain ⟨x, hx0, hx⟩ := ha i; obtain ⟨y, hy⟩ := hb i
  exact ⟨max x y, lt_max_of_lt_left hx0, by show max (a i) (b i) = _; rw [hx, hy, coe_max_real]⟩

theorem allPos_maximumf_right {a b : FVec Ideal s .f32} (ha : AllReal a) (hb : AllPos b) :
    AllPos (Idealize.ShloMosaic.maximumf a b) := fun i => by
  obtain ⟨x, hx⟩ := ha i; obtain ⟨y, hy0, hy⟩ := hb i
  exact ⟨max x y, lt_max_of_lt_right hy0, by show max (a i) (b i) = _; rw [hx, hy, coe_max_real]⟩

theorem allNonneg_maximumf_left {a b : FVec Ideal s .f32} (ha : AllNonneg a) (hb : AllReal b) :
    AllNonneg (Idealize.ShloMosaic.maximumf a b) := fun i => by
  obtain ⟨x, hx0, hx⟩ := ha i; obtain ⟨y, hy⟩ := hb i
  exact ⟨max x y, le_max_of_le_left hx0, by show max (a i) (b i) = _; rw [hx, hy, coe_max_real]⟩

/-- The rectifier: a maximum with a non-negative array (with zero) is non-negative. -/
theorem allNonneg_maximumf_right {a b : FVec Ideal s .f32} (ha : AllReal a) (hb : AllNonneg b) :
    AllNonneg (Idealize.ShloMosaic.maximumf a b) := fun i => by
  obtain ⟨x, hx⟩ := ha i; obtain ⟨y, hy0, hy⟩ := hb i
  exact ⟨max x y, le_max_of_le_right hy0, by show max (a i) (b i) = _; rw [hx, hy, coe_max_real]⟩

/-- A maximum with minus infinity on the left is the right operand. -/
theorem allReal_maximumf_bot_left {a b : FVec Ideal s .f32} (ha : ∀ i, a i = ⊥) (hb : AllReal b) :
    AllReal (Idealize.ShloMosaic.maximumf a b) := fun i => by
  obtain ⟨y, hy⟩ := hb i
  exact ⟨y, by show max (a i) (b i) = _; rw [ha i, hy, max_eq_right bot_le]⟩

/-! ### Selection -/

theorem allReal_select {c : IVec s 1} {a b : FVec Ideal s .f32} (ha : AllReal a) (hb : AllReal b) :
    AllReal (Idealize.ShloMosaic.select c a b) := fun i => by
  show ∃ r : ℝ, Scalar.select (c i) (a i) (b i) = _
  unfold Scalar.select; split
  · exact ha i
  · exact hb i

theorem allPos_select {c : IVec s 1} {a b : FVec Ideal s .f32} (ha : AllPos a) (hb : AllPos b) :
    AllPos (Idealize.ShloMosaic.select c a b) := fun i => by
  show ∃ r : ℝ, 0 < r ∧ Scalar.select (c i) (a i) (b i) = _
  unfold Scalar.select; split
  · exact ha i
  · exact hb i

theorem allNonneg_select {c : IVec s 1} {a b : FVec Ideal s .f32} (ha : AllNonneg a) (hb : AllNonneg b) :
    AllNonneg (Idealize.ShloMosaic.select c a b) := fun i => by
  show ∃ r : ℝ, 0 ≤ r ∧ Scalar.select (c i) (a i) (b i) = _
  unfold Scalar.select; split
  · exact ha i
  · exact hb i

/-- A selection whose condition holds everywhere is its first branch; one whose condition fails everywhere, its second. -/
theorem select_eq_left {α : Type} {c : IVec s 1} (hc : ∀ i, c i = 1) (a b : s.Idx → α) :
    Idealize.ShloMosaic.select c a b = a := funext fun i => by
  show Scalar.select (c i) (a i) (b i) = a i
  unfold Scalar.select; rw [if_pos (hc i)]
theorem select_eq_right {α : Type} {c : IVec s 1} (hc : ∀ i, c i ≠ 1) (a b : s.Idx → α) :
    Idealize.ShloMosaic.select c a b = b := funext fun i => by
  show Scalar.select (c i) (a i) (b i) = b i
  unfold Scalar.select; rw [if_neg (hc i)]

theorem allReal_select_left {c : IVec s 1} {a b : FVec Ideal s .f32} (hc : ∀ i, c i = 1) (ha : AllReal a) :
    AllReal (Idealize.ShloMosaic.select c a b) := by rw [select_eq_left hc]; exact ha
theorem allPos_select_left {c : IVec s 1} {a b : FVec Ideal s .f32} (hc : ∀ i, c i = 1) (ha : AllPos a) :
    AllPos (Idealize.ShloMosaic.select c a b) := by rw [select_eq_left hc]; exact ha
theorem allNonneg_select_left {c : IVec s 1} {a b : FVec Ideal s .f32} (hc : ∀ i, c i = 1) (ha : AllNonneg a) :
    AllNonneg (Idealize.ShloMosaic.select c a b) := by rw [select_eq_left hc]; exact ha

/-- An integer converted to a float is real. -/
theorem allReal_sitofp {w : Nat} (x : IVec s w) : AllReal (Idealize.ShloMosaic.sitofp (F := Ideal) .f32 x) :=
  fun i => ⟨((x i).toInt : ℝ), rfl⟩

end Pointwise

/-! ## Re-indexing operations

Each of these reads every result element off some operand element, so it preserves all three classes. -/

section Reindex
variable {s t : Shape}

theorem allReal_broadcastInDim (dims : Fin s.rank → Fin t.rank) (h : s.BroadcastsInDim t dims) {x : FVec Ideal s .f32}
    (hx : AllReal x) : AllReal (broadcastInDim t dims h x) := fun _ => hx _
theorem allPos_broadcastInDim (dims : Fin s.rank → Fin t.rank) (h : s.BroadcastsInDim t dims) {x : FVec Ideal s .f32}
    (hx : AllPos x) : AllPos (broadcastInDim t dims h x) := fun _ => hx _
theorem allNonneg_broadcastInDim (dims : Fin s.rank → Fin t.rank) (h : s.BroadcastsInDim t dims) {x : FVec Ideal s .f32}
    (hx : AllNonneg x) : AllNonneg (broadcastInDim t dims h x) := fun _ => hx _

/-- A broadcast of an array that is minus infinity everywhere is minus infinity everywhere. -/
theorem broadcastInDim_bot (dims : Fin s.rank → Fin t.rank) (h : s.BroadcastsInDim t dims) {x : FVec Ideal s .f32}
    (hx : ∀ i, x i = ⊥) : ∀ j, broadcastInDim t dims h x j = ⊥ := fun _ => hx _

theorem allReal_shapeCast (h : s.ShapeCasts t) {x : FVec Ideal s .f32} (hx : AllReal x) : AllReal (shapeCast t x h) :=
  fun _ => hx _
theorem allPos_shapeCast (h : s.ShapeCasts t) {x : FVec Ideal s .f32} (hx : AllPos x) : AllPos (shapeCast t x h) :=
  fun _ => hx _
theorem allNonneg_shapeCast (h : s.ShapeCasts t) {x : FVec Ideal s .f32} (hx : AllNonneg x) :
    AllNonneg (shapeCast t x h) := fun _ => hx _

theorem allReal_extractStridedSlice (off : Fin s.rank → Nat) (h : s.Slices off t) {x : FVec Ideal s .f32}
    (hx : AllReal x) : AllReal (extractStridedSlice t off x h) := fun _ => hx _
theorem allPos_extractStridedSlice (off : Fin s.rank → Nat) (h : s.Slices off t) {x : FVec Ideal s .f32}
    (hx : AllPos x) : AllPos (extractStridedSlice t off x h) := fun _ => hx _
theorem allNonneg_extractStridedSlice (off : Fin s.rank → Nat) (h : s.Slices off t) {x : FVec Ideal s .f32}
    (hx : AllNonneg x) : AllNonneg (extractStridedSlice t off x h) := fun _ => hx _

/-- A gather reads each result element off the operand (at a clamped index): no fill value. -/
theorem allReal_gather {si : Shape} {w : Nat} (d : GatherDims s si t) {x : FVec Ideal s .f32} (idx : IVec si w)
    (hx : AllReal x) : AllReal (Host.gather d x idx) := fun _ => hx _
theorem allPos_gather {si : Shape} {w : Nat} (d : GatherDims s si t) {x : FVec Ideal s .f32} (idx : IVec si w)
    (hx : AllPos x) : AllPos (Host.gather d x idx) := fun _ => hx _
theorem allNonneg_gather {si : Shape} {w : Nat} (d : GatherDims s si t) {x : FVec Ideal s .f32} (idx : IVec si w)
    (hx : AllNonneg x) : AllNonneg (Host.gather d x idx) := fun _ => hx _

end Reindex

/-! ## Constants

A 32-bit pattern whose exponent field is not all ones denotes a real number; with a clear sign bit and a
non-zero exponent field, a positive one. -/

section Constants

/-- What a 32-bit pattern denotes, by its fields. -/
theorem ofBits_f32_cases (b : BitVec 32) :
    Ideal.ofBits .f32 b =
      if (b.extractLsb' 23 8).toNat = 255 then
        (if (b.extractLsb' 0 23).toNat = 0 then (if (b.extractLsb' 31 1 == 1#1) then ⊥ else ⊤) else ⊥)
      else if (b.extractLsb' 23 8).toNat = 0 then
        (((if (b.extractLsb' 31 1 == 1#1) then (-1 : ℝ) else 1) * ((b.extractLsb' 0 23).toNat : ℝ)
          * (2 : ℝ) ^ (1 - (2 ^ (8 - 1) - 1 : Int) - (23 : Nat) : Int) : ℝ) : EReal)
      else
        (((if (b.extractLsb' 31 1 == 1#1) then (-1 : ℝ) else 1) * ((2 ^ 23 + (b.extractLsb' 0 23).toNat : Nat) : ℝ)
          * (2 : ℝ) ^ ((((b.extractLsb' 23 8).toNat : Nat) : Int) - (2 ^ (8 - 1) - 1 : Int) - (23 : Nat)) : ℝ) : EReal) := rfl

theorem ofBits_f32_real (b : BitVec 32) (h : (b.extractLsb' 23 8).toNat ≠ 255) :
    ∃ r : ℝ, Ideal.ofBits .f32 b = (r : EReal) := by
  rw [ofBits_f32_cases, if_neg h]
  split <;> exact ⟨_, rfl⟩

theorem ofBits_f32_pos (b : BitVec 32) (hs : (b.extractLsb' 31 1 == 1#1) = false)
    (h : (b.extractLsb' 23 8).toNat ≠ 255) (h0 : (b.extractLsb' 23 8).toNat ≠ 0) :
    ∃ r : ℝ, 0 < r ∧ Ideal.ofBits .f32 b = (r : EReal) := by
  rw [ofBits_f32_cases, if_neg h, if_neg h0, hs]
  refine ⟨_, ?_, rfl⟩
  simp only [Bool.false_eq_true, if_false]
  positivity

/-- The pattern of minus infinity. -/
theorem ofBits_f32_FF800000 : Ideal.ofBits .f32 0xFF800000#32 = ⊥ := by
  rw [ofBits_f32_cases, if_pos (by decide), if_pos (by decide), if_pos (by decide)]

theorem allReal_constant (s : Shape) (b : BitVec 32) (h : (b.extractLsb' 23 8).toNat ≠ 255) :
    AllReal (constant (F := Ideal) s .f32 b) := fun _ => ofBits_f32_real b h

theorem allPos_constant (s : Shape) (b : BitVec 32) (hs : (b.extractLsb' 31 1 == 1#1) = false)
    (h : (b.extractLsb' 23 8).toNat ≠ 255) (h0 : (b.extractLsb' 23 8).toNat ≠ 0) :
    AllPos (constant (F := Ideal) s .f32 b) := fun _ => ofBits_f32_pos b hs h h0

/-- The zero pattern. -/
theorem allNonneg_constant_00000000 (s : Shape) : AllNonneg (constant (F := Ideal) s .f32 0x00000000#32) :=
  fun _ => ⟨0, le_rfl, by show Ideal.ofBits .f32 0x00000000#32 = _; rw [Ideal.ofBits_zero_f32, EReal.coe_zero]⟩
theorem allReal_constant_00000000 (s : Shape) : AllReal (constant (F := Ideal) s .f32 0x00000000#32) :=
  (allNonneg_constant_00000000 s).allReal

/-- Minus one half. -/
theorem allReal_constant_BF000000 (s : Shape) : AllReal (constant (F := Ideal) s .f32 0xBF000000#32) :=
  allReal_constant s _ (by decide)

/-- Minus infinity. -/
theorem constant_FF800000 (s : Shape) (i : s.Idx) : constant (F := Ideal) s .f32 0xFF800000#32 i = ⊥ :=
  ofBits_f32_FF800000

theorem allPos_constant_3F800000 (s : Shape) : AllPos (constant (F := Ideal) s .f32 0x3F800000#32) :=
  allPos_constant s _ (by decide) (by decide) (by decide)
theorem allPos_constant_2B8CBCCC (s : Shape) : AllPos (constant (F := Ideal) s .f32 0x2B8CBCCC#32) :=
  allPos_constant s _ (by decide) (by decide) (by decide)
theorem allPos_constant_41200000 (s : Shape) : AllPos (constant (F := Ideal) s .f32 0x41200000#32) :=
  allPos_constant s _ (by decide) (by decide) (by decide)
theorem allPos_constant_3F000000 (s : Shape) : AllPos (constant (F := Ideal) s .f32 0x3F000000#32) :=
  allPos_constant s _ (by decide) (by decide) (by decide)
theorem allPos_constant_3727C5AC (s : Shape) : AllPos (constant (F := Ideal) s .f32 0x3727C5AC#32) :=
  allPos_constant s _ (by decide) (by decide) (by decide)
theorem allPos_constant_47C35000 (s : Shape) : AllPos (constant (F := Ideal) s .f32 0x47C35000#32) :=
  allPos_constant s _ (by decide) (by decide) (by decide)

/-! The same constants broadcast. -/

variable {s t : Shape} (dims : Fin s.rank → Fin t.rank) (h : s.BroadcastsInDim t dims)

theorem allNonneg_broadcast_constant_00000000 :
    AllNonneg (broadcastInDim t dims h (constant (F := Ideal) s .f32 0x00000000#32)) :=
  allNonneg_broadcastInDim dims h (allNonneg_constant_00000000 s)
theorem allReal_broadcast_constant_00000000 :
    AllReal (broadcastInDim t dims h (constant (F := Ideal) s .f32 0x00000000#32)) :=
  allReal_broadcastInDim dims h (allReal_constant_00000000 s)
theorem allReal_broadcast_constant_BF000000 :
    AllReal (broadcastInDim t dims h (constant (F := Ideal) s .f32 0xBF000000#32)) :=
  allReal_broadcastInDim dims h (allReal_constant_BF000000 s)
theorem broadcast_constant_FF800000 (j : t.Idx) :
    broadcastInDim t dims h (constant (F := Ideal) s .f32 0xFF800000#32) j = ⊥ :=
  broadcastInDim_bot dims h (constant_FF800000 s) j
theorem allPos_broadcast_constant_3F800000 :
    AllPos (broadcastInDim t dims h (constant (F := Ideal) s .f32 0x3F800000#32)) :=
  allPos_broadcastInDim dims h (allPos_constant_3F800000 s)
theorem allPos_broadcast_constant_2B8CBCCC :
    AllPos (broadcastInDim t dims h (constant (F := Ideal) s .f32 0x2B8CBCCC#32)) :=
  allPos_broadcastInDim dims h (allPos_constant_2B8CBCCC s)
theorem allPos_broadcast_constant_41200000 :
    AllPos (broadcastInDim t dims h (constant (F := Ideal) s .f32 0x41200000#32)) :=
  allPos_broadcastInDim dims h (allPos_constant_41200000 s)
theorem allPos_broadcast_constant_3F000000 :
    AllPos (broadcastInDim t dims h (constant (F := Ideal) s .f32 0x3F000000#32)) :=
  allPos_broadcastInDim dims h (allPos_constant_3F000000 s)
theorem allPos_broadcast_constant_3727C5AC :
    AllPos (broadcastInDim t dims h (constant (F := Ideal) s .f32 0x3727C5AC#32)) :=
  allPos_broadcastInDim dims h (allPos_constant_3727C5AC s)
theorem allPos_broadcast_constant_47C35000 :
    AllPos (broadcastInDim t dims h (constant (F := Ideal) s .f32 0x47C35000#32)) :=
  allPos_broadcastInDim dims h (allPos_constant_47C35000 s)

end Constants

/-! ## Finite sums

A finite sum of reals is real; of non-negative reals, non-negative; of positive reals over a non-empty
index set, positive. -/

section Sums
variable {ι : Type}

theorem sum_real (S : Finset ι) (f : ι → EReal) (hf : ∀ i ∈ S, ∃ r : ℝ, f i = (r : EReal)) :
    ∃ r : ℝ, ∑ i ∈ S, f i = (r : EReal) := by
  induction S using Finset.cons_induction with
  | empty => exact ⟨0, by rw [Finset.sum_empty, EReal.coe_zero]⟩
  | cons a S ha ih =>
    obtain ⟨x, hx⟩ := hf a (Finset.mem_cons_self a S)
    obtain ⟨y, hy⟩ := ih (fun i hi => hf i (Finset.mem_cons.2 (Or.inr hi)))
    exact ⟨x + y, by rw [Finset.sum_cons, hx, hy, EReal.coe_add]⟩

theorem sum_nonneg_real (S : Finset ι) (f : ι → EReal) (hf : ∀ i ∈ S, ∃ r : ℝ, 0 ≤ r ∧ f i = (r : EReal)) :
    ∃ r : ℝ, 0 ≤ r ∧ ∑ i ∈ S, f i = (r : EReal) := by
  induction S using Finset.cons_induction with
  | empty => exact ⟨0, le_rfl, by rw [Finset.sum_empty, EReal.coe_zero]⟩
  | cons a S ha ih =>
    obtain ⟨x, hx0, hx⟩ := hf a (Finset.mem_cons_self a S)
    obtain ⟨y, hy0, hy⟩ := ih (fun i hi => hf i (Finset.mem_cons.2 (Or.inr hi)))
    exact ⟨x + y, add_nonneg hx0 hy0, by rw [Finset.sum_cons, hx, hy, EReal.coe_add]⟩

theorem sum_pos_real (S : Finset ι) (hS : S.Nonempty) (f : ι → EReal)
    (hf : ∀ i ∈ S, ∃ r : ℝ, 0 < r ∧ f i = (r : EReal)) : ∃ r : ℝ, 0 < r ∧ ∑ i ∈ S, f i = (r : EReal) := by
  classical
  obtain ⟨a, ha⟩ := hS
  obtain ⟨x, hx0, hx⟩ := hf a ha
  obtain ⟨y, hy0, hy⟩ := sum_nonneg_real (S.erase a) f (fun i hi => by
    obtain ⟨r, hr, e⟩ := hf i (Finset.mem_of_mem_erase hi); exact ⟨r, hr.le, e⟩)
  exact ⟨x + y, add_pos_of_pos_of_nonneg hx0 hy0, by rw [← Finset.add_sum_erase S f ha, hx, hy, EReal.coe_add]⟩

end Sums

/-! ## The additive reduction, the additive scatter, the matrix product -/

section Contractions

/-- The additive reduction: the initial value plus the sum of the elements that reduce to the index. -/
theorem allReal_reduceAdd {s t u : Shape} {axes : List (Fin s.rank)} {x : FVec Ideal s .f32}
    {init : FVec Ideal u .f32} {h : s.ReducesTo axes t} {hu : 0 < u.numel} (hx : AllReal x) (hinit : AllReal init) :
    AllReal (Host.reduceAdd x init h hu) := fun j => by
  obtain ⟨a, ha⟩ := hinit (Shape.Idx.first hu)
  obtain ⟨b, hb⟩ := sum_real (Finset.univ.filter fun i => h.drop i = j) x (fun i _ => hx i)
  exact ⟨a + b, by
    show init (Shape.Idx.first hu) + ∑ i ∈ Finset.univ.filter (fun i => h.drop i = j), x i = _
    rw [ha, hb, EReal.coe_add]⟩

theorem allNonneg_reduceAdd {s t u : Shape} {axes : List (Fin s.rank)} {x : FVec Ideal s .f32}
    {init : FVec Ideal u .f32} {h : s.ReducesTo axes t} {hu : 0 < u.numel} (hx : AllNonneg x) (hinit : AllNonneg init) :
    AllNonneg (Host.reduceAdd x init h hu) := fun j => by
  obtain ⟨a, ha0, ha⟩ := hinit (Shape.Idx.first hu)
  obtain ⟨b, hb0, hb⟩ := sum_nonneg_real (Finset.univ.filter fun i => h.drop i = j) x (fun i _ => hx i)
  exact ⟨a + b, add_nonneg ha0 hb0, by
    show init (Shape.Idx.first hu) + ∑ i ∈ Finset.univ.filter (fun i => h.drop i = j), x i = _
    rw [ha, hb, EReal.coe_add]⟩

/-- A sum of positive elements from a non-negative initial value is positive when every result index has an
    element reducing to it. -/
theorem allPos_reduceAdd {s t u : Shape} {axes : List (Fin s.rank)} {x : FVec Ideal s .f32}
    {init : FVec Ideal u .f32} {h : s.ReducesTo axes t} {hu : 0 < u.numel} (hx : AllPos x) (hinit : AllNonneg init)
    (hne : ∀ j, ∃ i, h.drop i = j) : AllPos (Host.reduceAdd x init h hu) := fun j => by
  obtain ⟨a, ha0, ha⟩ := hinit (Shape.Idx.first hu)
  obtain ⟨i0, hi0⟩ := hne j
  obtain ⟨b, hb0, hb⟩ := sum_pos_real (Finset.univ.filter fun i => h.drop i = j)
    ⟨i0, Finset.mem_filter.2 ⟨Finset.mem_univ _, hi0⟩⟩ x (fun i _ => hx i)
  exact ⟨a + b, add_pos_of_nonneg_of_pos ha0 hb0, by
    show init (Shape.Idx.first hu) + ∑ i ∈ Finset.univ.filter (fun i => h.drop i = j), x i = _
    rw [ha, hb, EReal.coe_add]⟩

/-- Reducing one axis of positive size onto a result of positive rank: every result index is reached. -/
theorem drop_surjective_single {s t : Shape} {a : Fin s.rank} (h : s.ReducesTo [a] t) (ht : 0 < t.rank)
    (ha : 0 < s.size a) (j : t.Idx) : ∃ i, h.drop i = j := by
  have hR : s.Reduces [a] t := ⟨h.1, ht, h.2⟩
  exact ⟨hR.lift j ⟨0, ha⟩, by rw [Shape.ReducesTo.drop_eq_drop h hR]; exact hR.drop_lift j _⟩

/-- The additive scatter: each operand element plus a finite sum of update elements. -/
theorem allReal_scatterAdd {s si su : Shape} {w : Nat} (d : ScatterDims s si su) {x : FVec Ideal s .f32}
    (idx : IVec si w) {upd : FVec Ideal su .f32} (hx : AllReal x) (hupd : AllReal upd) :
    AllReal (Host.scatterAdd d x idx upd) := fun i => by
  obtain ⟨a, ha⟩ := hx i
  obtain ⟨b, hb⟩ := sum_real (Finset.univ.filter fun j => d.resultIdx? j idx = some i) upd (fun j _ => hupd j)
  exact ⟨a + b, by
    show x i + ∑ j ∈ Finset.univ.filter (fun j => d.resultIdx? j idx = some i), upd j = _
    rw [ha, hb, EReal.coe_add]⟩

theorem allNonneg_scatterAdd {s si su : Shape} {w : Nat} (d : ScatterDims s si su) {x : FVec Ideal s .f32}
    (idx : IVec si w) {upd : FVec Ideal su .f32} (hx : AllNonneg x) (hupd : AllNonneg upd) :
    AllNonneg (Host.scatterAdd d x idx upd) := fun i => by
  obtain ⟨a, ha0, ha⟩ := hx i
  obtain ⟨b, hb0, hb⟩ := sum_nonneg_real (Finset.univ.filter fun j => d.resultIdx? j idx = some i) upd (fun j _ => hupd j)
  exact ⟨a + b, add_nonneg ha0 hb0, by
    show x i + ∑ j ∈ Finset.univ.filter (fun j => d.resultIdx? j idx = some i), upd j = _
    rw [ha, hb, EReal.coe_add]⟩

/-- The matrix product: a finite sum of products. -/
theorem allReal_dotGeneral {sl sr so : Shape} (d : DotDims sl sr so) (prec : Option ContractPrecision)
    {lhs : FVec Ideal sl .f32} {rhs : FVec Ideal sr .f32} (hl : AllReal lhs) (hr : AllReal rhs) :
    AllReal (Host.dotGeneral d prec lhs rhs) := fun j => by
  obtain ⟨b, hb⟩ := sum_real (Finset.univ : Finset d.contr.Idx) (fun k => lhs (d.lhsIdx j k) * rhs (d.rhsIdx j k))
    (fun k _ => by
      obtain ⟨x, hx⟩ := hl (d.lhsIdx j k); obtain ⟨y, hy⟩ := hr (d.rhsIdx j k)
      exact ⟨x * y, by rw [hx, hy, EReal.coe_mul]⟩)
  exact ⟨b, by
    show FloatOps.dotGeneral d prec .single lhs rhs j = _
    rw [Ideal.dotGeneral_apply]; exact hb⟩

theorem allNonneg_dotGeneral {sl sr so : Shape} (d : DotDims sl sr so) (prec : Option ContractPrecision)
    {lhs : FVec Ideal sl .f32} {rhs : FVec Ideal sr .f32} (hl : AllNonneg lhs) (hr : AllNonneg rhs) :
    AllNonneg (Host.dotGeneral d prec lhs rhs) := fun j => by
  obtain ⟨b, hb0, hb⟩ := sum_nonneg_real (Finset.univ : Finset d.contr.Idx)
    (fun k => lhs (d.lhsIdx j k) * rhs (d.rhsIdx j k))
    (fun k _ => by
      obtain ⟨x, hx0, hx⟩ := hl (d.lhsIdx j k); obtain ⟨y, hy0, hy⟩ := hr (d.rhsIdx j k)
      exact ⟨x * y, mul_nonneg hx0 hy0, by rw [hx, hy, EReal.coe_mul]⟩)
  exact ⟨b, hb0, by
    show FloatOps.dotGeneral d prec .single lhs rhs j = _
    rw [Ideal.dotGeneral_apply]; exact hb⟩

end Contractions

/-! ## The maximum reduction

A left fold of the maximum from minus infinity (or a real) over a non-empty list of reals is real. -/

section MaxReduce

theorem foldl_max_real {ι : Type} (x : ι → EReal) (hx : ∀ i, ∃ r : ℝ, x i = (r : EReal)) :
    ∀ (L : List ι) (a : EReal), (a = ⊥ ∨ ∃ r : ℝ, a = (r : EReal)) → (L ≠ [] ∨ ∃ r : ℝ, a = (r : EReal)) →
      ∃ r : ℝ, L.foldl (fun r i => max r (x i)) a = (r : EReal)
  | [], a, _, h2 => by
    rcases h2 with h | h
    · exact absurd rfl h
    · exact h
  | i :: L, a, h1, _ => by
    have hreal : ∃ r : ℝ, max a (x i) = (r : EReal) := by
      obtain ⟨y, hy⟩ := hx i
      rcases h1 with h | ⟨z, hz⟩
      · exact ⟨y, by rw [h, hy, max_eq_right bot_le]⟩
      · exact ⟨max z y, by rw [hz, hy, coe_max_real]⟩
    rw [List.foldl_cons]
    exact foldl_max_real x hx L _ (Or.inr hreal) (Or.inr hreal)

/-- The maximum reduction of a real-valued array from minus infinity or a real, every result index reached. -/
theorem allReal_reduce_maximumf {s t u : Shape} {axes : List (Fin s.rank)} {x : FVec Ideal s .f32}
    {init : FVec Ideal u .f32} {h : s.ReducesTo axes t} {hu : 0 < u.numel} (hx : AllReal x)
    (hinit : init (Shape.Idx.first hu) = ⊥ ∨ ∃ r : ℝ, init (Shape.Idx.first hu) = (r : EReal))
    (hne : ∀ j, ∃ i, h.drop i = j) :
    AllReal (Host.reduce FloatOps.maximumf x init h hu) := fun j => by
  rw [Host.reduce_eq_foldl]
  obtain ⟨i0, hi0⟩ := hne j
  exact foldl_max_real x hx _ _ hinit (Or.inl (List.ne_nil_of_mem (List.mem_filter.2
    ⟨List.mem_map.2 ⟨s.rowMajor i0, List.mem_finRange _, Equiv.symm_apply_apply _ _⟩, by simpa using hi0⟩)))

/-- The same from the pattern of minus infinity. -/
theorem allReal_reduce_maximumf_FF800000 {s t u : Shape} {axes : List (Fin s.rank)} {x : FVec Ideal s .f32}
    {h : s.ReducesTo axes t} {hu : 0 < u.numel} (hx : AllReal x) (hne : ∀ j, ∃ i, h.drop i = j) :
    AllReal (Host.reduce FloatOps.maximumf x (constant (F := Ideal) u .f32 0xFF800000#32) h hu) :=
  allReal_reduce_maximumf hx (Or.inl (constant_FF800000 u _)) hne

end MaxReduce

/-! ## Concatenation -/

section Concat

theorem allReal_concatenate (t : Shape) (a : Fin t.rank) (xs : List ((s : Shape) × (s.Idx → EReal)))
    (h : Shape.Concatenates (xs.map (·.1)) t a) (hxs : ∀ p ∈ xs, AllReal p.2) : AllReal (concatenate t a xs h) :=
  fun _ => hxs _ (List.getElem_mem _) _
theorem allPos_concatenate (t : Shape) (a : Fin t.rank) (xs : List ((s : Shape) × (s.Idx → EReal)))
    (h : Shape.Concatenates (xs.map (·.1)) t a) (hxs : ∀ p ∈ xs, AllPos p.2) : AllPos (concatenate t a xs h) :=
  fun _ => hxs _ (List.getElem_mem _) _
theorem allNonneg_concatenate (t : Shape) (a : Fin t.rank) (xs : List ((s : Shape) × (s.Idx → EReal)))
    (h : Shape.Concatenates (xs.map (·.1)) t a) (hxs : ∀ p ∈ xs, AllNonneg p.2) : AllNonneg (concatenate t a xs h) :=
  fun _ => hxs _ (List.getElem_mem _) _

/-- Three pieces. -/
theorem allReal_concatenate₃ {t : Shape} {a : Fin t.rank} {s₁ s₂ s₃ : Shape} {x₁ : FVec Ideal s₁ .f32}
    {x₂ : FVec Ideal s₂ .f32} {x₃ : FVec Ideal s₃ .f32}
    {h : Shape.Concatenates (([⟨s₁, x₁⟩, ⟨s₂, x₂⟩, ⟨s₃, x₃⟩] : List ((s : Shape) × (s.Idx → EReal))).map (·.1)) t a}
    (h₁ : AllReal x₁) (h₂ : AllReal x₂) (h₃ : AllReal x₃) :
    AllReal (concatenate t a [⟨s₁, x₁⟩, ⟨s₂, x₂⟩, ⟨s₃, x₃⟩] h) :=
  allReal_concatenate t a _ h (by
    intro p hp
    simp only [List.mem_cons, List.not_mem_nil, or_false] at hp
    rcases hp with rfl | rfl | rfl
    · exact h₁
    · exact h₂
    · exact h₃)
theorem allNonneg_concatenate₃ {t : Shape} {a : Fin t.rank} {s₁ s₂ s₃ : Shape} {x₁ : FVec Ideal s₁ .f32}
    {x₂ : FVec Ideal s₂ .f32} {x₃ : FVec Ideal s₃ .f32}
    {h : Shape.Concatenates (([⟨s₁, x₁⟩, ⟨s₂, x₂⟩, ⟨s₃, x₃⟩] : List ((s : Shape) × (s.Idx → EReal))).map (·.1)) t a}
    (h₁ : AllNonneg x₁) (h₂ : AllNonneg x₂) (h₃ : AllNonneg x₃) :
    AllNonneg (concatenate t a [⟨s₁, x₁⟩, ⟨s₂, x₂⟩, ⟨s₃, x₃⟩] h) :=
  allNonneg_concatenate t a _ h (by
    intro p hp
    simp only [List.mem_cons, List.not_mem_nil, or_false] at hp
    rcases hp with rfl | rfl | rfl
    · exact h₁
    · exact h₂
    · exact h₃)

end Concat

end Cert.LibFinite
-- ==== Proof.Layer3.lean ====
import proofs.«406188_j42279658062119_3_alg».proof.Proof.Spec
import proofs.«406188_j42279658062119_3_alg».proof.Proof.Dense
import proofs.«406188_j42279658062119_3_alg».proof.Proof.LibRows
import proofs.«406188_j42279658062119_3_alg».proof.Proof.LibFinite
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Mathlib.Algebra.BigOperators.Ring.Finset
import Mathlib.Tactic.Ring

noncomputable section

namespace Cert.Sage

open Idealize.ShloMosaic Idealize.ShloMosaic.ValueIdx Cert.ReferenceIdeal Cert.ReferenceIdeal.Facts₀ Cert.LibFinite Cert.LibRows
open scoped BigOperators

/-! ## The law over abstract finite types

For a finite set `D` of edges, real rows `a e` of width `K`, a real column `b` and a real scale `c`:
`(∑ e ∈ D, ∑ k, a e k · b k) · c = ∑ k, ((∑ e ∈ D, a e k) · c) · b k`. -/

/-- The coercion of the reals into the extended reals commutes with a finite sum. -/
theorem coe_sum {ι : Type} (S : Finset ι) (f : ι → ℝ) :
    (∑ i ∈ S, ((f i : ℝ) : EReal)) = ((∑ i ∈ S, f i : ℝ) : EReal) := by
  induction S using Finset.cons_induction with
  | empty => rw [Finset.sum_empty, Finset.sum_empty, EReal.coe_zero]
  | cons a S ha ih => rw [Finset.sum_cons, Finset.sum_cons, ih, EReal.coe_add]

/-- The law in the reals: the two sums exchange and the scale distributes over the sum. -/
theorem law_real {ι : Type} {K : ℕ} (D : Finset ι) (a : ι → Fin K → ℝ) (b : Fin K → ℝ) (c : ℝ) :
    (∑ e ∈ D, ∑ k, a e k * b k) * c = ∑ k, ((∑ e ∈ D, a e k) * c) * b k := by
  rw [Finset.sum_comm, Finset.sum_mul]
  refine Finset.sum_congr rfl fun k _ => ?_
  rw [← Finset.sum_mul]
  ring

/-- The law in the extended reals, every entry a real and the divisor a positive real: the division is a
    multiplication by the reciprocal, and every sum and product is the coercion of the real one. -/
theorem law_ereal {ι : Type} {K : ℕ} (D : Finset ι) (a : ι → Fin K → ℝ) (b : Fin K → ℝ) {c : ℝ} (hc : 0 < c) :
    Ideal.div ((0 : EReal) + ∑ e ∈ D, ∑ k, ((a e k : ℝ) : EReal) * ((b k : ℝ) : EReal)) (c : EReal)
      = ∑ k, Ideal.div ((0 : EReal) + ∑ e ∈ D, ((a e k : ℝ) : EReal)) (c : EReal) * ((b k : ℝ) : EReal) := by
  simp only [Ideal.div_coe hc.ne', zero_add, ← EReal.coe_mul, coe_sum]
  rw [law_real]

/-! ## The divisor -/

/-- The mean's divisor is a positive real at every node: an in-degree, or `1`. -/
theorem allPos_cntCol (ei : IVec S2x640000 32) : AllPos (cntCol (F := Ideal) ei) := by
  unfold cntCol cntMax cnt
  exact allPos_broadcastInDim _ _
    (allPos_maximumf_right
      (allReal_scatterAdd _ _ (allReal_broadcast_constant_00000000 _ _) (allPos_broadcast_constant_3F800000 _ _).allReal)
      (allPos_broadcast_constant_3F800000 _ _))

/-! ## The program's gathers and scatters are row gathers and row scatters -/

theorem scatter64_eq : scatter_S50000x64_S640000x1_S640000x64_1_0_0_1
    = rowScatterDims 50000 640000 64 scatter_S50000x64_S640000x1_S640000x64_1_0_0_1_wf := rfl
theorem scatter128_eq : scatter_S50000x128_S640000x1_S640000x128_1_0_0_1
    = rowScatterDims 50000 640000 128 scatter_S50000x128_S640000x1_S640000x128_1_0_0_1_wf := rfl
theorem gather64_eq : gather_S50000x64_S640000x1_S640000x64_1_0_n_n_0_1_164
    = rowGatherDims 50000 640000 64 gather_S50000x64_S640000x1_S640000x64_1_0_n_n_0_1_164_wf := rfl
theorem gather128_eq : gather_S50000x128_S640000x1_S640000x128_1_0_n_n_0_1_1128
    = rowGatherDims 50000 640000 128 gather_S50000x128_S640000x1_S640000x128_1_0_n_n_0_1_1128_wf := rfl

theorem pos50000 : 0 < 50000 := by decide

/-- The source row of edge `e`, clamped into range: it does not depend on the feature width. -/
def srcOf (ei : IVec S2x640000 32) (e : Fin 640000) : Fin 50000 :=
  clampRow 50000 pos50000 (srcIx ei (ix2 e 0))

/-! ## Neighbourhood sums at an index -/

/-- The zero array reads the extended real zero. -/
theorem zeros64_apply (i : S50000x64.Idx) :
    broadcastInDim S50000x64 ![] bcast_S_S50000x64 (constant (F := Ideal) S_ .f32 0x00000000#32) i = 0 := by
  rw [broadcastInDim_scalar_apply, constant_apply, Ideal.ofBits_zero_f32]
theorem zeros128_apply (i : S50000x128.Idx) :
    broadcastInDim S50000x128 ![] bcast_S_S50000x128 (constant (F := Ideal) S_ .f32 0x00000000#32) i = 0 := by
  rw [broadcastInDim_scalar_apply, constant_apply, Ideal.ofBits_zero_f32]

/-- Element `(n, o)` of the neighbourhood sum: zero plus the sum over the edges ending at `n` of the source rows' elements. -/
theorem agg64_apply (x : FVec Ideal S50000x64 .f32) (ei : IVec S2x640000 32) (n : Fin 50000) (o : Fin 64) :
    agg64 (F := Ideal) x ei (ix2 n o) = 0 + ∑ e ∈ landing (dstIx ei) n.val, x (ix2 (srcOf ei e) o) := by
  unfold agg64
  rw [scatter64_eq, gather64_eq, scatterAdd_rows_apply, zeros64_apply]
  refine congrArg (fun t => (0 : EReal) + t) (Finset.sum_congr rfl fun e _ => ?_)
  exact gather_rows_apply pos50000 _ x (srcIx ei) e o

theorem agg128_apply (x : FVec Ideal S50000x128 .f32) (ei : IVec S2x640000 32) (n : Fin 50000) (k : Fin 128) :
    agg128 (F := Ideal) x ei (ix2 n k) = 0 + ∑ e ∈ landing (dstIx ei) n.val, x (ix2 (srcOf ei e) k) := by
  unfold agg128
  rw [scatter128_eq, gather128_eq, scatterAdd_rows_apply, zeros128_apply]
  refine congrArg (fun t => (0 : EReal) + t) (Finset.sum_congr rfl fun e _ => ?_)
  exact gather_rows_apply pos50000 _ x (srcIx ei) e k

/-! ## The divisor column repeated along the features reads the node's divisor -/

theorem cntRep64_apply (ei : IVec S2x640000 32) (n : Fin 50000) (o : Fin 64) :
    broadcastInDim S50000x64 ![0, 1] bcast_S50000x1_S50000x64_0_1 (cntCol (F := Ideal) ei) (ix2 n o)
      = cntCol (F := Ideal) ei (ix2 n 0) :=
  broadcastInDim_apply _ _ _ _ (ix2 n 0) fun a => by
    match a with
    | ⟨0, _⟩ => rfl
    | ⟨1, _⟩ => rfl
theorem cntRep128_apply (ei : IVec S2x640000 32) (n : Fin 50000) (k : Fin 128) :
    broadcastInDim S50000x128 ![0, 1] bcast_S50000x1_S50000x128_0_1 (cntCol (F := Ideal) ei) (ix2 n k)
      = cntCol (F := Ideal) ei (ix2 n 0) :=
  broadcastInDim_apply _ _ _ _ (ix2 n 0) fun a => by
    match a with
    | ⟨0, _⟩ => rfl
    | ⟨1, _⟩ => rfl

/-! ## Means at an index -/

theorem mean64_apply (x : FVec Ideal S50000x64 .f32) (ei : IVec S2x640000 32) (n : Fin 50000) (o : Fin 64) :
    mean64 (F := Ideal) x ei (ix2 n o)
      = Ideal.div (0 + ∑ e ∈ landing (dstIx ei) n.val, x (ix2 (srcOf ei e) o)) (cntCol (F := Ideal) ei (ix2 n 0)) := by
  unfold mean64
  rw [hostDivf_apply, agg64_apply, cntRep64_apply]

theorem mean128_apply (x : FVec Ideal S50000x128 .f32) (ei : IVec S2x640000 32) (n : Fin 50000) (k : Fin 128) :
    mean128 (F := Ideal) x ei (ix2 n k)
      = Ideal.div (0 + ∑ e ∈ landing (dstIx ei) n.val, x (ix2 (srcOf ei e) k)) (cntCol (F := Ideal) ei (ix2 n 0)) := by
  unfold mean128
  rw [hostDivf_apply, agg128_apply, cntRep128_apply]

/-- The product at `(n, o)`. -/
theorem mm128_64_at (a : FVec Ideal S50000x128 .f32) (w : FVec Ideal S128x64 .f32) (n : Fin 50000) (o : Fin 64) :
    mm128_64 (F := Ideal) a w (ix2 n o) = ∑ k : Fin 128, a (ix2 n k) * w (ix2 k o) :=
  mm128_64_apply a w (ix2 n o)

/-! ## The law at a node and an output feature -/

theorem proj_mean_comm_at (h : FVec Ideal S50000x128 .f32) (w : FVec Ideal S128x64 .f32) (ei : IVec S2x640000 32)
    (hh : AllReal h) (hw : AllReal w) (n : Fin 50000) (o : Fin 64) :
    mean64 (F := Ideal) (mm128_64 h w) ei (ix2 n o) = mm128_64 (mean128 h ei) w (ix2 n o) := by
  rw [mean64_apply, mm128_64_at]
  simp only [mm128_64_at, mean128_apply]
  choose hr hhr using hh
  choose wr hwr using hw
  obtain ⟨c, hc, hcc⟩ := allPos_cntCol ei (ix2 n 0)
  simp only [hhr, hwr, hcc]
  exact law_ereal (landing (dstIx ei) n.val) (fun e k => hr (ix2 (srcOf ei e) k)) (fun k => wr (ix2 k o)) hc

/-- PROJECTING COMMUTES WITH AVERAGING over real-valued features and weights: the mean over a node's in-edges of the
    projected rows `h (src e) · W` is the projection of the mean row. Row by row both are
    `(∑ e ∈ D n, ∑ k, h (src e) k · W k o) / c n`: the sums exchange and the division by the positive real `c n` is a
    multiplication, which distributes over a sum of reals. -/
theorem proj_mean_comm (h : FVec Ideal S50000x128 .f32) (w : FVec Ideal S128x64 .f32) (ei : IVec S2x640000 32)
    (hh : AllReal h) (hw : AllReal w) :
    mean64 (F := Ideal) (mm128_64 h w) ei = mm128_64 (mean128 h ei) w := by
  funext i
  rw [eq_ix2 i]
  exact proj_mean_comm_at h w ei hh hw (i 0) (i 1)

/-- The kernel's last layer is the reference's, on real-valued features and weights. -/
theorem outK_eq_outR (h : FVec Ideal S50000x128 .f32) (ei : IVec S2x640000 32) (wl : FVec Ideal S128x64 .f32)
    (b : FVec Ideal S64 .f32) (wr : FVec Ideal S128x64 .f32) (hh : AllReal h) (hw : AllReal wl) :
    outK (F := Ideal) h ei wl b wr = outR h ei wl b wr := by
  unfold outK outR combPre64 comb128_64
  rw [proj_mean_comm h wl ei hh hw]

end Cert.Sage

end
-- ==== Proof.Finite.lean ====
import proofs.«406188_j42279658062119_3_alg».proof.Proof.Spec
import proofs.«406188_j42279658062119_3_alg».proof.Proof.LibFinite
import Idealize.ShloMosaic.PureOps.Ideal

noncomputable section

namespace Cert.Sage

open Idealize.ShloMosaic Cert.ReferenceIdeal Cert.ReferenceIdeal.Facts₀ Cert.LibFinite

namespace FiniteSteps

/-! ## The divisor of the mean is a positive real -/

/-- An in-degree is a real number: zero plus a finite sum of ones. -/
theorem allReal_cnt (ei : IVec S2x640000 32) : AllReal (cnt (F := Ideal) ei) := by
  unfold cnt
  exact allReal_scatterAdd _ _ (allReal_broadcast_constant_00000000 _ _)
    (allPos_broadcast_constant_3F800000 _ _).allReal

/-- The maximum of a real in-degree and the positive constant 1 is positive. -/
theorem allPos_cntMax (ei : IVec S2x640000 32) : AllPos (cntMax (F := Ideal) ei) := by
  unfold cntMax
  exact allPos_maximumf_right (allReal_cnt ei) (allPos_broadcast_constant_3F800000 _ _)

theorem allPos_cntCol (ei : IVec S2x640000 32) : AllPos (cntCol (F := Ideal) ei) := by
  unfold cntCol
  exact allPos_broadcastInDim _ _ (allPos_cntMax ei)

/-! ## Neighbourhood sums and means of real-valued features are real-valued -/

theorem allReal_agg32 {h : FVec Ideal S50000x32 .f32} (hh : AllReal h) (ei : IVec S2x640000 32) :
    AllReal (agg32 h ei) := by
  unfold agg32
  exact allReal_scatterAdd _ _ (allReal_broadcast_constant_00000000 _ _) (allReal_gather _ _ hh)

theorem allReal_agg64 {h : FVec Ideal S50000x64 .f32} (hh : AllReal h) (ei : IVec S2x640000 32) :
    AllReal (agg64 h ei) := by
  unfold agg64
  exact allReal_scatterAdd _ _ (allReal_broadcast_constant_00000000 _ _) (allReal_gather _ _ hh)

/-- A real sum divided by a positive real is real. -/
theorem allReal_mean32 {h : FVec Ideal S50000x32 .f32} (hh : AllReal h) (ei : IVec S2x640000 32) :
    AllReal (mean32 h ei) := by
  unfold mean32
  exact allReal_divf (allReal_agg32 hh ei) (allPos_broadcastInDim _ _ (allPos_cntCol ei))

theorem allReal_mean64 {h : FVec Ideal S50000x64 .f32} (hh : AllReal h) (ei : IVec S2x640000 32) :
    AllReal (mean64 h ei) := by
  unfold mean64
  exact allReal_divf (allReal_agg64 hh ei) (allPos_broadcastInDim _ _ (allPos_cntCol ei))

/-! ## The dense pieces -/

theorem allReal_mm32_64 {a : FVec Ideal S50000x32 .f32} {w : FVec Ideal S32x64 .f32} (ha : AllReal a) (hw : AllReal w) :
    AllReal (mm32_64 a w) := by
  unfold mm32_64
  exact allReal_dotGeneral _ _ ha hw

theorem allReal_mm64_128 {a : FVec Ideal S50000x64 .f32} {w : FVec Ideal S64x128 .f32} (ha : AllReal a) (hw : AllReal w) :
    AllReal (mm64_128 a w) := by
  unfold mm64_128
  exact allReal_dotGeneral _ _ ha hw

theorem allReal_asRow64 {b : FVec Ideal S64 .f32} (hb : AllReal b) : AllReal (asRow64 b) := by
  unfold asRow64
  exact allReal_broadcastInDim _ _ hb

theorem allReal_asRow128 {b : FVec Ideal S128 .f32} (hb : AllReal b) : AllReal (asRow128 b) := by
  unfold asRow128
  exact allReal_broadcastInDim _ _ hb

theorem allReal_rowBias64 {b : FVec Ideal S1x64 .f32} (hb : AllReal b) : AllReal (rowBias64 b) := by
  unfold rowBias64
  exact allReal_broadcastInDim _ _ hb

theorem allReal_rowBias128 {b : FVec Ideal S1x128 .f32} (hb : AllReal b) : AllReal (rowBias128 b) := by
  unfold rowBias128
  exact allReal_broadcastInDim _ _ hb

/-- The maximum of a real and the constant 0 is real. -/
theorem allReal_relu64 {v : FVec Ideal S50000x64 .f32} (hv : AllReal v) : AllReal (relu64 v) := by
  unfold relu64
  exact allReal_maximumf hv (allReal_broadcast_constant_00000000 _ _)

theorem allReal_relu128 {v : FVec Ideal S50000x128 .f32} (hv : AllReal v) : AllReal (relu128 v) := by
  unfold relu128
  exact allReal_maximumf hv (allReal_broadcast_constant_00000000 _ _)

/-! ## One layer: sums of products of reals, plus a real bias -/

theorem allReal_comb32_64 {a x : FVec Ideal S50000x32 .f32} {wl wr : FVec Ideal S32x64 .f32} {b : FVec Ideal S1x64 .f32}
    (ha : AllReal a) (hx : AllReal x) (hwl : AllReal wl) (hwr : AllReal wr) (hb : AllReal b) :
    AllReal (comb32_64 a x wl wr b) := by
  unfold comb32_64
  exact allReal_addf (allReal_addf (allReal_mm32_64 ha hwl) (allReal_rowBias64 hb)) (allReal_mm32_64 hx hwr)

theorem allReal_comb64_128 {a x : FVec Ideal S50000x64 .f32} {wl wr : FVec Ideal S64x128 .f32} {b : FVec Ideal S1x128 .f32}
    (ha : AllReal a) (hx : AllReal x) (hwl : AllReal wl) (hwr : AllReal wr) (hb : AllReal b) :
    AllReal (comb64_128 a x wl wr b) := by
  unfold comb64_128
  exact allReal_addf (allReal_addf (allReal_mm64_128 ha hwl) (allReal_rowBias128 hb)) (allReal_mm64_128 hx hwr)

/-! ## The first two layers -/

theorem allReal_h1 {x : FVec Ideal S50000x32 .f32} (ei : IVec S2x640000 32) {wl : FVec Ideal S32x64 .f32}
    {b : FVec Ideal S64 .f32} {wr : FVec Ideal S32x64 .f32}
    (hx : AllReal x) (hwl : AllReal wl) (hb : AllReal b) (hwr : AllReal wr) : AllReal (h1 x ei wl b wr) := by
  unfold h1
  exact allReal_relu64 (allReal_comb32_64 (allReal_mean32 hx ei) hx hwl hwr (allReal_asRow64 hb))

theorem allReal_h2_of {h : FVec Ideal S50000x64 .f32} (ei : IVec S2x640000 32) {wl : FVec Ideal S64x128 .f32}
    {b : FVec Ideal S128 .f32} {wr : FVec Ideal S64x128 .f32}
    (hh : AllReal h) (hwl : AllReal wl) (hb : AllReal b) (hwr : AllReal wr) : AllReal (h2 h ei wl b wr) := by
  unfold h2
  exact allReal_relu128 (allReal_comb64_128 (allReal_mean64 hh ei) hh hwl hwr (allReal_asRow128 hb))

end FiniteSteps

/-- Two layers of real-valued features and weights are real-valued: sums, products, a quotient by a positive real and a
    maximum of reals are reals. -/
theorem allReal_h2 (x : FVec Ideal S50000x32 .f32) (ei : IVec S2x640000 32)
    (w1l : FVec Ideal S32x64 .f32) (b1 : FVec Ideal S64 .f32) (w1r : FVec Ideal S32x64 .f32)
    (w2l : FVec Ideal S64x128 .f32) (b2 : FVec Ideal S128 .f32) (w2r : FVec Ideal S64x128 .f32)
    (hx : AllReal x) (hw1l : AllReal w1l) (hb1 : AllReal b1) (hw1r : AllReal w1r)
    (hw2l : AllReal w2l) (hb2 : AllReal b2) (hw2r : AllReal w2r) :
    AllReal (h2 (F := Ideal) (h1 x ei w1l b1 w1r) ei w2l b2 w2r) :=
  FiniteSteps.allReal_h2_of ei (FiniteSteps.allReal_h1 ei hx hw1l hb1 hw1r) hw2l hb2 hw2r

end Cert.Sage

end
-- ==== Proof.PreFinite.lean ====
import proofs.«406188_j42279658062119_3_alg».proof.Proof.Gen.Pre_finite_inputs
import proofs.«406188_j42279658062119_3_alg».proof.Proof.LibFinite
import Idealize.ShloMosaic.PureOps.Ideal
import Idealize.ShloMosaic.Lib.ReduceAll
import Idealize.ShloMosaic.Lib.ValueIdx

noncomputable section

namespace Cert.PreFinite

open Idealize.ShloMosaic Cert.Pre_finite_inputs Cert.LibFinite

/-- The scalar shape has one index. -/
instance : Subsingleton S_.Idx := ⟨fun a b => funext fun d => d.elim0⟩

/-- The pattern of plus infinity. -/
theorem ofBits_f32_7F800000 : Ideal.ofBits .f32 0x7F800000#32 = ⊤ := by
  rw [ofBits_f32_cases, if_pos (by decide), if_pos (by decide), if_neg (by decide)]

/-- An extended real whose absolute value is below +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison |x| < +∞ that came out 1 says x is a real number. -/
theorem real_of_cmp_abs (x : EReal)
    (h : Ideal.cmp .olt (max x (-x)) (Ideal.ofBits .f32 0x7F800000#32) = 1#1) : ∃ r : ℝ, x = (r : EReal) := by
  rw [ofBits_f32_7F800000] at h
  refine real_of_abs_lt_top x ?_
  have h' : BitVec.ofBool (decide (max x (-x) < ⊤)) = 1#1 := h
  by_contra hn
  rw [decide_eq_false hn] at h'
  exact absurd h' (by decide)

/-- One array's test: if all (|a| < +∞) is 1, every element of a is a real number. -/
theorem allReal_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
          (cmpf .olt (Host.absf a) (broadcastInDim s ![] hb (constant (F := Ideal) S_ .f32 0x7F800000#32)))
          (constantI S_ 1 1#1) hr hu ValueIdx.ix0 = 1#1) : AllReal a := fun i => by
  have e := Host.reduce_andi_all _ _ hr hu ValueIdx.ix0 h i
  exact real_of_cmp_abs (a i) e

/-- What the precondition says: each of the ten float arguments is real-valued at every index (its absolute value is
    below +∞ everywhere, all ten tests joined by `and`). -/
theorem finite_of_pre (a0 : FVec Ideal S50000x32 .f32) (a1 : IVec S2x640000 32) (a2 : FVec Ideal S32x64 .f32) (a3 : FVec Ideal S64 .f32)
    (a4 : FVec Ideal S32x64 .f32) (a5 : FVec Ideal S64x128 .f32) (a6 : FVec Ideal S128 .f32) (a7 : FVec Ideal S64x128 .f32)
    (a8 : FVec Ideal S128x64 .f32) (a9 : FVec Ideal S64 .f32) (a10 : FVec Ideal S128x64 .f32)
    (h : Cert.Pre_finite_inputs.fn (F := Ideal) a0 a1 a2 a3 a4 a5 a6 a7 a8 a9 a10 = (fun _ => 1#1)) :
    AllReal a0 ∧ AllReal a2 ∧ AllReal a3 ∧ AllReal a4 ∧ AllReal a5 ∧ AllReal a6 ∧ AllReal a7 ∧ AllReal a8 ∧ AllReal a9 ∧ AllReal a10 := by
  have h0 := congrFun h ValueIdx.ix0
  dsimp only [fn, fn_part1, fn_part2, andi] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨allReal_of_all a0 _ _ _ e0, allReal_of_all a2 _ _ _ e2, allReal_of_all a3 _ _ _ e3,
    allReal_of_all a4 _ _ _ e4, allReal_of_all a5 _ _ _ e5, allReal_of_all a6 _ _ _ e6,
    allReal_of_all a7 _ _ _ e7, allReal_of_all a8 _ _ _ e8, allReal_of_all a9 _ _ _ e9,
    allReal_of_all a10 _ _ _ e10⟩

end Cert.PreFinite

end
-- ==== Proof.lean ====
/-
  The certificate of the three-layer mean-aggregation network.

  Both programs gather each edge's source row, add it at the edge's destination, divide by the in-degree (at least one),
  and apply `(mean · Wl + b) + x · Wr`, with a ReLU after the first two layers. They differ in the last layer only: the
  kernel multiplies the features by `Wl` BEFORE it averages them over the in-edges, the reference after. Over real
  numbers the two agree (a finite sum and a division by a positive real commute with a matrix product), and the
  precondition makes every input real, hence every intermediate value: that is the whole algebraic content.
  The three frames are the generated ones; the ideal pass changed nothing, so `preserves` is `True`.
-/
import proofs.«406188_j42279658062119_3_alg».proof.Defs
import proofs.«406188_j42279658062119_3_alg».proof.Proof.Gen.Kernel
import proofs.«406188_j42279658062119_3_alg».proof.Proof.Gen.Kernel.Skeleton
import proofs.«406188_j42279658062119_3_alg».proof.Proof.Gen.Kernel.Launch
import proofs.«406188_j42279658062119_3_alg».proof.Proof.Gen.Kernel.Points
import proofs.«406188_j42279658062119_3_alg».proof.Proof.Gen.Kernel.Frame
import proofs.«406188_j42279658062119_3_alg».proof.Proof.Gen.KernelIdeal
import proofs.«406188_j42279658062119_3_alg».proof.Proof.Gen.KernelIdeal.Skeleton
import proofs.«406188_j42279658062119_3_alg».proof.Proof.Gen.KernelIdeal.Launch
import proofs.«406188_j42279658062119_3_alg».proof.Proof.Gen.KernelIdeal.Points
import proofs.«406188_j42279658062119_3_alg».proof.Proof.Gen.KernelIdeal.Frame
import proofs.«406188_j42279658062119_3_alg».proof.Proof.Gen.ReferenceIdeal
import proofs.«406188_j42279658062119_3_alg».proof.Proof.Gen.Pre_finite_inputs
import proofs.«406188_j42279658062119_3_alg».proof.Proof.Gen.ReferenceIdeal.Run
import proofs.«406188_j42279658062119_3_alg».proof.Proof.KernelRun
import proofs.«406188_j42279658062119_3_alg».proof.Proof.KernelValue
import proofs.«406188_j42279658062119_3_alg».proof.Proof.RefValue
import proofs.«406188_j42279658062119_3_alg».proof.Proof.Layer3
import proofs.«406188_j42279658062119_3_alg».proof.Proof.Finite
import proofs.«406188_j42279658062119_3_alg».proof.Proof.PreFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's network `net` of the (agreeing) arguments: the reference's by its run
    read back, the kernel's at its own network `netK`, which is `net` because the precondition makes the second layer's
    output and the last layer's left weights real-valued. -/
theorem algebraic : Cert.algebraic_KernelIdeal_ReferenceIdeal := by
  intro m ρ m' ρ' hpre hagree
  refine ⟨fun c => Cert.Sage.net (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.KernelIdeal.ValueRun.run_result (F := Ideal) m ρ)
    rw [Cert.KernelIdeal.ValueRun.result_eq m ρ c]
    obtain ⟨h0, h2, h3, h4, h5, h6, h7, h8, -, -⟩ := Cert.PreFinite.finite_of_pre _ _ _ _ _ _ _ _ _ _ _ (hpre c)
    unfold Cert.Sage.netK Cert.Sage.net
    exact Cert.Sage.outK_eq_outR _ _ _ _ _ (Cert.Sage.allReal_h2 _ _ _ _ _ _ _ _ h0 h2 h3 h4 h5 h6 h7) h8
  · refine (θ_run Cert.ReferenceIdeal.defs _ _).mono (fun r h c => ⟨(h c).1.trans ?_, (h c).2⟩)
      (Cert.ReferenceIdeal.Value.run (F := Ideal) m' ρ')
    rw [Cert.Sage.ref_result m' c, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
